-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 1 := constantI S_ 1 1#1
  let main_v36 : IVec S_ 1 := (fun x v => Host.reduce IntOp.andi x v reducesTo_S2x640000_S_d0_1 h_S_) main_v35 main_c_13
  let main_v37 : IVec S_ 1 := andi main_v33 main_v36
  let main_c_14 : IVec S_ 32 := constantI S_ 32 10000#32
  let main_v38 : IVec S2x640000 32 := broadcastInDim S2x640000 ![] bcast_S_S2x640000 main_c_14
  let main_v39 : IVec S2x640000 1 := cmpi .slt main_arg1 main_v38
  let main_c_15 : IVec S_ 1 := constantI S_ 1 1#1
  let main_v40 : IVec S_ 1 := (fun x v => Host.reduce IntOp.andi x v reducesTo_S2x640000_S_d0_1 h_S_) main_v39 main_c_15
  let main_v41 : IVec S_ 1 := andi main_v37 main_v40
  main_v41

def fn_part1 {F : FTy → Type} [FloatOps F] (main_arg1 : IVec S2x640000 32) (main_arg6 : FVec F S128x128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : IVec S10000 32) (main_arg3 : FVec F S128x128 .f32) (main_arg4 : FVec F S128x128 .f32) (main_arg5 : FVec F S128x128 .f32) (main_arg6 : FVec F S128x128 .f32) (main_arg7 : FVec F S128x10 .f32) (main_arg8 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S650000 : Shape := ⟨1, ![650000]⟩
abbrev S10112x10112 : Shape := ⟨2, ![10112, 10112]⟩
abbrev S650000x1 : Shape := ⟨2, ![650000, 1]⟩
abbrev S650000x2 : Shape := ⟨2, ![650000, 2]⟩
abbrev S10112x128 : Shape := ⟨2, ![10112, 128]⟩
abbrev S632x10112 : Shape := ⟨2, ![632, 10112]⟩
abbrev S632x128 : Shape := ⟨2, ![632, 128]⟩
abbrev S64x128 : Shape := ⟨2, ![64, 128]⟩
abbrev S10000x1 : Shape := ⟨2, ![10000, 1]⟩
abbrev S10000x10 : Shape := ⟨2, ![10000, 10]⟩
abbrev S1x10 : Shape := ⟨2, ![1, 10]⟩

abbrev nBuf : Space → Nat
  | .hbm => 99
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x10, .f32⟩
  | .hbm, ⟨8, _⟩ => ⟨S10, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S640000, .f32⟩
  | .hbm, ⟨15, _⟩ => ⟨S_, .f32⟩
  | .hbm, ⟨16, _⟩ => ⟨S10000, .f32⟩
  | .hbm, ⟨17, _⟩ => ⟨S640000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .f32⟩
  | .hbm, ⟨22, _⟩ => ⟨S10000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000, .f32⟩
  | .hbm, ⟨41, _⟩ => ⟨S640000, .f32⟩
  | .hbm, ⟨42, _⟩ => ⟨S10000, .i32⟩
  | .hbm, ⟨43, _⟩ => ⟨S650000, .i32⟩
  | .hbm, ⟨44, _⟩ => ⟨S650000, .i32⟩
  | .hbm, ⟨45, _⟩ => ⟨S10000, .f32⟩
  | .hbm, ⟨46, _⟩ => ⟨S650000, .f32⟩
  | .hbm, ⟨47, _⟩ => ⟨S_, .f32⟩
  | .hbm, ⟨48, _⟩ => ⟨S10112x10112, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S_, .i32⟩
  | .hbm, ⟨57, _⟩ => ⟨S650000, .i32⟩
  | .hbm, ⟨58, _⟩ => ⟨S650000, .i1⟩
  | .hbm, ⟨59, _⟩ => ⟨S_, .i32⟩
  | .hbm, ⟨60, _⟩ => ⟨S650000, .i32⟩
  | .hbm, ⟨61, _⟩ => ⟨S650000, .i32⟩
  | .hbm, ⟨62, _⟩ => ⟨S650000, .i32⟩
  | .hbm, ⟨63, _⟩ => ⟨S650000x1, .i32⟩
  | .hbm, ⟨64, _⟩ => ⟨S650000x1, .i32⟩
  | .hbm, ⟨65, _⟩ => ⟨S650000x2, .i32⟩
  | .hbm, ⟨66, _⟩ => ⟨S10112x10112, .f32⟩
  | .hbm, ⟨67, _⟩ => ⟨S10112x10112, .bf16⟩
  | .hbm, ⟨68, _⟩ => ⟨S_, .i32⟩
  | .hbm, ⟨69, _⟩ => ⟨S_, .f32⟩
  | .hbm, ⟨70, _⟩ => ⟨S10112x128, .f32⟩
  | .hbm, ⟨71, _⟩ => ⟨S10112x128, .f32⟩
  | .hbm, ⟨72, _⟩ => ⟨S10112x128, .f32⟩
  | .hbm, ⟨73, _⟩ => ⟨S10112x128, .f32⟩
  | .hbm, ⟨74, _⟩ => ⟨S10112x128, .f32⟩
  | .hbm, ⟨75, _⟩ => ⟨S10000x128, .f32⟩
  | .hbm, ⟨76, _⟩ => ⟨S_, .f32⟩
  | .hbm, ⟨77, _⟩ => ⟨S64x128, .f32⟩
  | .hbm, ⟨78, _⟩ => ⟨S10000x1, .i32⟩
  | .hbm, ⟨79, _⟩ => ⟨S64x128, .f32⟩
  | .hbm, ⟨80, _⟩ => ⟨S10000x10, .f32⟩
  | .hbm, ⟨81, _⟩ => ⟨S1x10, .f32⟩
  | .hbm, ⟨82, _⟩ => ⟨S10000x10, .f32⟩
  | .hbm, ⟨83, _⟩ => ⟨S10000x10, .f32⟩
  | .hbm, ⟨84, _⟩ => ⟨S_, .f32⟩
  | .hbm, ⟨85, _⟩ => ⟨S10000, .f32⟩
  | .hbm, ⟨86, _⟩ => ⟨S_, .f32⟩
  | .hbm, ⟨87, _⟩ => ⟨S10000, .f32⟩
  | .hbm, ⟨88, _⟩ => ⟨S10000, .f32⟩
  | .hbm, ⟨89, _⟩ => ⟨S10000x1, .f32⟩
  | .hbm, ⟨90, _⟩ => ⟨S10000x10, .f32⟩
  | .hbm, ⟨91, _⟩ => ⟨S10000x10, .f32⟩
  | .hbm, ⟨92, _⟩ => ⟨S10000x10, .f32⟩
  | .hbm, ⟨93, _⟩ => ⟨S_, .f32⟩
  | .hbm, ⟨94, _⟩ => ⟨S10000, .f32⟩
  | .hbm, ⟨95, _⟩ => ⟨S10000x1, .f32⟩
  | .hbm, ⟨96, _⟩ => ⟨S10000x1, .f32⟩
  | .hbm, ⟨97, _⟩ => ⟨S10000x10, .f32⟩
  | .hbm, ⟨98, _⟩ => ⟨S10000x10, .f32⟩
  | .local _ .vmem, ⟨0, _⟩ => ⟨S632x10112, .bf16⟩
  | .local _ .vmem, ⟨1, _⟩ => ⟨S632x10112, .bf16⟩
  | .local _ .vmem, ⟨2, _⟩ => ⟨S10112x128, .f32⟩
  | .local _ .vmem, ⟨3, _⟩ => ⟨S128x128, .f32⟩
  | .local _ .vmem, ⟨4, _⟩ => ⟨S632x128, .f32⟩
  | .local _ .vmem, ⟨5, _⟩ => ⟨S632x128, .f32⟩
  | .local _ .vmem, ⟨6, _⟩ => ⟨S632x10112, .bf16⟩
  | .local _ .vmem, ⟨7, _⟩ => ⟨S632x10112, .bf16⟩
  | .local _ .vmem, ⟨8, _⟩ => ⟨S10112x128, .f32⟩
  | .local _ .vmem, ⟨9, _⟩ => ⟨S128x128, .f32⟩
  | .local _ .vmem, ⟨10, _⟩ => ⟨S632x128, .f32⟩
  | .local _ .vmem, ⟨11, _⟩ => ⟨S632x128, .f32⟩
  | .local _ .vmem, ⟨12, _⟩ => ⟨S632x10112, .bf16⟩
  | .local _ .vmem, ⟨13, _⟩ => ⟨S632x10112, .bf16⟩
  | .local _ .vmem, ⟨14, _⟩ => ⟨S10112x128, .f32⟩
  | .local _ .vmem, ⟨15, _⟩ => ⟨S128x128, .f32⟩
  | .local _ .vmem, ⟨16, _⟩ => ⟨S632x128, .f32⟩
  | .local _ .vmem, ⟨17, _⟩ => ⟨S632x128, .f32⟩
  | .local _ .vmem, ⟨18, _⟩ => ⟨S632x10112, .bf16⟩
  | .local _ .vmem, ⟨19, _⟩ => ⟨S632x10112, .bf16⟩
  | .local _ .vmem, ⟨20, _⟩ => ⟨S10112x128, .f32⟩
  | .local _ .vmem, ⟨21, _⟩ => ⟨S128x128, .f32⟩
  | .local _ .vmem, ⟨22, _⟩ => ⟨S632x128, .f32⟩
  | .local _ .vmem, ⟨23, _⟩ => ⟨S632x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_call0_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_call1_cst_0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_cst_1 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_v60 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S632x10112 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S632x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S632x10112 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10112x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S632x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S632x10112 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10112x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S632x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S632x10112 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10112x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S632x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  concatenates_S640000_S10000_S650000_d0 : Shape.Concatenates [S640000, S10000] S650000 0
  bcast_S_S10112x10112 : S_.BroadcastsInDim S10112x10112 (![] : Fin 0 → Fin S10112x10112.rank)
  bcast_S_S650000 : S_.BroadcastsInDim S650000 (![] : Fin 0 → Fin S650000.rank)
  bcast_S650000_S650000x1_0 : S650000.BroadcastsInDim S650000x1 (![0] : Fin 1 → Fin S650000x1.rank)
  concatenates_S650000x1_S650000x1_S650000x2_d1 : Shape.Concatenates [S650000x1, S650000x1] S650000x2 1
  bitsLt_bf16_f32 : FTy.bits .bf16 < FTy.bits .f32
  pads_S10000x128_S10112x128_01120_000 : S10000x128.Pads (![0, 0] : Fin 2 → Nat) ![112, 0] ![0, 0] S10112x128
  h_S_ : 0 < S_.numel
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S632x10112_S632x10112_0_0 : ∀ a, (![0, 0] : Fin 2 → Nat) a + S632x10112.size a ≤ S632x10112.size a
  h_S632x10112 : 0 < S632x10112.numel
  shapeCasts_S632x10112_S632x10112 : S632x10112.ShapeCasts S632x10112
  inb_S128x128_S128x128_0_0 : ∀ a, (![0, 0] : Fin 2 → Nat) a + S128x128.size a ≤ S128x128.size a
  h_S128x128 : 0 < S128x128.numel
  inb_S632x128_S632x128_0_0 : ∀ a, (![0, 0] : Fin 2 → Nat) a + S632x128.size a ≤ S632x128.size a
  h_S632x128 : 0 < S632x128.numel
  slices_S10112x128_S10000x128_0_0 : S10112x128.Slices ![0, 0] S10000x128
  bcast_S_S64x128 : S_.BroadcastsInDim S64x128 (![] : Fin 0 → Fin S64x128.rank)
  bcast_S10000_S10000x1_0 : S10000.BroadcastsInDim S10000x1 (![0] : Fin 1 → Fin S10000x1.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  bcast_S10000x1_S10000x10_0_1 : S10000x1.BroadcastsInDim S10000x10 (![0, 1] : Fin 2 → Fin S10000x10.rank)
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  scatter_S10112x10112_S650000x2_S650000_n_01_01_1_wf : ScatterDims.WF S10112x10112 S650000x2 S650000 [] [0, 1] [0, 1] 1
  dot_S632x10112_S10112x128_S632x128_1_0_0_1_n_n_wf : DotDims.WF S632x10112 S10112x128 S632x128 [1] [0] [0] [1] [] []
  dot_S632x128_S128x128_S632x128_1_0_0_1_n_n_wf : DotDims.WF S632x128 S128x128 S632x128 [1] [0] [0] [1] [] []
  scatter_S64x128_S10000x1_S10000x128_1_0_0_1_wf : ScatterDims.WF S64x128 S10000x1 S10000x128 [1] [0] [0] 1
  dot_S10000x128_S128x10_S10000x10_1_0_0_1_n_n_wf : DotDims.WF S10000x128 S128x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S632x10112.size a ≤ S10112x10112.size a
  hwx0_0 : ∀ i : grid0.Coords, EltTy.bits .bf16 = 32 ∨ (Rect.block (s := S10112x10112) S632x10112.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10112x128.size a ≤ S10112x128.size a
  hwx0_1 : ∀ i : grid0.Coords, EltTy.bits .f32 = 32 ∨ (Rect.block (s := S10112x128) S10112x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S632x128.size a ≤ S10112x128.size a
  hwx0_3 : ∀ i : grid0.Coords, EltTy.bits .f32 = 32 ∨ (Rect.block (s := S10112x128) S632x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S632x10112.size a ≤ S10112x10112.size a
  hwx1_0 : ∀ i : grid1.Coords, EltTy.bits .bf16 = 32 ∨ (Rect.block (s := S10112x10112) S632x10112.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10112x128.size a ≤ S10112x128.size a
  hwx1_1 : ∀ i : grid1.Coords, EltTy.bits .f32 = 32 ∨ (Rect.block (s := S10112x128) S10112x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S632x128.size a ≤ S10112x128.size a
  hwx1_3 : ∀ i : grid1.Coords, EltTy.bits .f32 = 32 ∨ (Rect.block (s := S10112x128) S632x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S632x10112.size a ≤ S10112x10112.size a
  hwx2_0 : ∀ i : grid2.Coords, EltTy.bits .bf16 = 32 ∨ (Rect.block (s := S10112x10112) S632x10112.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10112x128.size a ≤ S10112x128.size a
  hwx2_1 : ∀ i : grid2.Coords, EltTy.bits .f32 = 32 ∨ (Rect.block (s := S10112x128) S10112x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S632x128.size a ≤ S10112x128.size a
  hwx2_3 : ∀ i : grid2.Coords, EltTy.bits .f32 = 32 ∨ (Rect.block (s := S10112x128) S632x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S632x10112.size a ≤ S10112x10112.size a
  hwx3_0 : ∀ i : grid3.Coords, EltTy.bits .bf16 = 32 ∨ (Rect.block (s := S10112x10112) S632x10112.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10112x128.size a ≤ S10112x128.size a
  hwx3_1 : ∀ i : grid3.Coords, EltTy.bits .f32 = 32 ∨ (Rect.block (s := S10112x128) S10112x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S632x128.size a ≤ S10112x128.size a
  hwx3_3 : ∀ i : grid3.Coords, EltTy.bits .f32 = 32 ∨ (Rect.block (s := S10112x128) S632x128.size (cc3_transform_3 i) (hinb3_3 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10112x10112_S650000x2_S650000_n_01_01_1 : ScatterDims S10112x10112 S650000x2 S650000 where
  updateWindowDims := []
  insertedWindowDims := [0, 1]
  scatterDimsToOperandDims := [0, 1]
  indexVectorDim := 1
  wf := scatter_S10112x10112_S650000x2_S650000_n_01_01_1_wf
def dot_S632x10112_S10112x128_S632x128_1_0_0_1_n_n : DotDims S632x10112 S10112x128 S632x128 where
  lhsContracting := [1]
  rhsContracting := [0]
  lhsNonContracting := [0]
  rhsNonContracting := [1]
  lhsBatch := []
  rhsBatch := []
  wf := dot_S632x10112_S10112x128_S632x128_1_0_0_1_n_n_wf
def dot_S632x128_S128x128_S632x128_1_0_0_1_n_n : DotDims S632x128 S128x128 S632x128 where
  lhsContracting := [1]
  rhsContracting := [0]
  lhsNonContracting := [0]
  rhsNonContracting := [1]
  lhsBatch := []
  rhsBatch := []
  wf := dot_S632x128_S128x128_S632x128_1_0_0_1_n_n_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

abbrev win0_0 : Pipeline.Window sig grid0 :=
  Pipeline.Window.ofSpec (Memref.whole main_v46) S632x10112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S10112x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S632x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S632x10112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S10112x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S632x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S632x10112.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S10112x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S632x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S632x10112.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S10112x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S632x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000x1 : Shape := ⟨2, ![10000, 1]⟩
abbrev S64x128 : Shape := ⟨2, ![64, 128]⟩
abbrev S10000x10 : Shape := ⟨2, ![10000, 10]⟩
abbrev S1x10 : Shape := ⟨2, ![1, 10]⟩

abbrev nBuf : Space → Nat
  | .hbm => 222
  | .vmem => 0
  | .smem => 0
  | _ => 0

abbrev hbmTy0_0 (i : Nat) : BufTy := match i % 128 with
  | 0 => ⟨S10000x128, .f32⟩
  | 1 => ⟨S2x640000, .i32⟩
  | 2 => ⟨S10000, .i32⟩
  | 3 => ⟨S128x128, .f32⟩
  | 4 => ⟨S128x128, .f32⟩
  | 5 => ⟨S128x128, .f32⟩
  | 6 => ⟨S128x128, .f32⟩
  | 7 => ⟨S128x10, .f32⟩
  | 8 => ⟨S10, .f32⟩
  | 9 => ⟨S1x640000, .i32⟩
  | 10 => ⟨S640000, .i32⟩
  | 11 => ⟨S1x640000, .i32⟩
  | 12 => ⟨S640000, .i32⟩
  | 13 => ⟨S_, .f32⟩
  | 14 => ⟨S640000, .f32⟩
  | 15 => ⟨S_, .f32⟩
  | 16 => ⟨S10000, .f32⟩
  | 17 => ⟨S640000x1, .i32⟩
  | 18 => ⟨S10000, .f32⟩
  | 19 => ⟨S_, .f32⟩
  | 20 => ⟨S10000, .f32⟩
  | 21 => ⟨S10000, .f32⟩
  | 22 => ⟨S10000, .f32⟩
  | 23 => ⟨S10000x128, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000, .f32⟩
  | 42 => ⟨S640000, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S640000x1, .f32⟩
  | 53 => ⟨S640000x128, .f32⟩
  | 54 => ⟨S640000x128, .f32⟩
  | 55 => ⟨S_, .f32⟩
  | 56 => ⟨S10000x128, .f32⟩
  | 57 => ⟨S640000x1, .i32⟩
  | 58 => ⟨S10000x128, .f32⟩
  | 59 => ⟨S10000, .f32⟩
  | 60 => ⟨S10000x1, .f32⟩
  | 61 => ⟨S10000x128, .f32⟩
  | 62 => ⟨S10000x128, .f32⟩
  | 63 => ⟨S10000x128, .f32⟩
  | 64 => ⟨S_, .f32⟩
  | 65 => ⟨S10000x128, .f32⟩
  | 66 => ⟨S10000x128, .f32⟩
  | 67 => ⟨S10000x128, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000, .f32⟩
  | 86 => ⟨S640000, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S640000x128, .f32⟩
  | 96 => ⟨S640000x1, .f32⟩
  | 97 => ⟨S640000x128, .f32⟩
  | 98 => ⟨S640000x128, .f32⟩
  | 99 => ⟨S_, .f32⟩
  | 100 => ⟨S10000x128, .f32⟩
  | 101 => ⟨S640000x1, .i32⟩
  | 102 => ⟨S10000x128, .f32⟩
  | 103 => ⟨S10000, .f32⟩
  | 104 => ⟨S10000x1, .f32⟩
  | 105 => ⟨S10000x128, .f32⟩
  | 106 => ⟨S10000x128, .f32⟩
  | 107 => ⟨S10000x128, .f32⟩
  | 108 => ⟨S_, .f32⟩
  | 109 => ⟨S10000x128, .f32⟩
  | 110 => ⟨S10000x128, .f32⟩
  | 111 => ⟨S10000x128, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S10000x128, .f32⟩

abbrev hbmTy0_1 (i : Nat) : BufTy := match i % 128 with
  | 0 => ⟨S640000x1, .i32⟩
  | 1 => ⟨S640000, .f32⟩
  | 2 => ⟨S640000, .f32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000x128, .f32⟩
  | 12 => ⟨S640000x1, .f32⟩
  | 13 => ⟨S640000x128, .f32⟩
  | 14 => ⟨S640000x128, .f32⟩
  | 15 => ⟨S_, .f32⟩
  | 16 => ⟨S10000x128, .f32⟩
  | 17 => ⟨S640000x1, .i32⟩
  | 18 => ⟨S10000x128, .f32⟩
  | 19 => ⟨S10000, .f32⟩
  | 20 => ⟨S10000x1, .f32⟩
  | 21 => ⟨S10000x128, .f32⟩
  | 22 => ⟨S10000x128, .f32⟩
  | 23 => ⟨S10000x128, .f32⟩
  | 24 => ⟨S_, .f32⟩
  | 25 => ⟨S10000x128, .f32⟩
  | 26 => ⟨S10000x128, .f32⟩
  | 27 => ⟨S10000x128, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000, .f32⟩
  | 46 => ⟨S640000, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000x128, .f32⟩
  | 56 => ⟨S640000x1, .f32⟩
  | 57 => ⟨S640000x128, .f32⟩
  | 58 => ⟨S640000x128, .f32⟩
  | 59 => ⟨S_, .f32⟩
  | 60 => ⟨S10000x128, .f32⟩
  | 61 => ⟨S640000x1, .i32⟩
  | 62 => ⟨S10000x128, .f32⟩
  | 63 => ⟨S10000, .f32⟩
  | 64 => ⟨S10000x1, .f32⟩
  | 65 => ⟨S10000x128, .f32⟩
  | 66 => ⟨S10000x128, .f32⟩
  | 67 => ⟨S10000x128, .f32⟩
  | 68 => ⟨S_, .f32⟩
  | 69 => ⟨S10000x128, .f32⟩
  | 70 => ⟨S10000x128, .f32⟩
  | 71 => ⟨S_, .f32⟩
  | 72 => ⟨S64x128, .f32⟩
  | 73 => ⟨S10000x1, .i32⟩
  | 74 => ⟨S64x128, .f32⟩
  | 75 => ⟨S10000x10, .f32⟩
  | 76 => ⟨S1x10, .f32⟩
  | 77 => ⟨S10000x10, .f32⟩
  | 78 => ⟨S10000x10, .f32⟩
  | 79 => ⟨S_, .f32⟩
  | 80 => ⟨S10000, .f32⟩
  | 81 => ⟨S_, .f32⟩
  | 82 => ⟨S10000, .f32⟩
  | 83 => ⟨S10000, .f32⟩
  | 84 => ⟨S10000x1, .f32⟩
  | 85 => ⟨S10000x10, .f32⟩
  | 86 => ⟨S10000x10, .f32⟩
  | 87 => ⟨S10000x10, .f32⟩
  | 88 => ⟨S_, .f32⟩
  | 89 => ⟨S10000, .f32⟩
  | 90 => ⟨S10000x1, .f32⟩
  | 91 => ⟨S10000x1, .f32⟩
  | 92 => ⟨S10000x10, .f32⟩
  | 93 => ⟨S10000x10, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call1_cst : Ref sig .tc := ⟨.hbm, 108, rfl⟩
abbrev main_call1_v0 : Ref sig .tc := ⟨.hbm, 109, rfl⟩
abbrev main_v80 : Ref sig .tc := ⟨.hbm, 110, rfl⟩
abbrev main_v81 : Ref sig .tc := ⟨.hbm, 111, rfl⟩
abbrev main_c_15 : Ref sig .tc := ⟨.hbm, 112, rfl⟩
abbrev main_v82 : Ref sig .tc := ⟨.hbm, 113, rfl⟩
abbrev main_v83 : Ref sig .tc := ⟨.hbm, 114, rfl⟩
abbrev main_c_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_17 : Ref sig .tc := ⟨.hbm, 121, rfl⟩
abbrev main_v89 : Ref sig .tc := ⟨.hbm, 122, rfl⟩
abbrev main_v90 : Ref sig .tc := ⟨.hbm, 123, rfl⟩
abbrev main_c_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_19 : Ref sig .tc := ⟨.hbm, 131, rfl⟩
abbrev main_v97 : Ref sig .tc := ⟨.hbm, 132, rfl⟩
abbrev main_v98 : Ref sig .tc := ⟨.hbm, 133, rfl⟩
abbrev main_c_20 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_21 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call2_cst : Ref sig .tc := ⟨.hbm, 152, rfl⟩
abbrev main_call2_v0 : Ref sig .tc := ⟨.hbm, 153, rfl⟩
abbrev main_v115 : Ref sig .tc := ⟨.hbm, 154, rfl⟩
abbrev main_v116 : Ref sig .tc := ⟨.hbm, 155, rfl⟩
abbrev main_c_22 : Ref sig .tc := ⟨.hbm, 156, rfl⟩
abbrev main_v117 : Ref sig .tc := ⟨.hbm, 157, rfl⟩
abbrev main_v118 : Ref sig .tc := ⟨.hbm, 158, rfl⟩
abbrev main_c_23 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_24 : Ref sig .tc := ⟨.hbm, 165, rfl⟩
abbrev main_v124 : Ref sig .tc := ⟨.hbm, 166, rfl⟩
abbrev main_v125 : Ref sig .tc := ⟨.hbm, 167, rfl⟩
abbrev main_c_25 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_26 : Ref sig .tc := ⟨.hbm, 175, rfl⟩
abbrev main_v132 : Ref sig .tc := ⟨.hbm, 176, rfl⟩
abbrev main_v133 : Ref sig .tc := ⟨.hbm, 177, rfl⟩
abbrev main_c_27 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_28 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_call3_cst : Ref sig .tc := ⟨.hbm, 196, rfl⟩
abbrev main_call3_v0 : Ref sig .tc := ⟨.hbm, 197, rfl⟩
abbrev main_v150 : Ref sig .tc := ⟨.hbm, 198, rfl⟩
abbrev main_cst_29 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_call4_cst : Ref sig .tc := ⟨.hbm, 207, rfl⟩
abbrev main_call4_v0 : Ref sig .tc := ⟨.hbm, 208, rfl⟩
abbrev main_call4_cst_0 : Ref sig .tc := ⟨.hbm, 209, rfl⟩
abbrev main_call4_v1 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_v6 : Ref sig .tc := ⟨.hbm, 215, rfl⟩
abbrev main_call4_cst_1 : Ref sig .tc := ⟨.hbm, 216, rfl⟩
abbrev main_call4_v7 : Ref sig .tc := ⟨.hbm, 217, rfl⟩
abbrev main_call4_v8 : Ref sig .tc := ⟨.hbm, 218, rfl⟩
abbrev main_call4_v9 : Ref sig .tc := ⟨.hbm, 219, rfl⟩
abbrev main_call4_v10 : Ref sig .tc := ⟨.hbm, 220, rfl⟩
abbrev main_v158 : Ref sig .tc := ⟨.hbm, 221, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S64x128 : S_.BroadcastsInDim S64x128 (![] : Fin 0 → Fin S64x128.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  h_S_ : 0 < S_.numel
  bcast_S10000x1_S10000x10_0_1 : S10000x1.BroadcastsInDim S10000x10 (![0, 1] : Fin 2 → Fin S10000x10.rank)
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  gather_S10000_S640000x1_S640000_n_0_n_n_0_1_1_wf : GatherDims.WF S10000 S640000x1 S640000 [] [0] [] [0] [] 1 ![1]
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S64x128_S10000x1_S10000x128_1_0_0_1_wf : ScatterDims.WF S64x128 S10000x1 S10000x128 [1] [0] [0] 1
  dot_S10000x128_S128x10_S10000x10_1_0_0_1_n_n_wf : DotDims.WF S10000x128 S128x10 S10000x10 [1] [0] [0] [1] [] []

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.Spec.lean ====
/-
  A four-layer graph convolution over 10000 nodes and 640000 directed edges, feature width 128.

  The edge list gives each edge e a source s(e) and a target d(e).  With deg(i) = 1 + #{e : d(e) = i}, the weight of
  edge e is nrm(e) = deg(s e)^(-1/2) * deg(d e)^(-1/2) and node i's self-loop has weight deg(i)^(-1).  One layer sends the
  features X (10000 x 128) and a weight matrix W (128 x 128) to

      layer X W (i, c) = max( sum over edges e into i of (X W)(s e, c) * nrm(e)  +  (X W)(i, c) / deg(i) ,  0 ).

  The same layer, written with the dense 10112 x 10112 matrix adj whose entry (i, j) collects the weights of the edges
  j -> i and the self-loop weight on the diagonal (rows and columns from 10000 on are zero), is

      max( ((adj . X') . W)(i, c), 0 )        with X' the features padded by zero rows to 10112 rows.

  This file only names these functions; that the two forms agree is proved elsewhere.
-/
import Idealize.ShloMosaic.PureOps.Ideal.Laws
import Idealize.ShloMosaic.Lib.ValueIdx

noncomputable section

open scoped BigOperators

namespace Gcn

open Idealize.ShloMosaic Idealize.ShloMosaic.ValueIdx

/-- The edge list as stored: row 0 the sources, row 1 the targets, one 32-bit word each. -/
abbrev EdgeWords : Type := (⟨2, ![2, 640000]⟩ : Shape).Idx → BitVec 32

/-- Every word of the edge list, read signed, is a node number. -/
def InRange (ei : EdgeWords) : Prop :=
  ∀ (r : Fin 2) (e : Fin 640000), 0 ≤ (ei (ix2 r e)).toInt ∧ (ei (ix2 r e)).toInt < 10000

/-- Entry (r, e) of the edge list as a node (a word outside the node range is clamped into it). -/
def node (ei : EdgeWords) (r : Fin 2) (e : Fin 640000) : Fin 10000 :=
  ⟨min (ei (ix2 r e)).toInt.toNat 9999, by omega⟩

/-- A word in range reads as its node. -/
theorem node_val {ei : EdgeWords} (h : InRange ei) (r : Fin 2) (e : Fin 640000) :
    (ei (ix2 r e)).toInt = ((node ei r e).val : ℤ) := by
  obtain ⟨h0, h1⟩ := h r e
  show _ = ((min (ei (ix2 r e)).toInt.toNat 9999 : ℕ) : ℤ)
  omega

/-- An array of real numbers as an array of extended reals. -/
def arr2 {a b : ℕ} (f : Fin a → Fin b → ℝ) : (⟨2, ![a, b]⟩ : Shape).Idx → EReal :=
  fun idx => ((f (idx 0) (idx 1) : ℝ) : EReal)

theorem arr2_apply {a b : ℕ} (f : Fin a → Fin b → ℝ) (i : Fin a) (j : Fin b) : arr2 f (ix2 i j) = ((f i j : ℝ) : EReal) := rfl

section Real

variable (s d : Fin 640000 → Fin 10000)

/-- One more than the number of edges into node i. -/
def deg (i : Fin 10000) : ℝ := (∑ e : Fin 640000, if d e = i then (1 : ℝ) else 0) + 1

/-- deg(i)^(-1/2). -/
def dis (i : Fin 10000) : ℝ := (Real.sqrt (deg d i))⁻¹

/-- The weight of edge e. -/
def nrm (e : Fin 640000) : ℝ := dis d (s e) * dis d (d e)

/-- One graph-convolution layer followed by the rectifier, edge by edge. -/
def layer (X : Fin 10000 → Fin 128 → ℝ) (W : Fin 128 → Fin 128 → ℝ) (i : Fin 10000) (c : Fin 128) : ℝ :=
  max ((∑ e : Fin 640000, if d e = i then (∑ k : Fin 128, X (s e) k * W k c) * nrm s d e else 0)
        + (∑ k : Fin 128, X i k * W k c) * (dis d i * dis d i)) 0

/-- The dense normalized adjacency with self-loops, padded to 10112 rows and columns. -/
def adj (i j : Fin 10112) : ℝ :=
  (∑ e : Fin 640000, if (d e).val = i.val ∧ (s e).val = j.val then nrm s d e else 0)
    + ∑ v : Fin 10000, if v.val = i.val ∧ v.val = j.val then dis d v * dis d v else 0

end Real

/-- Features padded with zero rows from 10000 to 10112 rows. -/
def padRows (X : Fin 10000 → Fin 128 → ℝ) (j : Fin 10112) (k : Fin 128) : ℝ :=
  if h : j.val < 10000 then X ⟨j.val, h⟩ k else 0

/-- The dense form of one layer over extended reals: max((A . X) . W, 0), entry by entry. -/
def denseLayer (A : (⟨2, ![10112, 10112]⟩ : Shape).Idx → EReal) (X : (⟨2, ![10112, 128]⟩ : Shape).Idx → EReal)
    (W : (⟨2, ![128, 128]⟩ : Shape).Idx → EReal) : (⟨2, ![10112, 128]⟩ : Shape).Idx → EReal :=
  fun idx => max (∑ k : Fin 128, (∑ j : Fin 10112, A (ix2 (idx 0) j) * X (ix2 j k)) * W (ix2 k (idx 1))) 0

theorem denseLayer_apply (A : (⟨2, ![10112, 10112]⟩ : Shape).Idx → EReal) (X : (⟨2, ![10112, 128]⟩ : Shape).Idx → EReal)
    (W : (⟨2, ![128, 128]⟩ : Shape).Idx → EReal) (r : Fin 10112) (q : Fin 128) :
    denseLayer A X W (ix2 r q) = max (∑ k : Fin 128, (∑ j : Fin 10112, A (ix2 r j) * X (ix2 j k)) * W (ix2 k q)) 0 := rfl

/-- The first 10000 rows of a 10112-row array. -/
def topRows (Y : (⟨2, ![10112, 128]⟩ : Shape).Idx → EReal) : (⟨2, ![10000, 128]⟩ : Shape).Idx → EReal :=
  fun idx => Y (ix2 ⟨(idx 0).val, by have h : (idx 0).val < 10000 := (idx 0).isLt; omega⟩ (idx 1))

theorem topRows_padRows (X : Fin 10000 → Fin 128 → ℝ) : topRows (arr2 (padRows X)) = arr2 X := by
  funext idx
  show ((padRows X ⟨(idx 0).val, _⟩ (idx 1) : ℝ) : EReal) = ((X (idx 0) (idx 1) : ℝ) : EReal)
  unfold padRows
  rw [dif_pos (show (idx 0).val < 10000 from (idx 0).isLt)]
  rfl

end Gcn

end
-- ==== Proof.Algebra.lean ====
/-
  One dense layer against one edge-by-edge layer, as an identity of real numbers read in the extended reals.

  Every entry involved is a real number, so the extended-real sums, products and maximum are the images of the real ones.
  What is left is an identity in the reals.  Row r of adj times the padded features collects, for every edge e into r,
  the weight of e times the features of the source of e, and on the diagonal the self-loop weight times the features of
  r itself; a row r from 10000 on has no edge into it and no self-loop, so it is zero.  Multiplying by W and exchanging
  the sum over the feature coordinate with the sum over the edges gives the edge-by-edge layer.
-/
import proofs.«421670_j70325794504771_2_alg».proof.Proof.Spec
import Mathlib.Data.EReal.Basic
import Mathlib.Algebra.BigOperators.Ring.Finset
import Mathlib.Algebra.BigOperators.Group.Finset.Basic
import Mathlib.Tactic.Ring

noncomputable section

open scoped BigOperators

namespace Gcn

open Idealize.ShloMosaic Idealize.ShloMosaic.ValueIdx

/-! ## Real numbers inside the extended reals -/

/-- The image of a finite real sum is the sum of the images. -/
theorem coe_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- The image of a real maximum is the maximum of the images. -/
theorem coe_max (x y : ℝ) : ((max x y : ℝ) : EReal) = max (x : EReal) (y : EReal) :=
  EReal.coe_strictMono.monotone.map_max

/-! ## A row of the dense matrix times the padded features -/

/-- A padded row below 10000 is the row itself. -/
theorem padRows_of_lt (X : Fin 10000 → Fin 128 → ℝ) (v : Fin 10000) (hv : v.val < 10112) (k : Fin 128) :
    padRows X ⟨v.val, hv⟩ k = X v k := by
  unfold padRows
  rw [dif_pos (show (⟨v.val, hv⟩ : Fin 10112).val < 10000 from v.isLt)]

/-- A sum over the 10112 columns whose terms vanish away from column v reads the features of node v. -/
theorem sum_pick (X : Fin 10000 → Fin 128 → ℝ) (k : Fin 128) (v : Fin 10000) (c : ℝ) (P : Prop) [Decidable P] :
    ∑ j : Fin 10112, (if P ∧ v.val = j.val then c else 0) * padRows X j k = if P then c * X v k else 0 := by
  have hv : v.val < 10112 := by have := v.isLt; omega
  rw [Finset.sum_eq_single (⟨v.val, hv⟩ : Fin 10112)]
  · rw [padRows_of_lt X v hv k]
    by_cases hP : P
    · rw [if_pos ⟨hP, rfl⟩, if_pos hP]
    · rw [if_neg (fun h => hP h.1), if_neg hP, zero_mul]
  · intro j _ hj
    have hne : ¬ (P ∧ v.val = j.val) := fun h => hj (Fin.ext h.2.symm)
    rw [if_neg hne, zero_mul]
  · intro h
    exact absurd (Finset.mem_univ _) h

/-- Row r of adj times column k of the padded features: the edges into r, and the self-loop of r. -/
theorem adj_mul_pad (s d : Fin 640000 → Fin 10000) (X : Fin 10000 → Fin 128 → ℝ) (r : Fin 10112) (k : Fin 128) :
    ∑ j : Fin 10112, adj s d r j * padRows X j k
      = (∑ e : Fin 640000, if (d e).val = r.val then nrm s d e * X (s e) k else 0)
        + ∑ v : Fin 10000, if v.val = r.val then dis d v * dis d v * X v k else 0 := by
  have e1 : ∀ j : Fin 10112, adj s d r j * padRows X j k
      = (∑ e : Fin 640000, (if (d e).val = r.val ∧ (s e).val = j.val then nrm s d e else 0) * padRows X j k)
        + ∑ v : Fin 10000, (if v.val = r.val ∧ v.val = j.val then dis d v * dis d v else 0) * padRows X j k := by
    intro j
    unfold adj
    rw [add_mul, Finset.sum_mul, Finset.sum_mul]
  have e2 : (∑ j : Fin 10112, ∑ e : Fin 640000,
        (if (d e).val = r.val ∧ (s e).val = j.val then nrm s d e else 0) * padRows X j k)
      = ∑ e : Fin 640000, if (d e).val = r.val then nrm s d e * X (s e) k else 0 := by
    rw [Finset.sum_comm]
    exact Finset.sum_congr rfl fun e _ => sum_pick X k (s e) (nrm s d e) ((d e).val = r.val)
  have e3 : (∑ j : Fin 10112, ∑ v : Fin 10000,
        (if v.val = r.val ∧ v.val = j.val then dis d v * dis d v else 0) * padRows X j k)
      = ∑ v : Fin 10000, if v.val = r.val then dis d v * dis d v * X v k else 0 := by
    rw [Finset.sum_comm]
    exact Finset.sum_congr rfl fun v _ => sum_pick X k v (dis d v * dis d v) (v.val = r.val)
  rw [Finset.sum_congr rfl fun j _ => e1 j, Finset.sum_add_distrib, e2, e3]

/-! ## The identity in the reals -/

/-- The edge part of a row below 10000, after multiplying by W and summing over the feature coordinate. -/
theorem edge_part (s d : Fin 640000 → Fin 10000) (X : Fin 10000 → Fin 128 → ℝ) (W : Fin 128 → Fin 128 → ℝ)
    (r : Fin 10112) (h : r.val < 10000) (q : Fin 128) :
    ∑ k : Fin 128, (∑ e : Fin 640000, if (d e).val = r.val then nrm s d e * X (s e) k else 0) * W k q
      = ∑ e : Fin 640000, if d e = ⟨r.val, h⟩ then (∑ k : Fin 128, X (s e) k * W k q) * nrm s d e else 0 := by
  have e1 : ∀ k : Fin 128,
      (∑ e : Fin 640000, if (d e).val = r.val then nrm s d e * X (s e) k else 0) * W k q
        = ∑ e : Fin 640000, (if (d e).val = r.val then nrm s d e * X (s e) k else 0) * W k q :=
    fun k => Finset.sum_mul _ _ _
  rw [Finset.sum_congr rfl fun k _ => e1 k, Finset.sum_comm]
  refine Finset.sum_congr rfl fun e _ => ?_
  by_cases he : d e = ⟨r.val, h⟩
  · have hv : (d e).val = r.val := by rw [he]
    rw [if_pos he, Finset.sum_mul]
    refine Finset.sum_congr rfl fun k _ => ?_
    rw [if_pos hv]
    ring
  · have hv : ¬ (d e).val = r.val := fun hv => he (Fin.ext hv)
    rw [if_neg he]
    refine Finset.sum_eq_zero fun k _ => ?_
    rw [if_neg hv, zero_mul]

/-- The self-loop part of a row below 10000. -/
theorem loop_part (d : Fin 640000 → Fin 10000) (X : Fin 10000 → Fin 128 → ℝ) (W : Fin 128 → Fin 128 → ℝ)
    (r : Fin 10112) (h : r.val < 10000) (q : Fin 128) :
    ∑ k : Fin 128, (∑ v : Fin 10000, if v.val = r.val then dis d v * dis d v * X v k else 0) * W k q
      = (∑ k : Fin 128, X ⟨r.val, h⟩ k * W k q) * (dis d ⟨r.val, h⟩ * dis d ⟨r.val, h⟩) := by
  rw [Finset.sum_mul]
  refine Finset.sum_congr rfl fun k _ => ?_
  rw [Finset.sum_eq_single (⟨r.val, h⟩ : Fin 10000)]
  · rw [if_pos rfl]
    ring
  · intro v _ hv
    rw [if_neg (fun hh => hv (Fin.ext hh))]
  · intro hh
    exact absurd (Finset.mem_univ _) hh

/-- A row from 10000 on is zero. -/
theorem high_row (s d : Fin 640000 → Fin 10000) (X : Fin 10000 → Fin 128 → ℝ) (r : Fin 10112) (h : ¬ r.val < 10000)
    (k : Fin 128) :
    (∑ e : Fin 640000, if (d e).val = r.val then nrm s d e * X (s e) k else 0)
      + (∑ v : Fin 10000, if v.val = r.val then dis d v * dis d v * X v k else 0) = 0 := by
  have h1 : (∑ e : Fin 640000, if (d e).val = r.val then nrm s d e * X (s e) k else 0) = 0 := by
    refine Finset.sum_eq_zero fun e _ => ?_
    have : ¬ (d e).val = r.val := by have := (d e).isLt; omega
    rw [if_neg this]
  have h2 : (∑ v : Fin 10000, if v.val = r.val then dis d v * dis d v * X v k else 0) = 0 := by
    refine Finset.sum_eq_zero fun v _ => ?_
    have : ¬ v.val = r.val := by have := v.isLt; omega
    rw [if_neg this]
  rw [h1, h2, add_zero]

/-- The dense layer and the edge-by-edge layer agree entry by entry, in the reals. -/
theorem real_layer (s d : Fin 640000 → Fin 10000) (X : Fin 10000 → Fin 128 → ℝ) (W : Fin 128 → Fin 128 → ℝ)
    (r : Fin 10112) (q : Fin 128) :
    max (∑ k : Fin 128, (∑ j : Fin 10112, adj s d r j * padRows X j k) * W k q) 0
      = padRows (layer s d X W) r q := by
  simp only [adj_mul_pad]
  by_cases h : r.val < 10000
  · unfold padRows
    rw [dif_pos h]
    unfold layer
    refine congrArg (fun t : ℝ => max t 0) ?_
    rw [← edge_part s d X W r h q, ← loop_part d X W r h q, ← Finset.sum_add_distrib]
    exact Finset.sum_congr rfl fun k _ => add_mul _ _ _
  · unfold padRows
    rw [dif_neg h]
    have hz : ∀ k : Fin 128,
        ((∑ e : Fin 640000, if (d e).val = r.val then nrm s d e * X (s e) k else 0)
          + (∑ v : Fin 10000, if v.val = r.val then dis d v * dis d v * X v k else 0)) * W k q = 0 := by
      intro k
      rw [high_row s d X r h k, zero_mul]
    rw [Finset.sum_eq_zero fun k _ => hz k, max_self]

/-! ## The identity in the extended reals -/

/-- One dense layer on the padded features is the padded edge-by-edge layer. -/
theorem denseLayer_adj (s d : Fin 640000 → Fin 10000) (X : Fin 10000 → Fin 128 → ℝ) (W : Fin 128 → Fin 128 → ℝ) :
    denseLayer (arr2 (adj s d)) (arr2 (padRows X)) (arr2 W) = arr2 (padRows (layer s d X W)) := by
  funext idx
  obtain ⟨r, q, rfl⟩ : ∃ (r : Fin 10112) (q : Fin 128), idx = ix2 r q := ⟨idx 0, idx 1, eq_ix2 idx⟩
  rw [denseLayer_apply]
  show max (∑ k : Fin 128, (∑ j : Fin 10112, ((adj s d r j : ℝ) : EReal) * ((padRows X j k : ℝ) : EReal))
      * ((W k q : ℝ) : EReal)) 0 = ((padRows (layer s d X W) r q : ℝ) : EReal)
  rw [← real_layer s d X W r q, coe_max, EReal.coe_zero, coe_sum]
  refine congrArg (fun t : EReal => max t 0) ?_
  refine Finset.sum_congr rfl fun k _ => ?_
  rw [EReal.coe_mul, coe_sum]
  refine congrArg (fun t : EReal => t * ((W k q : ℝ) : EReal)) ?_
  refine Finset.sum_congr rfl fun j _ => ?_
  rw [EReal.coe_mul]

end Gcn

end
-- ==== Proof.RefDefs.lean ====
/-
  The reference's stages as functions of its inputs, at any float instance: the edge list's two rows, the
  per-node deg^(-1/2), one graph-convolution layer (a function of the sources, the targets, deg^(-1/2), the features and
  the weights; the program applies it four times), the per-graph pooling and the classifier's log-softmax.
-/
import proofs.«421670_j70325794504771_2_alg».proof.Proof.Gen.ReferenceIdeal

noncomputable section

namespace Gcn.Ref

open Cert.ReferenceIdeal Cert.ReferenceIdeal.Gen Idealize.ShloMosaic Idealize.ShloMosaic.TcCoe Idealize.SL.Sem Idealize.ShloMosaic.StableHlo

variable {F : FTy → Type} [FloatOps F]

/-- The sources of the edges: row 0 of the edge list. -/
def srcF (ei : (⟨S2x640000, .i32⟩ : BufTy).Contents (Elt F)) : (⟨S640000, .i32⟩ : BufTy).Contents (Elt F) :=
  let t_v0 := ((extractStridedSlice S1x640000 ![0, 0] · slices_S2x640000_S1x640000_0_0) : (⟨S2x640000, .i32⟩ : BufTy).Contents (Elt F) → (⟨S1x640000, .i32⟩ : BufTy).Contents (Elt F)) ei
  let t_v1 := shapeCast S640000 t_v0 shapeCasts_S1x640000_S640000
  t_v1

/-- The targets of the edges: row 1 of the edge list. -/
def dstF (ei : (⟨S2x640000, .i32⟩ : BufTy).Contents (Elt F)) : (⟨S640000, .i32⟩ : BufTy).Contents (Elt F) :=
  let t_v2 := ((extractStridedSlice S1x640000 ![1, 0] · slices_S2x640000_S1x640000_1_0) : (⟨S2x640000, .i32⟩ : BufTy).Contents (Elt F) → (⟨S1x640000, .i32⟩ : BufTy).Contents (Elt F)) ei
  let t_v3 := shapeCast S640000 t_v2 shapeCasts_S1x640000_S640000
  t_v3

/-- deg^(-1/2) per node, deg one more than the number of edges whose target word is the node. -/
def disF (ei : (⟨S2x640000, .i32⟩ : BufTy).Contents (Elt F)) : (⟨S10000, .f32⟩ : BufTy).Contents (Elt F) :=
  let t_v2 := ((extractStridedSlice S1x640000 ![1, 0] · slices_S2x640000_S1x640000_1_0) : (⟨S2x640000, .i32⟩ : BufTy).Contents (Elt F) → (⟨S1x640000, .i32⟩ : BufTy).Contents (Elt F)) ei
  let t_v3 := shapeCast S640000 t_v2 shapeCasts_S1x640000_S640000
  let t_cst : (⟨S_, .f32⟩ : BufTy).Contents (Elt F) := (constant S_ .f32 0x3F800000#32)
  let t_v4 := (broadcastInDim S640000 ![] bcast_S_S640000 : (⟨S_, .f32⟩ : BufTy).Contents (Elt F) → (⟨S640000, .f32⟩ : BufTy).Contents (Elt F)) t_cst
  let t_cst_0 : (⟨S_, .f32⟩ : BufTy).Contents (Elt F) := (constant S_ .f32 0x00000000#32)
  let t_v5 := (broadcastInDim S10000 ![] bcast_S_S10000 : (⟨S_, .f32⟩ : BufTy).Contents (Elt F) → (⟨S10000, .f32⟩ : BufTy).Contents (Elt F)) t_cst_0
  let t_v6 := (broadcastInDim S640000x1 ![0] bcast_S640000_S640000x1_0 : (⟨S640000, .i32⟩ : BufTy).Contents (Elt F) → (⟨S640000x1, .i32⟩ : BufTy).Contents (Elt F)) t_v3
  let t_v7 := ((fun x i u => Host.scatterAdd scatter_S10000_S640000x1_S640000_n_0_0_1 x i u) : (⟨S10000, .f32⟩ : BufTy).Contents (Elt F) → (⟨S640000x1, .i32⟩ : BufTy).Contents (Elt F) → (⟨S640000, .f32⟩ : BufTy).Contents (Elt F) → (⟨S10000, .f32⟩ : BufTy).Contents (Elt F)) t_v5 t_v6 t_v4
  let t_cst_1 : (⟨S_, .f32⟩ : BufTy).Contents (Elt F) := (constant S_ .f32 0x3F800000#32)
  let t_v8 := (broadcastInDim S10000 ![] bcast_S_S10000 : (⟨S_, .f32⟩ : BufTy).Contents (Elt F) → (⟨S10000, .f32⟩ : BufTy).Contents (Elt F)) t_cst_1
  let t_v9 := (addf : (⟨S10000, .f32⟩ : BufTy).Contents (Elt F) → (⟨S10000, .f32⟩ : BufTy).Contents (Elt F) → (⟨S10000, .f32⟩ : BufTy).Contents (Elt F)) t_v7 t_v8
  let t_v10 := (Host.rsqrt : (⟨S10000, .f32⟩ : BufTy).Contents (Elt F) → (⟨S10000, .f32⟩ : BufTy).Contents (Elt F)) t_v9
  t_v10

/-- One layer: the features times the weights, gathered at the edges' sources, scaled by the edge weights, summed into the edges' targets, plus the self-loop term, rectified. -/
def layerF (src : (⟨S640000, .i32⟩ : BufTy).Contents (Elt F)) (dst : (⟨S640000, .i32⟩ : BufTy).Contents (Elt F)) (dis : (⟨S10000, .f32⟩ : BufTy).Contents (Elt F)) (X : (⟨S10000x128, .f32⟩ : BufTy).Contents (Elt F)) (W : (⟨S128x128, .f32⟩ : BufTy).Contents (Elt F)) : (⟨S10000x128, .f32⟩ : BufTy).Contents (Elt F) :=
  let t_v11 := ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)) X W
  let t_c : (⟨S_, .i32⟩ : BufTy).Contents (Elt F) := (constantI S_ 32 0#32)
  let t_v12 := (broadcastInDim S640000 ![] bcast_S_S640000 : (⟨S_, .i32⟩ : BufTy).Contents (Elt F) → (⟨S640000, .i32⟩ : BufTy).Contents (Elt F)) t_c
  let t_v13 := (cmpi .slt : (⟨S640000, .i32⟩ : BufTy).Contents (Elt F) → (⟨S640000, .i32⟩ : BufTy).Contents (Elt F) → (⟨S640000, .i1⟩ : BufTy).Contents (Elt F)) src t_v12
  let t_c_2 : (⟨S_, .i32⟩ : BufTy).Contents (Elt F) := (constantI S_ 32 10000#32)
  let t_v14 := (broadcastInDim S640000 ![] bcast_S_S640000 : (⟨S_, .i32⟩ : BufTy).Contents (Elt F) → (⟨S640000, .i32⟩ : BufTy).Contents (Elt F)) t_c_2
  let t_v15 := (addi : (⟨S640000, .i32⟩ : BufTy).Contents (Elt F) → (⟨S640000, .i32⟩ : BufTy).Contents (Elt F) → (⟨S640000, .i32⟩ : BufTy).Contents (Elt F)) src t_v14
  let t_v16 := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) t_v13 t_v15 src
  let t_v17 := (broadcastInDim S640000x1 ![0] bcast_S640000_S640000x1_0 : (⟨S640000, .i32⟩ : BufTy).Contents (Elt F) → (⟨S640000x1, .i32⟩ : BufTy).Contents (Elt F)) t_v16
  let t_v18 := ((fun x i => Host.gather gather_S10000_S640000x1_S640000_n_0_n_n_0_1_1 x i) : (⟨S10000, .f32⟩ : BufTy).Contents (Elt F) → (⟨S640000x1, .i32⟩ : BufTy).Contents (Elt F) → (⟨S640000, .f32⟩ : BufTy).Contents (Elt F)) dis t_v17
  let t_c_3 : (⟨S_, .i32⟩ : BufTy).Contents (Elt F) := (constantI S_ 32 0#32)
  let t_v19 := (broadcastInDim S640000 ![] bcast_S_S640000 : (⟨S_, .i32⟩ : BufTy).Contents (Elt F) → (⟨S640000, .i32⟩ : BufTy).Contents (Elt F)) t_c_3
  let t_v20 := (cmpi .slt : (⟨S640000, .i32⟩ : BufTy).Contents (Elt F) → (⟨S640000, .i32⟩ : BufTy).Contents (Elt F) → (⟨S640000, .i1⟩ : BufTy).Contents (Elt F)) dst t_v19
  let t_c_4 : (⟨S_, .i32⟩ : BufTy).Contents (Elt F) := (constantI S_ 32 10000#32)
  let t_v21 := (broadcastInDim S640000 ![] bcast_S_S640000 : (⟨S_, .i32⟩ : BufTy).Contents (Elt F) → (⟨S640000, .i32⟩ : BufTy).Contents (Elt F)) t_c_4
  let t_v22 := (addi : (⟨S640000, .i32⟩ : BufTy).Contents (Elt F) → (⟨S640000, .i32⟩ : BufTy).Contents (Elt F) → (⟨S640000, .i32⟩ : BufTy).Contents (Elt F)) dst t_v21
  let t_v23 := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) t_v20 t_v22 dst
  let t_v24 := (broadcastInDim S640000x1 ![0] bcast_S640000_S640000x1_0 : (⟨S640000, .i32⟩ : BufTy).Contents (Elt F) → (⟨S640000x1, .i32⟩ : BufTy).Contents (Elt F)) t_v23
  let t_v25 := ((fun x i => Host.gather gather_S10000_S640000x1_S640000_n_0_n_n_0_1_1 x i) : (⟨S10000, .f32⟩ : BufTy).Contents (Elt F) → (⟨S640000x1, .i32⟩ : BufTy).Contents (Elt F) → (⟨S640000, .f32⟩ : BufTy).Contents (Elt F)) dis t_v24
  let t_v26 := (mulf : (⟨S640000, .f32⟩ : BufTy).Contents (Elt F) → (⟨S640000, .f32⟩ : BufTy).Contents (Elt F) → (⟨S640000, .f32⟩ : BufTy).Contents (Elt F)) t_v18 t_v25
  let t_c_5 : (⟨S_, .i32⟩ : BufTy).Contents (Elt F) := (constantI S_ 32 0#32)
  let t_v27 := (broadcastInDim S640000 ![] bcast_S_S640000 : (⟨S_, .i32⟩ : BufTy).Contents (Elt F) → (⟨S640000, .i32⟩ : BufTy).Contents (Elt F)) t_c_5
  let t_v28 := (cmpi .slt : (⟨S640000, .i32⟩ : BufTy).Contents (Elt F) → (⟨S640000, .i32⟩ : BufTy).Contents (Elt F) → (⟨S640000, .i1⟩ : BufTy).Contents (Elt F)) src t_v27
  let t_c_6 : (⟨S_, .i32⟩ : BufTy).Contents (Elt F) := (constantI S_ 32 10000#32)
  let t_v29 := (broadcastInDim S640000 ![] bcast_S_S640000 : (⟨S_, .i32⟩ : BufTy).Contents (Elt F) → (⟨S640000, .i32⟩ : BufTy).Contents (Elt F)) t_c_6
  let t_v30 := (addi : (⟨S640000, .i32⟩ : BufTy).Contents (Elt F) → (⟨S640000, .i32⟩ : BufTy).Contents (Elt F) → (⟨S640000, .i32⟩ : BufTy).Contents (Elt F)) src t_v29
  let t_v31 := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) t_v28 t_v30 src
  let t_v32 := (broadcastInDim S640000x1 ![0] bcast_S640000_S640000x1_0 : (⟨S640000, .i32⟩ : BufTy).Contents (Elt F) → (⟨S640000x1, .i32⟩ : BufTy).Contents (Elt F)) t_v31
  let t_v33 := ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)) t_v11 t_v32
  let t_v34 := (broadcastInDim S640000x1 ![0] bcast_S640000_S640000x1_0 : (⟨S640000, .f32⟩ : BufTy).Contents (Elt F) → (⟨S640000x1, .f32⟩ : BufTy).Contents (Elt F)) t_v26
  let t_v35 := (broadcastInDim S640000x128 ![0, 1] bcast_S640000x1_S640000x128_0_1 : (⟨S640000x1, .f32⟩ : BufTy).Contents (Elt F) → (⟨S640000x128, .f32⟩ : BufTy).Contents (Elt F)) t_v34
  let t_v36 := (mulf : (⟨S640000x128, .f32⟩ : BufTy).Contents (Elt F) → (⟨S640000x128, .f32⟩ : BufTy).Contents (Elt F) → (⟨S640000x128, .f32⟩ : BufTy).Contents (Elt F)) t_v33 t_v35
  let t_cst_7 : (⟨S_, .f32⟩ : BufTy).Contents (Elt F) := (constant S_ .f32 0x00000000#32)
  let t_v37 := (broadcastInDim S10000x128 ![] bcast_S_S10000x128 : (⟨S_, .f32⟩ : BufTy).Contents (Elt F) → (⟨S10000x128, .f32⟩ : BufTy).Contents (Elt F)) t_cst_7
  let t_v38 := (broadcastInDim S640000x1 ![0] bcast_S640000_S640000x1_0 : (⟨S640000, .i32⟩ : BufTy).Contents (Elt F) → (⟨S640000x1, .i32⟩ : BufTy).Contents (Elt F)) dst
  let t_v39 := ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)) t_v37 t_v38 t_v36
  let t_v40 := (mulf : (⟨S10000, .f32⟩ : BufTy).Contents (Elt F) → (⟨S10000, .f32⟩ : BufTy).Contents (Elt F) → (⟨S10000, .f32⟩ : BufTy).Contents (Elt F)) dis dis
  let t_v41 := (broadcastInDim S10000x1 ![0] bcast_S10000_S10000x1_0 : (⟨S10000, .f32⟩ : BufTy).Contents (Elt F) → (⟨S10000x1, .f32⟩ : BufTy).Contents (Elt F)) t_v40
  let t_v42 := (broadcastInDim S10000x128 ![0, 1] bcast_S10000x1_S10000x128_0_1 : (⟨S10000x1, .f32⟩ : BufTy).Contents (Elt F) → (⟨S10000x128, .f32⟩ : BufTy).Contents (Elt F)) t_v41
  let t_v43 := (mulf : (⟨S10000x128, .f32⟩ : BufTy).Contents (Elt F) → (⟨S10000x128, .f32⟩ : BufTy).Contents (Elt F) → (⟨S10000x128, .f32⟩ : BufTy).Contents (Elt F)) t_v11 t_v42
  let t_v44 := (addf : (⟨S10000x128, .f32⟩ : BufTy).Contents (Elt F) → (⟨S10000x128, .f32⟩ : BufTy).Contents (Elt F) → (⟨S10000x128, .f32⟩ : BufTy).Contents (Elt F)) t_v39 t_v43
  let t_call0_cst : (⟨S_, .f32⟩ : BufTy).Contents (Elt F) := (constant S_ .f32 0x00000000#32)
  let t_call0_v0 : (⟨S10000x128, .f32⟩ : BufTy).Contents (Elt F) := (broadcastInDim S10000x128 ![] bcast_S_S10000x128) t_call0_cst
  let t_v45 : (⟨S10000x128, .f32⟩ : BufTy).Contents (Elt F) := (maximumf) t_v44 t_call0_v0
  t_v45

/-- The features summed per graph of the batch. -/
def poolF (Y : (⟨S10000x128, .f32⟩ : BufTy).Contents (Elt F)) (batch : (⟨S10000, .i32⟩ : BufTy).Contents (Elt F)) : (⟨S64x128, .f32⟩ : BufTy).Contents (Elt F) :=
  let t_cst_29 : (⟨S_, .f32⟩ : BufTy).Contents (Elt F) := (constant S_ .f32 0x00000000#32)
  let t_v151 := (broadcastInDim S64x128 ![] bcast_S_S64x128 : (⟨S_, .f32⟩ : BufTy).Contents (Elt F) → (⟨S64x128, .f32⟩ : BufTy).Contents (Elt F)) t_cst_29
  let t_v152 := (broadcastInDim S10000x1 ![0] bcast_S10000_S10000x1_0 : (⟨S10000, .i32⟩ : BufTy).Contents (Elt F) → (⟨S10000x1, .i32⟩ : BufTy).Contents (Elt F)) batch
  let t_v153 := ((fun x i u => Host.scatterAdd scatter_S64x128_S10000x1_S10000x128_1_0_0_1 x i u) : (⟨S64x128, .f32⟩ : BufTy).Contents (Elt F) → (⟨S10000x1, .i32⟩ : BufTy).Contents (Elt F) → (⟨S10000x128, .f32⟩ : BufTy).Contents (Elt F) → (⟨S64x128, .f32⟩ : BufTy).Contents (Elt F)) t_v151 t_v152 Y
  t_v153

/-- The classifier's log-softmax rows. -/
def logitsF (Y : (⟨S10000x128, .f32⟩ : BufTy).Contents (Elt F)) (fcw : (⟨S128x10, .f32⟩ : BufTy).Contents (Elt F)) (fcb : (⟨S10, .f32⟩ : BufTy).Contents (Elt F)) : (⟨S10000x10, .f32⟩ : BufTy).Contents (Elt F) :=
  let t_v154 := ((fun l r => Host.dotGeneral dot_S10000x128_S128x10_S10000x10_1_0_0_1_n_n none l r) : (⟨S10000x128, .f32⟩ : BufTy).Contents (Elt F) → (⟨S128x10, .f32⟩ : BufTy).Contents (Elt F) → (⟨S10000x10, .f32⟩ : BufTy).Contents (Elt F)) Y fcw
  let t_v155 := (broadcastInDim S1x10 ![1] bcast_S10_S1x10_1 : (⟨S10, .f32⟩ : BufTy).Contents (Elt F) → (⟨S1x10, .f32⟩ : BufTy).Contents (Elt F)) fcb
  let t_v156 := (broadcastInDim S10000x10 ![0, 1] bcast_S1x10_S10000x10_0_1 : (⟨S1x10, .f32⟩ : BufTy).Contents (Elt F) → (⟨S10000x10, .f32⟩ : BufTy).Contents (Elt F)) t_v155
  let t_v157 := (addf : (⟨S10000x10, .f32⟩ : BufTy).Contents (Elt F) → (⟨S10000x10, .f32⟩ : BufTy).Contents (Elt F) → (⟨S10000x10, .f32⟩ : BufTy).Contents (Elt F)) t_v154 t_v156
  let t_call4_cst : (⟨S_, .f32⟩ : BufTy).Contents (Elt F) := (constant S_ .f32 0xFF800000#32)
  let t_call4_v0 : (⟨S10000, .f32⟩ : BufTy).Contents (Elt F) := (fun x v => Host.reduce FloatOps.maximumf x v reducesTo_S10000x10_S10000_d1 h_S_) t_v157 t_call4_cst
  let t_call4_cst_0 : (⟨S_, .f32⟩ : BufTy).Contents (Elt F) := (constant S_ .f32 0xFF800000#32)
  let t_call4_v1 : (⟨S10000, .f32⟩ : BufTy).Contents (Elt F) := (broadcastInDim S10000 ![] bcast_S_S10000) t_call4_cst_0
  let t_call4_v2 : (⟨S10000, .f32⟩ : BufTy).Contents (Elt F) := (maximumf) t_call4_v1 t_call4_v0
  let t_call4_v3 : (⟨S10000x1, .f32⟩ : BufTy).Contents (Elt F) := (broadcastInDim S10000x1 ![0] bcast_S10000_S10000x1_0) t_call4_v2
  let t_call4_v4 : (⟨S10000x10, .f32⟩ : BufTy).Contents (Elt F) := (broadcastInDim S10000x10 ![0, 1] bcast_S10000x1_S10000x10_0_1) t_call4_v3
  let t_call4_v5 : (⟨S10000x10, .f32⟩ : BufTy).Contents (Elt F) := (subf) t_v157 t_call4_v4
  let t_call4_v6 : (⟨S10000x10, .f32⟩ : BufTy).Contents (Elt F) := (Host.exp) t_call4_v5
  let t_call4_cst_1 : (⟨S_, .f32⟩ : BufTy).Contents (Elt F) := (constant S_ .f32 0x00000000#32)
  let t_call4_v7 : (⟨S10000, .f32⟩ : BufTy).Contents (Elt F) := (fun x v => Host.reduceAdd x v reducesTo_S10000x10_S10000_d1 h_S_) t_call4_v6 t_call4_cst_1
  let t_call4_v8 : (⟨S10000x1, .f32⟩ : BufTy).Contents (Elt F) := (broadcastInDim S10000x1 ![0] bcast_S10000_S10000x1_0) t_call4_v7
  let t_call4_v9 : (⟨S10000x1, .f32⟩ : BufTy).Contents (Elt F) := (Host.log) t_call4_v8
  let t_call4_v10 : (⟨S10000x10, .f32⟩ : BufTy).Contents (Elt F) := (broadcastInDim S10000x10 ![0, 1] bcast_S10000x1_S10000x10_0_1) t_call4_v9
  let t_v158 : (⟨S10000x10, .f32⟩ : BufTy).Contents (Elt F) := (subf) t_call4_v5 t_call4_v10
  t_v158

end Gcn.Ref

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibHostReads.lean ====
/-
  Host broadcasts and an all-true mask, read at an index.

  A vector [n] laid out as a column [n, 1] keeps its entries; laid along the first axis of an [n, m] matrix it is constant
  along each row. A reduction by `and`, started from the bit 1, of an array of bits that are all 1 is the bit 1 at every
  result index, whatever the axes reduced.
-/
import Idealize.ShloMosaic.PureOps.Reduce
import Idealize.ShloMosaic.Lib.ValueIdx

namespace Idealize.ShloMosaic.HostReads

open Idealize.ShloMosaic Idealize.ShloMosaic.ValueIdx

variable {α : Type}

/-- A vector `[n]` broadcast to a column `[n, 1]` along axis 0 reads, at `(p, u)`, the vector at `p`. -/
theorem broadcastInDim_vec_col_apply {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

/-- A vector `[n]` broadcast along the first axis of an `[n, m]` matrix reads, at `(p, q)`, the vector at `p`. -/
theorem broadcastInDim_vec_rows_apply {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

/-- A left fold by `and` from the bit 1 over bits that are all 1 is 1. -/
theorem foldl_andi_one {ι : Type} (f : ι → BitVec 1) (hf : ∀ i, f i = 1#1) :
    ∀ (l : List ι) (r : BitVec 1), r = 1#1 → l.foldl (fun r n => IntOp.andi r (f n)) r = 1#1
  | [], r, hr => hr
  | a :: l, r, hr => by
    rw [List.foldl_cons]
    exact foldl_andi_one f hf l _ (by rw [hr, hf a]; decide)

/-- A reduction by `and` from an initial 1 of an array of bits that are all 1 is 1 at every result index. -/
theorem reduce_andi_of_forall_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x hx _ _ hinit

end Idealize.ShloMosaic.HostReads
-- ==== Proof.HostDis.lean ====
/-
  The per-node deg^(-1/2) of the reference's first stage is the real number (sqrt (1 + #edges into the node))^(-1),
  when every word of the edge list is a node number; and the two rows of the edge list read entry by entry.

  Row r of the [2, 640000] edge list is cut out as a [1, 640000] slice and flattened; entry e of the flattened row has
  row-major position e, which in the slice is (0, e) and in the edge list (r, e).

  The degree: 640000 ones are accumulated into a zero vector of length 10000, one at the position the edge's target
  word names. Entry k of the result is therefore the number of edges e whose target word reads k; with every word in
  range, "the word reads k" is "the target node is k". Adding one gives deg(k), which is at least 1, so its reciprocal
  square root is the real number (sqrt (deg k))^(-1) and none of the conventions at zero, below zero or at infinity
  is met.
-/
import proofs.«421670_j70325794504771_2_alg».proof.Proof.RefDefs
import proofs.«421670_j70325794504771_2_alg».proof.Proof.Spec
import proofs.«421670_j70325794504771_2_alg».proof.Proof.LibScatterAddRows
import proofs.«421670_j70325794504771_2_alg».proof.Proof.LibHostReads
import Idealize.ShloMosaic.Lib.Pipeline.Value

noncomputable section

open scoped BigOperators

namespace Gcn.Ref

open Cert.ReferenceIdeal Cert.ReferenceIdeal.Gen Idealize.ShloMosaic Idealize.ShloMosaic.ValueIdx

/-- Entry e of the sources is the word (0, e) of the edge list. -/
theorem srcF_apply (ei : Gcn.EdgeWords) (e : Fin 640000) : srcF (F := Ideal) ei (ix1 e) = ei (ix2 0 e) := by
  unfold srcF
  refine (shapeCast_apply _ shapeCasts_S1x640000_S640000 (ix1 e) (ix2 (0 : Fin 1) e) ?_).trans ?_
  · rw [Shape.rowMajor_val_two, Shape.rowMajor_val_one]
    show 0 * 640000 + e.val = e.val
    omega
  · exact extractStridedSlice_apply ![0, 0] ei slices_S2x640000_S1x640000_0_0 (ix2 (0 : Fin 1) e) (ix2 0 e) (fun a => match a with
      | ⟨0, _⟩ => by show (0 : ℕ) = 0 + 0; omega
      | ⟨1, _⟩ => by show e.val = 0 + e.val; omega)

/-- Entry e of the targets is the word (1, e) of the edge list. -/
theorem dstF_apply (ei : Gcn.EdgeWords) (e : Fin 640000) : dstF (F := Ideal) ei (ix1 e) = ei (ix2 1 e) := by
  unfold dstF
  refine (shapeCast_apply _ shapeCasts_S1x640000_S640000 (ix1 e) (ix2 (0 : Fin 1) e) ?_).trans ?_
  · rw [Shape.rowMajor_val_two, Shape.rowMajor_val_one]
    show 0 * 640000 + e.val = e.val
    omega
  · exact extractStridedSlice_apply ![1, 0] ei slices_S2x640000_S1x640000_1_0 (ix2 (0 : Fin 1) e) (ix2 1 e) (fun a => match a with
      | ⟨0, _⟩ => by show (1 : ℕ) = 1 + 0; omega
      | ⟨1, _⟩ => by show e.val = 0 + e.val; omega)

/-- The pattern of 1.0 (sign 0, exponent 127, fraction 0) denotes the number 1. -/
private theorem ofBits_one_f32 : Ideal.ofBits .f32 0x3F800000#32 = 1 := by
  simp [Ideal.ofBits, Ideal.ieee, -EReal.coe_mul]; norm_num

/-- The inclusion of the reals in the extended reals carries a finite sum to the sum. -/
private theorem coe_sum {ι : Type*} (S : Finset ι) (f : ι → ℝ) :
    ((∑ i ∈ S, f i : ℝ) : EReal) = ∑ i ∈ S, ((f i : ℝ) : EReal) :=
  map_sum (⟨⟨Real.toEReal, EReal.coe_zero⟩, EReal.coe_add⟩ : ℝ →+ EReal) f S

/-- The reciprocal square root of a vector is taken entry by entry. -/
private theorem host_rsqrt_apply {s : Shape} (x : FVec Ideal s .f32) (i : s.Idx) : Host.rsqrt x i = Ideal.rsqrt (x i) := rfl

/-- The sum of two vectors is taken entry by entry. -/
private theorem addf_apply {s : Shape} (x y : FVec Ideal s .f32) (i : s.Idx) : addf x y i = x i + y i := rfl

/-- The accumulating scatter is the exact sum of the updates landing on each entry. -/
private theorem host_scatterAdd_eq {s si u : Shape} {w : ℕ} (d : ScatterDims s si u) (x : FVec Ideal s .f32) (idx : IVec si w)
    (upd : FVec Ideal u .f32) : Host.scatterAdd d x idx upd = Ideal.hostScatterAdd d x idx upd := rfl

/-- A constant broadcast to a vector reads, at every entry, the number its pattern denotes. -/
private theorem splat_apply {n : ℕ} (hb : S_.BroadcastsInDim ⟨1, ![n]⟩ ![]) (b : BitVec 32) (j : (⟨1, ![n]⟩ : Shape).Idx) :
    broadcastInDim ⟨1, ![n]⟩ ![] hb (constant S_ .f32 b : FVec Ideal S_ .f32) j = Ideal.ofBits .f32 b :=
  (broadcastInDim_apply _ hb _ j (fun a => a.elim0) (fun a => a.elim0)).trans rfl

/-- deg^(-1/2) at node k. -/
private theorem disF_apply (ei : Gcn.EdgeWords) (h : Gcn.InRange ei) (k : Fin 10000) :
    disF (F := Ideal) ei (ix1 k) = ((Gcn.dis (Gcn.node ei 1) k : ℝ) : EReal) := by
  unfold disF
  rw [host_rsqrt_apply, addf_apply]
  beta_reduce
  -- entry k of the accumulated vector: the zero there plus the sum over the edges of "1 if the target word reads k"
  rw [host_scatterAdd_eq, splat_apply, ofBits_one_f32,
    show scatter_S10000_S640000x1_S640000_n_0_0_1 = ⟨[], [0], [0], 1, scatter_S10000_S640000x1_S640000_n_0_0_1_wf⟩ from rfl,
    ScatterAddRows.scatterAdd_vec_apply, splat_apply, Ideal.ofBits_zero_f32, zero_add]
  refine (congrArg (fun t : EReal => Ideal.rsqrt (t + 1)) (Finset.sum_congr rfl
    (g := fun n => ((if Gcn.node ei 1 n = k then (1 : ℝ) else 0 : ℝ) : EReal)) fun n _ => ?_)).trans ?_
  · -- edge n: its index word is the target word (1, n), which reads the node's number
    rw [HostReads.broadcastInDim_vec_col_apply, splat_apply, ofBits_one_f32]
    have hd := dstF_apply ei n
    unfold dstF at hd
    rw [hd, Gcn.node_val h 1 n]
    by_cases hc : Gcn.node ei 1 n = k
    · rw [if_pos hc, if_pos (by rw [hc]), EReal.coe_one]
    · rw [if_neg hc, if_neg (fun he => hc (Fin.ext (by exact_mod_cast he))), EReal.coe_zero]
  · -- the count plus one is deg(k) > 0
    rw [← coe_sum, ← EReal.coe_one, ← EReal.coe_add]
    have hpos : 0 < Gcn.deg (Gcn.node ei 1) k := by
      unfold Gcn.deg
      have h0 : 0 ≤ ∑ e : Fin 640000, if Gcn.node ei 1 e = k then (1 : ℝ) else 0 :=
        Finset.sum_nonneg fun e _ => by split <;> norm_num
      linarith
    show Ideal.rsqrt ((Gcn.deg (Gcn.node ei 1) k : ℝ) : EReal) = _
    rw [Ideal.rsqrt_coe, if_neg (not_lt.mpr hpos.le), if_neg hpos.ne']
    rfl

/-- deg^(-1/2), node by node, as a real number. -/
theorem disF_eq (ei : Gcn.EdgeWords) (h : Gcn.InRange ei) :
    disF (F := Ideal) ei = fun i => ((Gcn.dis (Gcn.node ei 1) (i 0) : ℝ) : EReal) := by
  funext i
  obtain ⟨k, rfl⟩ : ∃ k : Fin 10000, i = ix1 k := ⟨i 0, eq_ix1 i⟩
  exact disF_apply ei h k

end Gcn.Ref

end
-- ==== Proof.LibGatherRows.lean ====
/-
  A gather of whole rows of a table, read at an index.

  A table `T : [N, C]` gathered at a column `idx : [R, 1]` of start indices with offset_dims = [1],
  collapsed_slice_dims = [0], start_index_map = [0], index_vector_dim = 1 and slice sizes [1, C] has the result `[R, C]`
  whose row `e` is a row of the table. Read at `(e, j)` it is the table at `(r, j)`, where `r` is the start index
  `idx[e, 0]` read as a signed integer and clamped into `[0, N − 1]`: the one start-indexed axis is collapsed, so its
  slice has extent one and the clamp's upper end is `N − 1`; the column axis is the one offset axis, not start-indexed, so
  its slice starts at column 0 and the result's column coordinate is the table's.

  Stated for any dimension-numbers record with those field values (`gather_rows`), and for the record built from the
  extents and the well-formedness witness alone (`rowDims`, `gather_rowDims_apply`).
-/
import Idealize.ShloMosaic.PureOps.ShapeOps
import Idealize.ShloMosaic.Lib.ValueIdx

namespace Idealize.ShloMosaic.GatherRows

open Idealize.ShloMosaic Idealize.ShloMosaic.ValueIdx

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-- THE ROW GATHER READ AT `(e, j)`. For dimension numbers over a table `[N, C]`, start indices `[R, 1]` and result
    `[R, C]` with offset axis 1, collapsed axis 0, no batching axes, start index map `[0]` and the index vector on axis 1
    (`hoff` … `hivd`: the record's field values; its conditions give the slice sizes `[1, C]`): the table at row
    `idx[e, 0]`, read signed and clamped into `[0, N − 1]`, column `j`. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![N, C]⟩ : Shape).Idx → α) (idx : IVec ⟨2, ![R, 1]⟩ w) (e : Fin R) (j : Fin C) (hN : 0 < N) :
    Host.gather d T idx (ix2 e j) = T (ix2 ⟨min (idx (ix2 e 0)).toInt.toNat (N - 1), by omega⟩ j) := by
  unfold Host.gather
  congr 1
  funext a
  apply Fin.ext
  have hb : ∀ a, a ∉ d.operandBatchingDims := fun a => by rw [hob]; exact List.not_mem_nil
  match a with
  | ⟨0, _⟩ =>
    -- the row axis: start-indexed and collapsed, so the coordinate is the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: the one offset axis, not start-indexed, so the coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    simp only [Nat.add_zero, Nat.zero_add]
    rw [getElem_of_eq_singleton d.offsetDims 1 _ _ hoff]
    rfl

/-- Those dimension numbers for a table `[N, C]`, start indices `[R, 1]` and result `[R, C]`; their conditions `wf` are
    decided on literal extents. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather by `rowDims` read at `(e, j)`. -/
theorem gather_rowDims_apply {α : Type} {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (e : Fin R) (j : Fin C) :
    Host.gather (rowDims N R C wf) T idx (ix2 e j) = T (ix2 ⟨min (idx (ix2 e 0)).toInt.toNat (N - 1), by omega⟩ j) :=
  gather_rows (rowDims N R C wf) rfl rfl rfl rfl rfl T idx e j hN

end Idealize.ShloMosaic.GatherRows
-- ==== Proof.LibGatherVec.lean ====
/-
  A gather of single entries of a vector, read at an index.

  A table `T : [N]` gathered at a column `idx : [R, 1]` of start indices with no offset axes, collapsed_slice_dims = [0],
  start_index_map = [0], index_vector_dim = 1 and slice sizes [1] has the result `[R]` whose entry `e` is an entry of the
  table. Read at `e` it is the table at `r`, where `r` is the start index `idx[e, 0]` read as a signed integer and clamped
  into `[0, N − 1]`: the table's one axis is start-indexed and collapsed, so its slice has extent one and the clamp's upper
  end is `N − 1`.

  The library states this for the index `Shape.Idx.ofFin e` and the column position `ixP e`
  (`StableHlo.Predicate.gather_take`); here it is restated over the coordinate constructors `ix1 e` and `ix2 e 0`, the form
  a value proof written with those constructors meets.
-/
import Idealize.ShloMosaic.PureOps.ShapeOps
import Idealize.ShloMosaic.Lib.ValueIdx
import Idealize.ShloMosaic.Lib.StableHlo.Predicate

namespace Idealize.ShloMosaic.GatherVec

open Idealize.ShloMosaic Idealize.ShloMosaic.ValueIdx

/-- The rank-1 index built from a coordinate is the same index however it is spelt. -/
theorem ix1_eq_ofFin {n : Nat} (e : Fin n) : (ix1 e : (⟨1, ![n]⟩ : Shape).Idx) = Shape.Idx.ofFin e := by
  funext a
  match a with
  | ⟨0, _⟩ => exact Fin.ext rfl

/-- Row `e` of an `[n, 1]` column is the index `(e, 0)`. -/
theorem ix2_zero_eq_ixP {n : Nat} (e : Fin n) :
    (ix2 e (0 : Fin 1) : (⟨2, ![n, 1]⟩ : Shape).Idx) = StableHlo.Predicate.ixP e := by
  funext a
  match a with
  | ⟨0, _⟩ => rfl
  | ⟨1, _⟩ => rfl

/-- THE ENTRY GATHER READ AT `e`. For dimension numbers over a table `[N]`, start indices `[R, 1]` and result `[R]` with
    collapsed axis 0, no batching axes, start index map `[0]` and the index vector on axis 1 (`hcoll` … `hivd`: the record's
    field values): the table at entry `idx[e, 0]`, read signed and clamped into `[0, N − 1]`. -/
theorem gather_vec {α : Type} {N R w : Nat} (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1)
    (T : (⟨1, ![N]⟩ : Shape).Idx → α) (idx : IVec ⟨2, ![R, 1]⟩ w) (e : Fin R) (hN : 0 < N) :
    Host.gather d T idx (ix1 e) = T (ix1 ⟨min (idx (ix2 e 0)).toInt.toNat (N - 1), by omega⟩) := by
  rw [ix1_eq_ofFin e, StableHlo.Predicate.gather_take d hcoll hob hsim hivd T idx e hN, ← ix1_eq_ofFin]
  refine congrArg (fun r => T (ix1 r)) (Fin.ext ?_)
  show min (idx (StableHlo.Predicate.ixP e)).toInt.toNat (N - 1) = min (idx (ix2 e 0)).toInt.toNat (N - 1)
  rw [ix2_zero_eq_ixP]

end Idealize.ShloMosaic.GatherVec
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.RefLayer.lean ====
/-
  One layer of the reference, on real features and weights and a well-formed edge list, is the edge-by-edge layer of the
  specification.

  The layer is max(agg + self, 0), where, with H = X . W the product of the features and the weights,
    agg(i, c)  = the sum, over the edges e whose target word reads i, of H(s e, c) * (dis(s e) * dis(d e)),
    self(i, c) = H(i, c) * (dis(i) * dis(i)).
  Every word of the edge list is a node number, so the wrap of a negative index is the identity (no word is below zero),
  a gather reads its table at the word's node, and the accumulating scatter drops no row: row e lands at the node its
  target word reads. Each stage is read at an index; on real data every entry is the coercion of a real number, and the
  coercion commutes with the finite sums, the products, the sum of the two terms and the maximum with zero.
-/
import proofs.«421670_j70325794504771_2_alg».proof.Proof.RefDefs
import proofs.«421670_j70325794504771_2_alg».proof.Proof.Spec
import proofs.«421670_j70325794504771_2_alg».proof.Proof.LibScatterAddRows
import proofs.«421670_j70325794504771_2_alg».proof.Proof.LibGatherRows
import proofs.«421670_j70325794504771_2_alg».proof.Proof.LibGatherVec
import proofs.«421670_j70325794504771_2_alg».proof.Proof.LibHostReads
import proofs.«421670_j70325794504771_2_alg».proof.Proof.LibDenseLayer

noncomputable section

open scoped BigOperators

namespace Gcn.Ref

open Cert.ReferenceIdeal Cert.ReferenceIdeal.Gen Idealize.ShloMosaic Idealize.ShloMosaic.ValueIdx

/-! ## The rows of the edge list, words, coercions and two broadcasts -/

/-- Entry e of the sources is the word (0, e) of the edge list. -/
private theorem srcF_apply (ei : Gcn.EdgeWords) (e : Fin 640000) : srcF (F := Ideal) ei (ix1 e) = ei (ix2 0 e) := by
  unfold srcF
  dsimp only
  rw [shapeCast_1a_a_apply]
  refine extractStridedSlice_apply _ _ _ _ _ fun a => ?_
  match a with
  | ⟨0, _⟩ => rfl
  | ⟨1, _⟩ => show e.val = 0 + e.val; omega

/-- Entry e of the targets is the word (1, e) of the edge list. -/
private theorem dstF_apply (ei : Gcn.EdgeWords) (e : Fin 640000) : dstF (F := Ideal) ei (ix1 e) = ei (ix2 1 e) := by
  unfold dstF
  dsimp only
  rw [shapeCast_1a_a_apply]
  refine extractStridedSlice_apply _ _ _ _ _ fun a => ?_
  match a with
  | ⟨0, _⟩ => rfl
  | ⟨1, _⟩ => show e.val = 0 + e.val; omega

/-- A word that reads non-negative is not below zero. -/
private theorem slt_zero_of_nonneg (w : BitVec 32) (h0 : 0 ≤ w.toInt) : IntOp.cmpi .slt w 0#32 = 0#1 := by
  unfold IntOp.cmpi
  show BitVec.ofBool (w.slt 0#32) = 0#1
  have : w.slt 0#32 = false := by
    rw [BitVec.slt]
    simp only [BitVec.toInt_zero, decide_eq_false_iff_not, not_lt]
    exact h0
  rw [this]
  rfl

/-- The wrap of a negative index (add the extent where the word is below zero) leaves a non-negative word alone. -/
private theorem wrap_apply (v : IVec S640000 32) (e : Fin 640000) (h0 : 0 ≤ (v (ix1 e)).toInt) :
    select (cmpi .slt v (broadcastInDim S640000 ![] bcast_S_S640000 (constantI S_ 32 0#32)))
      (addi v (broadcastInDim S640000 ![] bcast_S_S640000 (constantI S_ 32 10000#32))) v (ix1 e) = v (ix1 e) := by
  show Scalar.select (IntOp.cmpi .slt (v (ix1 e)) 0#32) _ _ = _
  rw [slt_zero_of_nonneg _ h0, select_zero]

/-- The coercion of a finite sum of reals is the sum of the coercions. -/
private theorem coe_sum {ι : Type} [DecidableEq ι] (s : Finset ι) (f : ι → ℝ) :
    ((∑ i ∈ s, f i : ℝ) : EReal) = ∑ i ∈ s, ((f i : ℝ) : EReal) := by
  refine Finset.induction_on s ?_ fun a s ha ih => ?_
  · rw [Finset.sum_empty, Finset.sum_empty, EReal.coe_zero]
  · rw [Finset.sum_insert ha, Finset.sum_insert ha, EReal.coe_add, ih]

/-- A column [n, 1] repeated across the m columns of an [n, m] array reads, at (p, q), the column at (p, 0). -/
private theorem bcast_col_apply {α : Type} {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) := by
  refine broadcastInDim_apply ![0, 1] h v (ix2 p q) (ix2 p (0 : Fin 1)) fun a => ?_
  match a with
  | ⟨0, _⟩ =>
    show p.val = if n = 1 then 0 else p.val
    split
    · have := p.isLt; omega
    · rfl
  | ⟨1, _⟩ => rfl

/-- The zero array reads zero. -/
private theorem zeros_apply (j : S10000x128.Idx) :
    broadcastInDim S10000x128 ![] bcast_S_S10000x128 (constant (F := Ideal) S_ .f32 0x00000000#32) j = 0 := by
  show Ideal.ofBits .f32 0x00000000#32 = 0
  exact Ideal.ofBits_zero_f32

/-! ## The stages of one layer -/

/-- The features times the weights. -/
private def hmat (X : FVec Ideal S10000x128 .f32) (W : FVec Ideal S128x128 .f32) : FVec Ideal S10000x128 .f32 :=
  Host.dotGeneral dot_S10000x128_S128x128_S10000x128_1_0_0_1_n_n none X W

/-- An index vector with the extent added to its negative entries. -/
private def wrap (v : IVec S640000 32) : IVec S640000 32 :=
  select (cmpi .slt v (broadcastInDim S640000 ![] bcast_S_S640000 (constantI S_ 32 0#32)))
    (addi v (broadcastInDim S640000 ![] bcast_S_S640000 (constantI S_ 32 10000#32))) v

/-- A vector over the edges as a column. -/
private def col {α : Type} (v : S640000.Idx → α) : S640000x1.Idx → α :=
  broadcastInDim S640000x1 ![0] bcast_S640000_S640000x1_0 v

/-- The edge weights. -/
private def nrmv (src dst : IVec S640000 32) (dis : FVec Ideal S10000 .f32) : FVec Ideal S640000 .f32 :=
  mulf (Host.gather gather_S10000_S640000x1_S640000_n_0_n_n_0_1_1 dis (col (wrap src)))
    (Host.gather gather_S10000_S640000x1_S640000_n_0_n_n_0_1_1 dis (col (wrap dst)))

/-- The messages: the product's rows at the sources, scaled by the edge weights. -/
private def msgs (src dst : IVec S640000 32) (dis : FVec Ideal S10000 .f32) (H : FVec Ideal S10000x128 .f32) :
    FVec Ideal S640000x128 .f32 :=
  mulf (Host.gather gather_S10000x128_S640000x1_S640000x128_1_0_n_n_0_1_1128 H (col (wrap src)))
    (broadcastInDim S640000x128 ![0, 1] bcast_S640000x1_S640000x128_0_1 (col (nrmv src dst dis)))

/-- The messages summed into their targets. -/
private def agg (src dst : IVec S640000 32) (dis : FVec Ideal S10000 .f32) (H : FVec Ideal S10000x128 .f32) :
    FVec Ideal S10000x128 .f32 :=
  Host.scatterAdd scatter_S10000x128_S640000x1_S640000x128_1_0_0_1
    (broadcastInDim S10000x128 ![] bcast_S_S10000x128 (constant (F := Ideal) S_ .f32 0x00000000#32)) (col dst) (msgs src dst dis H)

/-- The self-loop term. -/
private def selfv (dis : FVec Ideal S10000 .f32) (H : FVec Ideal S10000x128 .f32) : FVec Ideal S10000x128 .f32 :=
  mulf H (broadcastInDim S10000x128 ![0, 1] bcast_S10000x1_S10000x128_0_1
    (broadcastInDim S10000x1 ![0] bcast_S10000_S10000x1_0 (mulf dis dis)))

/-- One layer is the rectified sum of the two terms. -/
private theorem layerF_stages (src dst : IVec S640000 32) (dis : FVec Ideal S10000 .f32) (X : FVec Ideal S10000x128 .f32)
    (W : FVec Ideal S128x128 .f32) :
    layerF (F := Ideal) src dst dis X W
      = maximumf (addf (agg src dst dis (hmat X W)) (selfv dis (hmat X W)))
          (broadcastInDim S10000x128 ![] bcast_S_S10000x128 (constant (F := Ideal) S_ .f32 0x00000000#32)) := rfl

/-! ## The stages read at an index -/

/-- The product of real features and weights at (i, c). -/
private theorem hmat_apply (X : Fin 10000 → Fin 128 → ℝ) (W : Fin 128 → Fin 128 → ℝ) (i : Fin 10000) (c : Fin 128) :
    hmat (Gcn.arr2 X) (Gcn.arr2 W) (ix2 i c) = ((∑ k : Fin 128, X i k * W k c : ℝ) : EReal) := by
  refine (DenseLayer.dotGeneral_rows_apply dot_S10000x128_S128x128_S10000x128_1_0_0_1_n_n_wf none .single
    (Gcn.arr2 X) (Gcn.arr2 W) i c).trans ?_
  rw [coe_sum]
  refine Finset.sum_congr rfl fun k _ => ?_
  rw [Gcn.arr2_apply, Gcn.arr2_apply, EReal.coe_mul]

/-- The wrapped index column reads a non-negative word itself. -/
private theorem col_wrap_apply (v : IVec S640000 32) (e : Fin 640000) (h0 : 0 ≤ (v (ix1 e)).toInt) :
    col (wrap v) (ix2 e (0 : Fin 1)) = v (ix1 e) := by
  unfold col wrap
  rw [HostReads.broadcastInDim_vec_col_apply]
  exact wrap_apply v e h0

/-- A column reads its vector. -/
private theorem col_apply {α : Type} (v : S640000.Idx → α) (e : Fin 640000) : col v (ix2 e (0 : Fin 1)) = v (ix1 e) := by
  unfold col
  rw [HostReads.broadcastInDim_vec_col_apply]

/-- The gather of per-node values at a column of words reads the value at the word's node. -/
private theorem gather_dis_apply (dis : FVec Ideal S10000 .f32) (idx : IVec S640000x1 32) (e : Fin 640000) :
    Host.gather gather_S10000_S640000x1_S640000_n_0_n_n_0_1_1 dis idx (ix1 e)
      = dis (ix1 ⟨min (idx (ix2 e (0 : Fin 1))).toInt.toNat 9999, by omega⟩) :=
  GatherVec.gather_vec gather_S10000_S640000x1_S640000_n_0_n_n_0_1_1 rfl rfl rfl rfl dis idx e (by decide)

/-- The gather of rows at a column of words reads the row at the word's node. -/
private theorem gather_rows_apply (H : FVec Ideal S10000x128 .f32) (idx : IVec S640000x1 32) (e : Fin 640000) (c : Fin 128) :
    Host.gather gather_S10000x128_S640000x1_S640000x128_1_0_n_n_0_1_1128 H idx (ix2 e c)
      = H (ix2 ⟨min (idx (ix2 e (0 : Fin 1))).toInt.toNat 9999, by omega⟩ c) :=
  GatherRows.gather_rows gather_S10000x128_S640000x1_S640000x128_1_0_n_n_0_1_1128 rfl rfl rfl rfl rfl H idx e c (by decide)

section Edges
variable (ei : Gcn.EdgeWords) (h : Gcn.InRange ei)
include h

/-- The wrapped source column reads the source word. -/
private theorem col_wrap_src (e : Fin 640000) : col (wrap (srcF (F := Ideal) ei)) (ix2 e (0 : Fin 1)) = ei (ix2 0 e) := by
  rw [col_wrap_apply _ e (by rw [srcF_apply]; exact (h 0 e).1), srcF_apply]

/-- The wrapped target column reads the target word. -/
private theorem col_wrap_dst (e : Fin 640000) : col (wrap (dstF (F := Ideal) ei)) (ix2 e (0 : Fin 1)) = ei (ix2 1 e) := by
  rw [col_wrap_apply _ e (by rw [dstF_apply]; exact (h 1 e).1), dstF_apply]

/-- The weight of edge e: the two per-node values at its source and its target. -/
private theorem nrmv_apply (dis : FVec Ideal S10000 .f32) (e : Fin 640000) :
    nrmv (srcF (F := Ideal) ei) (dstF (F := Ideal) ei) dis (ix1 e)
      = dis (ix1 (Gcn.node ei 0 e)) * dis (ix1 (Gcn.node ei 1 e)) := by
  unfold nrmv
  rw [mulf_apply, gather_dis_apply, gather_dis_apply]
  simp only [col_wrap_src ei h e, col_wrap_dst ei h e]
  rfl

/-- The message of edge e at column c. -/
private theorem msgs_apply (dis : FVec Ideal S10000 .f32) (H : FVec Ideal S10000x128 .f32) (e : Fin 640000) (c : Fin 128) :
    msgs (srcF (F := Ideal) ei) (dstF (F := Ideal) ei) dis H (ix2 e c)
      = H (ix2 (Gcn.node ei 0 e) c) * (dis (ix1 (Gcn.node ei 0 e)) * dis (ix1 (Gcn.node ei 1 e))) := by
  unfold msgs
  rw [mulf_apply, gather_rows_apply, bcast_col_apply, col_apply (nrmv _ _ dis) e, nrmv_apply ei h]
  simp only [col_wrap_src ei h e]
  rfl

end Edges

/-- The scatter read at (i, c). -/
private theorem scatter_read (x : FVec Ideal S10000x128 .f32) (idx : IVec S640000x1 32) (upd : FVec Ideal S640000x128 .f32)
    (i : Fin 10000) (c : Fin 128) :
    Host.scatterAdd scatter_S10000x128_S640000x1_S640000x128_1_0_0_1 x idx upd (ix2 i c)
      = x (ix2 i c) + ∑ n : Fin 640000, if (idx (ix2 n (0 : Fin 1))).toInt = (i.val : ℤ) then upd (ix2 n c) else 0 :=
  ScatterAddRows.scatterAdd_rows_apply scatter_S10000x128_S640000x1_S640000x128_1_0_0_1_wf x idx upd i c

section Layer
variable (ei : Gcn.EdgeWords) (h : Gcn.InRange ei)
include h

/-- The aggregate at (i, c): the messages of the edges whose target is i. -/
private theorem agg_apply (dis : FVec Ideal S10000 .f32) (H : FVec Ideal S10000x128 .f32) (i : Fin 10000) (c : Fin 128) :
    agg (srcF (F := Ideal) ei) (dstF (F := Ideal) ei) dis H (ix2 i c)
      = ∑ e : Fin 640000, if Gcn.node ei 1 e = i
          then H (ix2 (Gcn.node ei 0 e) c) * (dis (ix1 (Gcn.node ei 0 e)) * dis (ix1 (Gcn.node ei 1 e))) else 0 := by
  unfold agg
  rw [scatter_read, zeros_apply, zero_add]
  refine Finset.sum_congr rfl fun e _ => ?_
  rw [col_apply, dstF_apply, msgs_apply ei h]
  refine if_congr ?_ rfl rfl
  rw [Gcn.node_val h 1 e]
  constructor
  · intro hh
    exact Fin.ext (by exact_mod_cast hh)
  · intro hh
    rw [hh]

end Layer

/-- The self-loop term at (i, c). -/
private theorem selfv_apply (dis : FVec Ideal S10000 .f32) (H : FVec Ideal S10000x128 .f32) (i : Fin 10000) (c : Fin 128) :
    selfv dis H (ix2 i c) = H (ix2 i c) * (dis (ix1 i) * dis (ix1 i)) := by
  unfold selfv
  rw [mulf_apply, bcast_col_apply, HostReads.broadcastInDim_vec_col_apply, mulf_apply]

/-- The coercion of a maximum of reals is the maximum of the coercions. -/
private theorem coe_max (x y : ℝ) : ((max x y : ℝ) : EReal) = max (x : EReal) (y : EReal) :=
  EReal.coe_strictMono.monotone.map_max

section Real
variable (ei : Gcn.EdgeWords) (h : Gcn.InRange ei) (D : Fin 10000 → ℝ) (X : Fin 10000 → Fin 128 → ℝ) (W : Fin 128 → Fin 128 → ℝ)

/-- The self-loop term on real data, as a real number. -/
private theorem selfv_real (i : Fin 10000) (c : Fin 128) :
    selfv (fun j => ((D (j 0) : ℝ) : EReal)) (hmat (Gcn.arr2 X) (Gcn.arr2 W)) (ix2 i c)
      = (((∑ k : Fin 128, X i k * W k c) * (D i * D i) : ℝ) : EReal) := by
  rw [selfv_apply, hmat_apply, EReal.coe_mul, EReal.coe_mul]

include h

/-- The aggregate on real data, as a real number. -/
private theorem agg_real (i : Fin 10000) (c : Fin 128) :
    agg (srcF (F := Ideal) ei) (dstF (F := Ideal) ei) (fun j => ((D (j 0) : ℝ) : EReal)) (hmat (Gcn.arr2 X) (Gcn.arr2 W)) (ix2 i c)
      = ((∑ e : Fin 640000, if Gcn.node ei 1 e = i
          then (∑ k : Fin 128, X (Gcn.node ei 0 e) k * W k c) * (D (Gcn.node ei 0 e) * D (Gcn.node ei 1 e)) else 0 : ℝ) : EReal) := by
  rw [agg_apply ei h, coe_sum]
  refine Finset.sum_congr rfl fun e _ => ?_
  by_cases hc : Gcn.node ei 1 e = i
  · rw [if_pos hc, if_pos hc, hmat_apply, EReal.coe_mul, EReal.coe_mul]
  · rw [if_neg hc, if_neg hc, EReal.coe_zero]

end Real

/-- One layer of the reference on real data is the specification's layer. -/
theorem layerF_eq (ei : Gcn.EdgeWords) (h : Gcn.InRange ei) (X : Fin 10000 → Fin 128 → ℝ) (W : Fin 128 → Fin 128 → ℝ) :
    layerF (F := Ideal) (srcF (F := Ideal) ei) (dstF (F := Ideal) ei) (fun i => ((Gcn.dis (Gcn.node ei 1) (i 0) : ℝ) : EReal)) (Gcn.arr2 X) (Gcn.arr2 W)
      = Gcn.arr2 (Gcn.layer (Gcn.node ei 0) (Gcn.node ei 1) X W) := by
  funext idx
  obtain ⟨i, c, rfl⟩ : ∃ (i : Fin 10000) (c : Fin 128), idx = ix2 i c := ⟨idx 0, idx 1, eq_ix2 idx⟩
  rw [layerF_stages, maximumf_apply, addf_apply, zeros_apply, agg_real ei h (Gcn.dis (Gcn.node ei 1)) X W i c,
    selfv_real (Gcn.dis (Gcn.node ei 1)) X W i c, ← EReal.coe_add, Gcn.arr2_apply]
  unfold Gcn.layer Gcn.nrm
  exact (coe_max _ 0).symm

end Gcn.Ref

end
-- ==== Proof.KDefs.lean ====
/-
  The kernel program's host stages as functions of its inputs, at any float instance: the per-node deg^(-1/2), the dense
  normalized adjacency, the padded features (before the four launches), and the slice to the first 10000 rows, the per-graph
  pooling and the classifier's log-softmax (after them).
-/
import proofs.«421670_j70325794504771_2_alg».proof.Proof.Gen.KernelIdeal

noncomputable section

namespace Gcn.K

open Cert.KernelIdeal Cert.KernelIdeal.Gen Idealize.ShloMosaic Idealize.ShloMosaic.TcCoe Idealize.SL.Sem Idealize.ShloMosaic.StableHlo

variable {F : FTy → Type} [FloatOps F]

/-- deg^(-1/2) per node, deg one more than the number of edges whose target word is the node. -/
def disF (ei : (⟨S2x640000, .i32⟩ : BufTy).Contents (Elt F)) : (⟨S10000, .f32⟩ : BufTy).Contents (Elt F) :=
  let t_v2 := ((extractStridedSlice S1x640000 ![1, 0] · slices_S2x640000_S1x640000_1_0) : (⟨S2x640000, .i32⟩ : BufTy).Contents (Elt F) → (⟨S1x640000, .i32⟩ : BufTy).Contents (Elt F)) ei
  let t_v3 := shapeCast S640000 t_v2 shapeCasts_S1x640000_S640000
  let t_cst : (⟨S_, .f32⟩ : BufTy).Contents (Elt F) := (constant S_ .f32 0x3F800000#32)
  let t_v4 := (broadcastInDim S640000 ![] bcast_S_S640000 : (⟨S_, .f32⟩ : BufTy).Contents (Elt F) → (⟨S640000, .f32⟩ : BufTy).Contents (Elt F)) t_cst
  let t_cst_0 : (⟨S_, .f32⟩ : BufTy).Contents (Elt F) := (constant S_ .f32 0x00000000#32)
  let t_v5 := (broadcastInDim S10000 ![] bcast_S_S10000 : (⟨S_, .f32⟩ : BufTy).Contents (Elt F) → (⟨S10000, .f32⟩ : BufTy).Contents (Elt F)) t_cst_0
  let t_v6 := (broadcastInDim S640000x1 ![0] bcast_S640000_S640000x1_0 : (⟨S640000, .i32⟩ : BufTy).Contents (Elt F) → (⟨S640000x1, .i32⟩ : BufTy).Contents (Elt F)) t_v3
  let t_v7 := ((fun x i u => Host.scatterAdd scatter_S10000_S640000x1_S640000_n_0_0_1 x i u) : (⟨S10000, .f32⟩ : BufTy).Contents (Elt F) → (⟨S640000x1, .i32⟩ : BufTy).Contents (Elt F) → (⟨S640000, .f32⟩ : BufTy).Contents (Elt F) → (⟨S10000, .f32⟩ : BufTy).Contents (Elt F)) t_v5 t_v6 t_v4
  let t_cst_1 : (⟨S_, .f32⟩ : BufTy).Contents (Elt F) := (constant S_ .f32 0x3F800000#32)
  let t_v8 := (broadcastInDim S10000 ![] bcast_S_S10000 : (⟨S_, .f32⟩ : BufTy).Contents (Elt F) → (⟨S10000, .f32⟩ : BufTy).Contents (Elt F)) t_cst_1
  let t_v9 := (addf : (⟨S10000, .f32⟩ : BufTy).Contents (Elt F) → (⟨S10000, .f32⟩ : BufTy).Contents (Elt F) → (⟨S10000, .f32⟩ : BufTy).Contents (Elt F)) t_v7 t_v8
  let t_v10 := (Host.rsqrt : (⟨S10000, .f32⟩ : BufTy).Contents (Elt F) → (⟨S10000, .f32⟩ : BufTy).Contents (Elt F)) t_v9
  t_v10

/-- The dense normalized adjacency with self-loops: the edge weights and the self-loop weights accumulated at (target, source) into a 10112 x 10112 array of zeros. -/
def adjF (ei : (⟨S2x640000, .i32⟩ : BufTy).Contents (Elt F)) : (⟨S10112x10112, .bf16⟩ : BufTy).Contents (Elt F) :=
  let t_v0 := ((extractStridedSlice S1x640000 ![0, 0] · slices_S2x640000_S1x640000_0_0) : (⟨S2x640000, .i32⟩ : BufTy).Contents (Elt F) → (⟨S1x640000, .i32⟩ : BufTy).Contents (Elt F)) ei
  let t_v1 := shapeCast S640000 t_v0 shapeCasts_S1x640000_S640000
  let t_v2 := ((extractStridedSlice S1x640000 ![1, 0] · slices_S2x640000_S1x640000_1_0) : (⟨S2x640000, .i32⟩ : BufTy).Contents (Elt F) → (⟨S1x640000, .i32⟩ : BufTy).Contents (Elt F)) ei
  let t_v3 := shapeCast S640000 t_v2 shapeCasts_S1x640000_S640000
  let t_cst : (⟨S_, .f32⟩ : BufTy).Contents (Elt F) := (constant S_ .f32 0x3F800000#32)
  let t_v4 := (broadcastInDim S640000 ![] bcast_S_S640000 : (⟨S_, .f32⟩ : BufTy).Contents (Elt F) → (⟨S640000, .f32⟩ : BufTy).Contents (Elt F)) t_cst
  let t_cst_0 : (⟨S_, .f32⟩ : BufTy).Contents (Elt F) := (constant S_ .f32 0x00000000#32)
  let t_v5 := (broadcastInDim S10000 ![] bcast_S_S10000 : (⟨S_, .f32⟩ : BufTy).Contents (Elt F) → (⟨S10000, .f32⟩ : BufTy).Contents (Elt F)) t_cst_0
  let t_v6 := (broadcastInDim S640000x1 ![0] bcast_S640000_S640000x1_0 : (⟨S640000, .i32⟩ : BufTy).Contents (Elt F) → (⟨S640000x1, .i32⟩ : BufTy).Contents (Elt F)) t_v3
  let t_v7 := ((fun x i u => Host.scatterAdd scatter_S10000_S640000x1_S640000_n_0_0_1 x i u) : (⟨S10000, .f32⟩ : BufTy).Contents (Elt F) → (⟨S640000x1, .i32⟩ : BufTy).Contents (Elt F) → (⟨S640000, .f32⟩ : BufTy).Contents (Elt F) → (⟨S10000, .f32⟩ : BufTy).Contents (Elt F)) t_v5 t_v6 t_v4
  let t_cst_1 : (⟨S_, .f32⟩ : BufTy).Contents (Elt F) := (constant S_ .f32 0x3F800000#32)
  let t_v8 := (broadcastInDim S10000 ![] bcast_S_S10000 : (⟨S_, .f32⟩ : BufTy).Contents (Elt F) → (⟨S10000, .f32⟩ : BufTy).Contents (Elt F)) t_cst_1
  let t_v9 := (addf : (⟨S10000, .f32⟩ : BufTy).Contents (Elt F) → (⟨S10000, .f32⟩ : BufTy).Contents (Elt F) → (⟨S10000, .f32⟩ : BufTy).Contents (Elt F)) t_v7 t_v8
  let t_v10 := (Host.rsqrt : (⟨S10000, .f32⟩ : BufTy).Contents (Elt F) → (⟨S10000, .f32⟩ : BufTy).Contents (Elt F)) t_v9
  let t_c : (⟨S_, .i32⟩ : BufTy).Contents (Elt F) := (constantI S_ 32 0#32)
  let t_v11 := (broadcastInDim S640000 ![] bcast_S_S640000 : (⟨S_, .i32⟩ : BufTy).Contents (Elt F) → (⟨S640000, .i32⟩ : BufTy).Contents (Elt F)) t_c
  let t_v12 := (cmpi .slt : (⟨S640000, .i32⟩ : BufTy).Contents (Elt F) → (⟨S640000, .i32⟩ : BufTy).Contents (Elt F) → (⟨S640000, .i1⟩ : BufTy).Contents (Elt F)) t_v1 t_v11
  let t_c_2 : (⟨S_, .i32⟩ : BufTy).Contents (Elt F) := (constantI S_ 32 10000#32)
  let t_v13 := (broadcastInDim S640000 ![] bcast_S_S640000 : (⟨S_, .i32⟩ : BufTy).Contents (Elt F) → (⟨S640000, .i32⟩ : BufTy).Contents (Elt F)) t_c_2
  let t_v14 := (addi : (⟨S640000, .i32⟩ : BufTy).Contents (Elt F) → (⟨S640000, .i32⟩ : BufTy).Contents (Elt F) → (⟨S640000, .i32⟩ : BufTy).Contents (Elt F)) t_v1 t_v13
  let t_v15 := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) t_v12 t_v14 t_v1
  let t_v16 := (broadcastInDim S640000x1 ![0] bcast_S640000_S640000x1_0 : (⟨S640000, .i32⟩ : BufTy).Contents (Elt F) → (⟨S640000x1, .i32⟩ : BufTy).Contents (Elt F)) t_v15
  let t_v17 := ((fun x i => Host.gather gather_S10000_S640000x1_S640000_n_0_n_n_0_1_1 x i) : (⟨S10000, .f32⟩ : BufTy).Contents (Elt F) → (⟨S640000x1, .i32⟩ : BufTy).Contents (Elt F) → (⟨S640000, .f32⟩ : BufTy).Contents (Elt F)) t_v10 t_v16
  let t_c_3 : (⟨S_, .i32⟩ : BufTy).Contents (Elt F) := (constantI S_ 32 0#32)
  let t_v18 := (broadcastInDim S640000 ![] bcast_S_S640000 : (⟨S_, .i32⟩ : BufTy).Contents (Elt F) → (⟨S640000, .i32⟩ : BufTy).Contents (Elt F)) t_c_3
  let t_v19 := (cmpi .slt : (⟨S640000, .i32⟩ : BufTy).Contents (Elt F) → (⟨S640000, .i32⟩ : BufTy).Contents (Elt F) → (⟨S640000, .i1⟩ : BufTy).Contents (Elt F)) t_v3 t_v18
  let t_c_4 : (⟨S_, .i32⟩ : BufTy).Contents (Elt F) := (constantI S_ 32 10000#32)
  let t_v20 := (broadcastInDim S640000 ![] bcast_S_S640000 : (⟨S_, .i32⟩ : BufTy).Contents (Elt F) → (⟨S640000, .i32⟩ : BufTy).Contents (Elt F)) t_c_4
  let t_v21 := (addi : (⟨S640000, .i32⟩ : BufTy).Contents (Elt F) → (⟨S640000, .i32⟩ : BufTy).Contents (Elt F) → (⟨S640000, .i32⟩ : BufTy).Contents (Elt F)) t_v3 t_v20
  let t_v22 := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) t_v19 t_v21 t_v3
  let t_v23 := (broadcastInDim S640000x1 ![0] bcast_S640000_S640000x1_0 : (⟨S640000, .i32⟩ : BufTy).Contents (Elt F) → (⟨S640000x1, .i32⟩ : BufTy).Contents (Elt F)) t_v22
  let t_v24 := ((fun x i => Host.gather gather_S10000_S640000x1_S640000_n_0_n_n_0_1_1 x i) : (⟨S10000, .f32⟩ : BufTy).Contents (Elt F) → (⟨S640000x1, .i32⟩ : BufTy).Contents (Elt F) → (⟨S640000, .f32⟩ : BufTy).Contents (Elt F)) t_v10 t_v23
  let t_v25 := (mulf : (⟨S640000, .f32⟩ : BufTy).Contents (Elt F) → (⟨S640000, .f32⟩ : BufTy).Contents (Elt F) → (⟨S640000, .f32⟩ : BufTy).Contents (Elt F)) t_v17 t_v24
  let t_v26 : (⟨S10000, .i32⟩ : BufTy).Contents (Elt F) := (iotaInDim S10000 32 0)
  let t_v27 := ((fun a b => concatenate S650000 0 [⟨S640000, a⟩, ⟨S10000, b⟩] concatenates_S640000_S10000_S650000_d0) : (⟨S640000, .i32⟩ : BufTy).Contents (Elt F) → (⟨S10000, .i32⟩ : BufTy).Contents (Elt F) → (⟨S650000, .i32⟩ : BufTy).Contents (Elt F)) t_v3 t_v26
  let t_v28 := ((fun a b => concatenate S650000 0 [⟨S640000, a⟩, ⟨S10000, b⟩] concatenates_S640000_S10000_S650000_d0) : (⟨S640000, .i32⟩ : BufTy).Contents (Elt F) → (⟨S10000, .i32⟩ : BufTy).Contents (Elt F) → (⟨S650000, .i32⟩ : BufTy).Contents (Elt F)) t_v1 t_v26
  let t_v29 := (mulf : (⟨S10000, .f32⟩ : BufTy).Contents (Elt F) → (⟨S10000, .f32⟩ : BufTy).Contents (Elt F) → (⟨S10000, .f32⟩ : BufTy).Contents (Elt F)) t_v10 t_v10
  let t_v30 := ((fun a b => concatenate S650000 0 [⟨S640000, a⟩, ⟨S10000, b⟩] concatenates_S640000_S10000_S650000_d0) : (⟨S640000, .f32⟩ : BufTy).Contents (Elt F) → (⟨S10000, .f32⟩ : BufTy).Contents (Elt F) → (⟨S650000, .f32⟩ : BufTy).Contents (Elt F)) t_v25 t_v29
  let t_cst_5 : (⟨S_, .f32⟩ : BufTy).Contents (Elt F) := (constant S_ .f32 0x00000000#32)
  let t_v31 := (broadcastInDim S10112x10112 ![] bcast_S_S10112x10112 : (⟨S_, .f32⟩ : BufTy).Contents (Elt F) → (⟨S10112x10112, .f32⟩ : BufTy).Contents (Elt F)) t_cst_5
  let t_c_6 : (⟨S_, .i32⟩ : BufTy).Contents (Elt F) := (constantI S_ 32 0#32)
  let t_v32 := (broadcastInDim S650000 ![] bcast_S_S650000 : (⟨S_, .i32⟩ : BufTy).Contents (Elt F) → (⟨S650000, .i32⟩ : BufTy).Contents (Elt F)) t_c_6
  let t_v33 := (cmpi .slt : (⟨S650000, .i32⟩ : BufTy).Contents (Elt F) → (⟨S650000, .i32⟩ : BufTy).Contents (Elt F) → (⟨S650000, .i1⟩ : BufTy).Contents (Elt F)) t_v27 t_v32
  let t_c_7 : (⟨S_, .i32⟩ : BufTy).Contents (Elt F) := (constantI S_ 32 10112#32)
  let t_v34 := (broadcastInDim S650000 ![] bcast_S_S650000 : (⟨S_, .i32⟩ : BufTy).Contents (Elt F) → (⟨S650000, .i32⟩ : BufTy).Contents (Elt F)) t_c_7
  let t_v35 := (addi : (⟨S650000, .i32⟩ : BufTy).Contents (Elt F) → (⟨S650000, .i32⟩ : BufTy).Contents (Elt F) → (⟨S650000, .i32⟩ : BufTy).Contents (Elt F)) t_v27 t_v34
  let t_v36 := (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)) t_v33 t_v35 t_v27
  let t_c_8 : (⟨S_, .i32⟩ : BufTy).Contents (Elt F) := (constantI S_ 32 0#32)
  let t_v37 := (broadcastInDim S650000 ![] bcast_S_S650000 : (⟨S_, .i32⟩ : BufTy).Contents (Elt F) → (⟨S650000, .i32⟩ : BufTy).Contents (Elt F)) t_c_8
  let t_v38 := (cmpi .slt : (⟨S650000, .i32⟩ : BufTy).Contents (Elt F) → (⟨S650000, .i32⟩ : BufTy).Contents (Elt F) → (⟨S650000, .i1⟩ : BufTy).Contents (Elt F)) t_v28 t_v37
  let t_c_9 : (⟨S_, .i32⟩ : BufTy).Contents (Elt F) := (constantI S_ 32 10112#32)
  let t_v39 := (broadcastInDim S650000 ![] bcast_S_S650000 : (⟨S_, .i32⟩ : BufTy).Contents (Elt F) → (⟨S650000, .i32⟩ : BufTy).Contents (Elt F)) t_c_9
  let t_v40 := (addi : (⟨S650000, .i32⟩ : BufTy).Contents (Elt F) → (⟨S650000, .i32⟩ : BufTy).Contents (Elt F) → (⟨S650000, .i32⟩ : BufTy).Contents (Elt F)) t_v28 t_v39
  let t_v41 := (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)) t_v38 t_v40 t_v28
  let t_v42 := (broadcastInDim S650000x1 ![0] bcast_S650000_S650000x1_0 : (⟨S650000, .i32⟩ : BufTy).Contents (Elt F) → (⟨S650000x1, .i32⟩ : BufTy).Contents (Elt F)) t_v36
  let t_v43 := (broadcastInDim S650000x1 ![0] bcast_S650000_S650000x1_0 : (⟨S650000, .i32⟩ : BufTy).Contents (Elt F) → (⟨S650000x1, .i32⟩ : BufTy).Contents (Elt F)) t_v41
  let t_v44 := ((fun a b => concatenate S650000x2 1 [⟨S650000x1, a⟩, ⟨S650000x1, b⟩] concatenates_S650000x1_S650000x1_S650000x2_d1) : (⟨S650000x1, .i32⟩ : BufTy).Contents (Elt F) → (⟨S650000x1, .i32⟩ : BufTy).Contents (Elt F) → (⟨S650000x2, .i32⟩ : BufTy).Contents (Elt F)) t_v42 t_v43
  let t_v45 := ((fun x i u => Host.scatterAdd scatter_S10112x10112_S650000x2_S650000_n_01_01_1 x i u) : (⟨S10112x10112, .f32⟩ : BufTy).Contents (Elt F) → (⟨S650000x2, .i32⟩ : BufTy).Contents (Elt F) → (⟨S650000, .f32⟩ : BufTy).Contents (Elt F) → (⟨S10112x10112, .f32⟩ : BufTy).Contents (Elt F)) t_v31 t_v44 t_v30
  let t_v46 := ((truncf .bf16 · bitsLt_bf16_f32) : (⟨S10112x10112, .f32⟩ : BufTy).Contents (Elt F) → (⟨S10112x10112, .bf16⟩ : BufTy).Contents (Elt F)) t_v45
  t_v46

/-- The features padded with zero rows to 10112 rows. -/
def padF (x : (⟨S10000x128, .f32⟩ : BufTy).Contents (Elt F)) : (⟨S10112x128, .f32⟩ : BufTy).Contents (Elt F) :=
  let t_c_10 : (⟨S_, .i32⟩ : BufTy).Contents (Elt F) := (constantI S_ 32 0#32)
  let t_call0_v0 : (⟨S_, .f32⟩ : BufTy).Contents (Elt F) := (sitofp (F := F) .f32) t_c_10
  let t_v47 : (⟨S10112x128, .f32⟩ : BufTy).Contents (Elt F) := (fun x v => pad S10112x128 ![0, 0] ![112, 0] ![0, 0] x v pads_S10000x128_S10112x128_01120_000 h_S_) x t_call0_v0
  t_v47

/-- The first 10000 rows. -/
def topF (Yp : (⟨S10112x128, .f32⟩ : BufTy).Contents (Elt F)) : (⟨S10000x128, .f32⟩ : BufTy).Contents (Elt F) :=
  let t_v52 := ((extractStridedSlice S10000x128 ![0, 0] · slices_S10112x128_S10000x128_0_0) : (⟨S10112x128, .f32⟩ : BufTy).Contents (Elt F) → (⟨S10000x128, .f32⟩ : BufTy).Contents (Elt F)) Yp
  t_v52

/-- The features summed per graph of the batch. -/
def poolF (Y : (⟨S10000x128, .f32⟩ : BufTy).Contents (Elt F)) (batch : (⟨S10000, .i32⟩ : BufTy).Contents (Elt F)) : (⟨S64x128, .f32⟩ : BufTy).Contents (Elt F) :=
  let t_cst_11 : (⟨S_, .f32⟩ : BufTy).Contents (Elt F) := (constant S_ .f32 0x00000000#32)
  let t_v53 := (broadcastInDim S64x128 ![] bcast_S_S64x128 : (⟨S_, .f32⟩ : BufTy).Contents (Elt F) → (⟨S64x128, .f32⟩ : BufTy).Contents (Elt F)) t_cst_11
  let t_v54 := (broadcastInDim S10000x1 ![0] bcast_S10000_S10000x1_0 : (⟨S10000, .i32⟩ : BufTy).Contents (Elt F) → (⟨S10000x1, .i32⟩ : BufTy).Contents (Elt F)) batch
  let t_v55 := ((fun x i u => Host.scatterAdd scatter_S64x128_S10000x1_S10000x128_1_0_0_1 x i u) : (⟨S64x128, .f32⟩ : BufTy).Contents (Elt F) → (⟨S10000x1, .i32⟩ : BufTy).Contents (Elt F) → (⟨S10000x128, .f32⟩ : BufTy).Contents (Elt F) → (⟨S64x128, .f32⟩ : BufTy).Contents (Elt F)) t_v53 t_v54 Y
  t_v55

/-- The classifier's log-softmax rows. -/
def logitsF (Y : (⟨S10000x128, .f32⟩ : BufTy).Contents (Elt F)) (fcw : (⟨S128x10, .f32⟩ : BufTy).Contents (Elt F)) (fcb : (⟨S10, .f32⟩ : BufTy).Contents (Elt F)) : (⟨S10000x10, .f32⟩ : BufTy).Contents (Elt F) :=
  let t_v56 := ((fun l r => Host.dotGeneral dot_S10000x128_S128x10_S10000x10_1_0_0_1_n_n none l r) : (⟨S10000x128, .f32⟩ : BufTy).Contents (Elt F) → (⟨S128x10, .f32⟩ : BufTy).Contents (Elt F) → (⟨S10000x10, .f32⟩ : BufTy).Contents (Elt F)) Y fcw
  let t_v57 := (broadcastInDim S1x10 ![1] bcast_S10_S1x10_1 : (⟨S10, .f32⟩ : BufTy).Contents (Elt F) → (⟨S1x10, .f32⟩ : BufTy).Contents (Elt F)) fcb
  let t_v58 := (broadcastInDim S10000x10 ![0, 1] bcast_S1x10_S10000x10_0_1 : (⟨S1x10, .f32⟩ : BufTy).Contents (Elt F) → (⟨S10000x10, .f32⟩ : BufTy).Contents (Elt F)) t_v57
  let t_v59 := (addf : (⟨S10000x10, .f32⟩ : BufTy).Contents (Elt F) → (⟨S10000x10, .f32⟩ : BufTy).Contents (Elt F) → (⟨S10000x10, .f32⟩ : BufTy).Contents (Elt F)) t_v56 t_v58
  let t_call1_cst : (⟨S_, .f32⟩ : BufTy).Contents (Elt F) := (constant S_ .f32 0xFF800000#32)
  let t_call1_v0 : (⟨S10000, .f32⟩ : BufTy).Contents (Elt F) := (fun x v => Host.reduce FloatOps.maximumf x v reducesTo_S10000x10_S10000_d1 h_S_) t_v59 t_call1_cst
  let t_call1_cst_0 : (⟨S_, .f32⟩ : BufTy).Contents (Elt F) := (constant S_ .f32 0xFF800000#32)
  let t_call1_v1 : (⟨S10000, .f32⟩ : BufTy).Contents (Elt F) := (broadcastInDim S10000 ![] bcast_S_S10000) t_call1_cst_0
  let t_call1_v2 : (⟨S10000, .f32⟩ : BufTy).Contents (Elt F) := (maximumf) t_call1_v1 t_call1_v0
  let t_call1_v3 : (⟨S10000x1, .f32⟩ : BufTy).Contents (Elt F) := (broadcastInDim S10000x1 ![0] bcast_S10000_S10000x1_0) t_call1_v2
  let t_call1_v4 : (⟨S10000x10, .f32⟩ : BufTy).Contents (Elt F) := (broadcastInDim S10000x10 ![0, 1] bcast_S10000x1_S10000x10_0_1) t_call1_v3
  let t_call1_v5 : (⟨S10000x10, .f32⟩ : BufTy).Contents (Elt F) := (subf) t_v59 t_call1_v4
  let t_call1_v6 : (⟨S10000x10, .f32⟩ : BufTy).Contents (Elt F) := (Host.exp) t_call1_v5
  let t_call1_cst_1 : (⟨S_, .f32⟩ : BufTy).Contents (Elt F) := (constant S_ .f32 0x00000000#32)
  let t_call1_v7 : (⟨S10000, .f32⟩ : BufTy).Contents (Elt F) := (fun x v => Host.reduceAdd x v reducesTo_S10000x10_S10000_d1 h_S_) t_call1_v6 t_call1_cst_1
  let t_call1_v8 : (⟨S10000x1, .f32⟩ : BufTy).Contents (Elt F) := (broadcastInDim S10000x1 ![0] bcast_S10000_S10000x1_0) t_call1_v7
  let t_call1_v9 : (⟨S10000x1, .f32⟩ : BufTy).Contents (Elt F) := (Host.log) t_call1_v8
  let t_call1_v10 : (⟨S10000x10, .f32⟩ : BufTy).Contents (Elt F) := (broadcastInDim S10000x10 ![0, 1] bcast_S10000x1_S10000x10_0_1) t_call1_v9
  let t_v60 : (⟨S10000x10, .f32⟩ : BufTy).Contents (Elt F) := (subf) t_call1_v5 t_call1_v10
  t_v60

end Gcn.K

end
-- ==== Proof.LibScatterPoint.lean ====
/-
  GENERAL LEMMA (host scatter-add of scalars at pairs of coordinates).

  A scatter-add whose updates are N scalars, each sent to the entry of an [A, B] operand named by a row of an [N, 2]
  array of index words (both operand axes inserted, no window axis), read at an entry (i, j) at the exact-real instance:
  the operand's entry plus the sum of the updates whose two index words read i and j.  An update whose words name no
  entry is dropped.
-/
import Idealize.ShloMosaic.PureOps.Ideal.Laws
import Idealize.ShloMosaic.Lib.ValueIdx
import proofs.«421670_j70325794504771_2_alg».proof.Proof.LibScatterAddRows

noncomputable section

open scoped BigOperators

namespace Idealize.ShloMosaic.ScatterPoint

open Idealize.ShloMosaic Idealize.ShloMosaic.ValueIdx

section Point
variable {A B N : ℕ} (wf : ScatterDims.WF ⟨2, ![A, B]⟩ ⟨2, ![N, 2]⟩ ⟨1, ![N]⟩ [] [0, 1] [0, 1] 1)

/-- The index word an update reads for component c of its start: the array of index words at (its position, c). -/
private theorem point_siIdx (j : (⟨1, ![N]⟩ : Shape).Idx) (c) :
    (⟨[], [0, 1], [0, 1], 1, wf⟩ : ScatterDims ⟨2, ![A, B]⟩ ⟨2, ![N, 2]⟩ ⟨1, ![N]⟩).siIdx j c
      = ix2 (j 0) (⟨c.val, c.isLt⟩ : Fin 2) := by
  funext b
  match b with
  | ⟨0, _⟩ => exact Fin.ext rfl
  | ⟨1, _⟩ => exact Fin.ext rfl

/-- On the first operand axis the window starts at the update's first index word, read signed. -/
private theorem point_start0 {w : ℕ} (j : (⟨1, ![N]⟩ : Shape).Idx) (idx : IVec ⟨2, ![N, 2]⟩ w) :
    (⟨[], [0, 1], [0, 1], 1, wf⟩ : ScatterDims ⟨2, ![A, B]⟩ ⟨2, ![N, 2]⟩ ⟨1, ![N]⟩).start j idx 0
      = (idx (ix2 (j 0) (0 : Fin 2))).toInt := by
  unfold ScatterDims.start
  rw [dif_pos (List.mem_cons_self ..), point_siIdx]
  rfl

/-- On the second operand axis the window starts at the update's second index word, read signed. -/
private theorem point_start1 {w : ℕ} (j : (⟨1, ![N]⟩ : Shape).Idx) (idx : IVec ⟨2, ![N, 2]⟩ w) :
    (⟨[], [0, 1], [0, 1], 1, wf⟩ : ScatterDims ⟨2, ![A, B]⟩ ⟨2, ![N, 2]⟩ ⟨1, ![N]⟩).start j idx 1
      = (idx (ix2 (j 0) (1 : Fin 2))).toInt := by
  unfold ScatterDims.start
  rw [dif_pos (List.mem_cons_of_mem _ (List.mem_cons_self ..)), point_siIdx]
  rfl

/-- Both operand axes are inserted: the window coordinate is zero on the first … -/
private theorem point_window0 (j : (⟨1, ![N]⟩ : Shape).Idx) :
    (⟨[], [0, 1], [0, 1], 1, wf⟩ : ScatterDims ⟨2, ![A, B]⟩ ⟨2, ![N, 2]⟩ ⟨1, ![N]⟩).window j 0 = 0 := by
  rfl

/-- … and on the second. -/
private theorem point_window1 (j : (⟨1, ![N]⟩ : Shape).Idx) :
    (⟨[], [0, 1], [0, 1], 1, wf⟩ : ScatterDims ⟨2, ![A, B]⟩ ⟨2, ![N, 2]⟩ ⟨1, ![N]⟩).window j 1 = 0 := by
  rfl

/-- Update index n lands at (i, j) exactly when its two index words read i and j. -/
theorem point_resultIdx?_iff {w : ℕ} (n : (⟨1, ![N]⟩ : Shape).Idx) (idx : IVec ⟨2, ![N, 2]⟩ w) (i : Fin A) (j : Fin B) :
    (⟨[], [0, 1], [0, 1], 1, wf⟩ : ScatterDims ⟨2, ![A, B]⟩ ⟨2, ![N, 2]⟩ ⟨1, ![N]⟩).resultIdx? n idx = some (ix2 i j)
      ↔ (idx (ix2 (n 0) (0 : Fin 2))).toInt = (i.val : ℤ) ∧ (idx (ix2 (n 0) (1 : Fin 2))).toInt = (j.val : ℤ) := by
  rw [ScatterAddRows.resultIdx?_eq_some_iff, Fin.forall_fin_two, point_start0, point_start1, point_window0,
    point_window1]
  constructor
  · rintro ⟨h0, h1⟩
    exact ⟨by simpa using h0, by simpa using h1⟩
  · rintro ⟨h0, h1⟩
    exact ⟨by simpa using h0, by simpa using h1⟩

end Point

/-- Scalars accumulated into an [A, B] operand at the entries named by an [N, 2] array of index words, read at (i, j). -/
theorem scatterAdd_point2_apply {A B N w : ℕ}
    (wf : ScatterDims.WF ⟨2, ![A, B]⟩ ⟨2, ![N, 2]⟩ ⟨1, ![N]⟩ [] [0, 1] [0, 1] 1)
    (x : (⟨2, ![A, B]⟩ : Shape).Idx → EReal) (idx : IVec ⟨2, ![N, 2]⟩ w) (upd : (⟨1, ![N]⟩ : Shape).Idx → EReal)
    (i : Fin A) (j : Fin B) :
    Ideal.hostScatterAdd (⟨[], [0, 1], [0, 1], 1, wf⟩ : ScatterDims ⟨2, ![A, B]⟩ ⟨2, ![N, 2]⟩ ⟨1, ![N]⟩) x idx upd (ix2 i j)
      = x (ix2 i j) + ∑ n : Fin N, if (idx (ix2 n (0 : Fin 2))).toInt = (i.val : ℤ) ∧ (idx (ix2 n (1 : Fin 2))).toInt = (j.val : ℤ)
          then upd (ix1 n) else 0 := by
  unfold Ideal.hostScatterAdd
  congr 1
  rw [Finset.sum_filter, ScatterAddRows.sum_idx1]
  refine Finset.sum_congr rfl fun n _ => ?_
  exact if_congr (point_resultIdx?_iff wf (ix1 n) idx i j) rfl rfl

end Idealize.ShloMosaic.ScatterPoint

end
-- ==== Proof.KHost.lean ====
/-
  The dense matrix the kernel program accumulates before its launches is the normalized adjacency with self-loops of the
  specification, when every word of the edge list is a node number.

  The program lengthens the targets and the sources of the 640000 edges by the 10000 node numbers, the edge weights
  dis(s e) * dis(d e) by the self-loop weights dis(v) * dis(v), and adds update n into entry (target n, source n) of a
  10112 x 10112 array of zeros.  Read at (i, j) the result is the sum of the updates that land there; the sum over the
  650000 positions splits into the edges' part and the nodes' part, which are the two sums of the specification.
-/
import proofs.«421670_j70325794504771_2_alg».proof.Proof.KDefs
import proofs.«421670_j70325794504771_2_alg».proof.Proof.Spec
import proofs.«421670_j70325794504771_2_alg».proof.Proof.HostDis
import proofs.«421670_j70325794504771_2_alg».proof.Proof.LibScatterAddRows
import proofs.«421670_j70325794504771_2_alg».proof.Proof.LibGatherVec
import proofs.«421670_j70325794504771_2_alg».proof.Proof.LibHostReads
import proofs.«421670_j70325794504771_2_alg».proof.Proof.LibScatterPoint
import proofs.«421670_j70325794504771_2_alg».proof.Proof.Algebra
import Idealize.ShloMosaic.Lib.IdealHost
import Idealize.ShloMosaic.Lib.ValueLayout
import Idealize.ShloMosaic.Lib.DynamicIndex
import Idealize.ShloMosaic.Lib.Pipeline.Value

noncomputable section

namespace Gcn.K

open Idealize.ShloMosaic Idealize.ShloMosaic.ValueIdx

/-- deg^(-1/2), node by node, as a real number. -/
theorem disF_eq (ei : Gcn.EdgeWords) (h : Gcn.InRange ei) :
    disF (F := Ideal) ei = fun i => ((Gcn.dis (Gcn.node ei 1) (i 0) : ℝ) : EReal) :=
  Gcn.Ref.disF_eq ei h

/-! ### The two rows of the edge list -/

open Cert.KernelIdeal Cert.KernelIdeal.Gen

/-- Row 0 of the edge list as a vector. -/
def srcV (ei : Gcn.EdgeWords) : IVec S640000 32 :=
  shapeCast S640000 (extractStridedSlice S1x640000 ![0, 0] ei slices_S2x640000_S1x640000_0_0) shapeCasts_S1x640000_S640000

/-- Row 1 of the edge list as a vector. -/
def dstV (ei : Gcn.EdgeWords) : IVec S640000 32 :=
  shapeCast S640000 (extractStridedSlice S1x640000 ![1, 0] ei slices_S2x640000_S1x640000_1_0) shapeCasts_S1x640000_S640000

theorem srcV_apply (ei : Gcn.EdgeWords) (e : Fin 640000) : srcV ei (ix1 e) = ei (ix2 0 e) := by
  unfold srcV
  rw [shapeCast_1a_a_apply]
  exact slice2_axis0_apply 0 ei _ (0 : Fin 1) e (0 : Fin 2) rfl

theorem dstV_apply (ei : Gcn.EdgeWords) (e : Fin 640000) : dstV ei (ix1 e) = ei (ix2 1 e) := by
  unfold dstV
  rw [shapeCast_1a_a_apply]
  exact slice2_axis0_apply 1 ei _ (0 : Fin 1) e (1 : Fin 2) rfl

/-- A negative index is wrapped by adding the extent; an index that is not negative is kept. -/
theorem wrap_apply {s : Shape} (hb : (⟨0, ![]⟩ : Shape).BroadcastsInDim s ![]) (v a : IVec s 32) (j : s.Idx)
    (h : 0 ≤ (v j).toInt) :
    select (cmpi .slt v (broadcastInDim s ![] hb (constantI S_ 32 0#32))) a v j = v j := by
  have hc : broadcastInDim s ![] hb (constantI S_ 32 0#32) = constantI s 32 0#32 := by
    funext k
    rw [broadcastInDim_scalar_apply]
    rfl
  rw [hc]
  exact select_slt_zero_of_nonneg v a v j h

/-! ### The pieces of the computation, named -/

/-- The zero word broadcast to a shape. -/
abbrev zeroW (s : Shape) (hb : (⟨0, ![]⟩ : Shape).BroadcastsInDim s ![]) : IVec s 32 :=
  broadcastInDim s ![] hb (constantI S_ 32 0#32)

/-- An index wrapped once: a negative word has the extent added, any other word is kept. -/
def wrapV {s : Shape} (hb : (⟨0, ![]⟩ : Shape).BroadcastsInDim s ![]) (n : BitVec 32) (v : IVec s 32) : IVec s 32 :=
  select (cmpi .slt v (broadcastInDim s ![] hb (constantI S_ 32 0#32)))
    (addi v (broadcastInDim s ![] hb (constantI S_ 32 n))) v

/-- A vector over the edges followed by a vector over the nodes. -/
def catV {α : Type} (a : S640000.Idx → α) (b : S10000.Idx → α) : S650000.Idx → α :=
  concatenate S650000 0 [⟨S640000, a⟩, ⟨S10000, b⟩] concatenates_S640000_S10000_S650000_d0

/-- Two vectors of index words as the two columns of one array. -/
def colsV (a b : IVec S650000 32) : IVec S650000x2 32 :=
  concatenate S650000x2 1
    [⟨S650000x1, broadcastInDim S650000x1 ![0] bcast_S650000_S650000x1_0 a⟩,
     ⟨S650000x1, broadcastInDim S650000x1 ![0] bcast_S650000_S650000x1_0 b⟩]
    concatenates_S650000x1_S650000x1_S650000x2_d1

/-- The per-node factors read at a vector of node words. -/
def gatV (D : FVec Ideal S10000 .f32) (w : IVec S640000 32) : FVec Ideal S640000 .f32 :=
  Host.gather gather_S10000_S640000x1_S640000_n_0_n_n_0_1_1 D
    (broadcastInDim S640000x1 ![0] bcast_S640000_S640000x1_0 w)

/-- The node numbers as words. -/
def iotaV : IVec S10000 32 := iotaInDim S10000 32 0

/-- The dense matrix as a function of the two rows of the edge list and the per-node factors. -/
def adjCore (src dst : IVec S640000 32) (D : FVec Ideal S10000 .f32) : FVec Ideal S10112x10112 .bf16 :=
  truncf .bf16
    (Host.scatterAdd scatter_S10112x10112_S650000x2_S650000_n_01_01_1
      (broadcastInDim S10112x10112 ![] bcast_S_S10112x10112 (constant S_ .f32 0x00000000#32))
      (colsV (wrapV bcast_S_S650000 10112#32 (catV dst iotaV)) (wrapV bcast_S_S650000 10112#32 (catV src iotaV)))
      (catV (mulf (gatV D (wrapV bcast_S_S640000 10000#32 src)) (gatV D (wrapV bcast_S_S640000 10000#32 dst))) (mulf D D)))
    bitsLt_bf16_f32

theorem adjF_core (ei : Gcn.EdgeWords) : adjF (F := Ideal) ei = adjCore (srcV ei) (dstV ei) (disF (F := Ideal) ei) := rfl

/-! ### Each piece read at an index -/

theorem wrapV_apply {s : Shape} (hb : (⟨0, ![]⟩ : Shape).BroadcastsInDim s ![]) (n : BitVec 32) (v : IVec s 32) (j : s.Idx)
    (h : 0 ≤ (v j).toInt) : wrapV hb n v j = v j :=
  wrap_apply hb v _ j h

theorem catV_left {α : Type} (a : S640000.Idx → α) (b : S10000.Idx → α) (e : Fin 640000) (n : Fin 650000)
    (hn : n.val = e.val) : catV a b (ix1 n) = a (ix1 e) := by
  unfold catV
  exact concatenate_pair_apply_left 0 a b _ (ix1 n) rfl (ix1 e) (fun c => by
    match c with
    | ⟨0, _⟩ => exact hn.symm)

theorem catV_right {α : Type} (a : S640000.Idx → α) (b : S10000.Idx → α) (v : Fin 10000) (n : Fin 650000)
    (hn : n.val = 640000 + v.val) : catV a b (ix1 n) = b (ix1 v) := by
  unfold catV
  refine concatenate_pair_apply_right 0 a b _ (ix1 n) rfl rfl (ix1 v) (fun c hc => ?_) ?_
  · exact absurd (Subsingleton.elim _ _) hc
  · show v.val + 640000 = n.val
    omega

theorem colsV_zero (a b : IVec S650000 32) (n : Fin 650000) : colsV a b (ix2 n (0 : Fin 2)) = a (ix1 n) := by
  unfold colsV
  refine (concatenate_pair_apply_left (s₁ := S650000x1) (s₂ := S650000x1) 1 _ _ _ (ix2 n (0 : Fin 2)) rfl (ix2 n (0 : Fin 1)) (fun c => ?_)).trans ?_
  · match c with
    | ⟨0, _⟩ => rfl
    | ⟨1, _⟩ => rfl
  · exact HostReads.broadcastInDim_vec_col_apply _ a n (0 : Fin 1)

theorem colsV_one (a b : IVec S650000 32) (n : Fin 650000) : colsV a b (ix2 n (1 : Fin 2)) = b (ix1 n) := by
  unfold colsV
  refine (concatenate_pair_apply_right (s₁ := S650000x1) (s₂ := S650000x1) 1 _ _ _ (ix2 n (1 : Fin 2)) rfl rfl (ix2 n (0 : Fin 1)) (fun c hc => ?_) ?_).trans ?_
  · match c with
    | ⟨0, _⟩ => rfl
    | ⟨1, _⟩ => exact absurd rfl hc
  · rfl
  · exact HostReads.broadcastInDim_vec_col_apply _ b n (0 : Fin 1)

theorem gatV_apply (D : FVec Ideal S10000 .f32) (w : IVec S640000 32) (e : Fin 640000) (k : Fin 10000)
    (hk : (w (ix1 e)).toInt = (k.val : ℤ)) : gatV D w (ix1 e) = D (ix1 k) := by
  unfold gatV
  rw [GatherVec.gather_vec _ rfl rfl rfl rfl D _ e (by decide)]
  refine congrArg (fun r => D (ix1 r)) (Fin.ext ?_)
  show min (broadcastInDim S640000x1 ![0] bcast_S640000_S640000x1_0 w (ix2 e (0 : Fin 1))).toInt.toNat (10000 - 1) = k.val
  rw [HostReads.broadcastInDim_vec_col_apply, hk]
  have := k.isLt
  omega

theorem iotaV_toInt (v : Fin 10000) : (iotaV (ix1 v)).toInt = (v.val : ℤ) := by
  show (BitVec.ofNat 32 v.val).toInt = _
  exact toInt_ofNat_of_lt (by have := v.isLt; omega)

theorem sum_split (f : Fin 650000 → EReal) :
    ∑ n, f n = (∑ e : Fin 640000, f ⟨e.val, by have := e.isLt; omega⟩)
      + ∑ v : Fin 10000, f ⟨640000 + v.val, by have := v.isLt; omega⟩ :=
  Fin.sum_univ_add (a := 640000) (b := 10000) f

/-- A position among the edges: the wrapped word of the lengthened vector is the edge's word. -/
theorem idxRow_edge (v : IVec S640000 32) (e : Fin 640000) (n : Fin 650000) (hn : n.val = e.val)
    (h0 : 0 ≤ (v (ix1 e)).toInt) : wrapV bcast_S_S650000 10112#32 (catV v iotaV) (ix1 n) = v (ix1 e) := by
  have hc : catV v iotaV (ix1 n) = v (ix1 e) := catV_left v iotaV e n hn
  rw [wrapV_apply bcast_S_S650000 10112#32 (catV v iotaV) (ix1 n) (by rw [hc]; exact h0), hc]

/-- A position past the edges: the wrapped word of the lengthened vector reads the node's number. -/
theorem idxRow_node (v : IVec S640000 32) (u : Fin 10000) (n : Fin 650000) (hn : n.val = 640000 + u.val) :
    (wrapV bcast_S_S650000 10112#32 (catV v iotaV) (ix1 n)).toInt = (u.val : ℤ) := by
  have hc : catV v iotaV (ix1 n) = iotaV (ix1 u) := catV_right v iotaV u n hn
  rw [wrapV_apply bcast_S_S650000 10112#32 (catV v iotaV) (ix1 n) (by rw [hc, iotaV_toInt]; exact Int.natCast_nonneg _),
    hc, iotaV_toInt]

/-- The accumulation into the dense array read at an entry. -/
theorem scatter_point (x : FVec Ideal S10112x10112 .f32) (idx : IVec S650000x2 32) (upd : FVec Ideal S650000 .f32)
    (i j : Fin 10112) :
    Host.scatterAdd scatter_S10112x10112_S650000x2_S650000_n_01_01_1 x idx upd (ix2 i j)
      = x (ix2 i j) + ∑ n : Fin 650000,
          if (idx (ix2 n (0 : Fin 2))).toInt = (i.val : ℤ) ∧ (idx (ix2 n (1 : Fin 2))).toInt = (j.val : ℤ)
            then upd (ix1 n) else 0 := by
  unfold Host.scatterAdd
  rw [Ideal.hostScatterAdd_def]
  exact ScatterPoint.scatterAdd_point2_apply scatter_S10112x10112_S650000x2_S650000_n_01_01_1.wf x idx upd i j

section Terms

variable (src dst : IVec S640000 32) (D : FVec Ideal S10000 .f32)
  (s d : Fin 640000 → Fin 10000) (δ : Fin 10000 → ℝ)
  (hs : ∀ e, (src (ix1 e)).toInt = ((s e).val : ℤ)) (hd : ∀ e, (dst (ix1 e)).toInt = ((d e).val : ℤ))
  (hD : ∀ v, D (ix1 v) = ((δ v : ℝ) : EReal))

include hs hd hD in
/-- The weight the program computes for edge e. -/
theorem normV_apply (e : Fin 640000) :
    mulf (gatV D (wrapV bcast_S_S640000 10000#32 src)) (gatV D (wrapV bcast_S_S640000 10000#32 dst)) (ix1 e)
      = ((δ (s e) * δ (d e) : ℝ) : EReal) := by
  have h0s : 0 ≤ (src (ix1 e)).toInt := by rw [hs]; exact Int.natCast_nonneg _
  have h0d : 0 ≤ (dst (ix1 e)).toInt := by rw [hd]; exact Int.natCast_nonneg _
  have ws : (wrapV bcast_S_S640000 10000#32 src (ix1 e)).toInt = ((s e).val : ℤ) := by
    rw [wrapV_apply bcast_S_S640000 10000#32 src (ix1 e) h0s, hs]
  have wd : (wrapV bcast_S_S640000 10000#32 dst (ix1 e)).toInt = ((d e).val : ℤ) := by
    rw [wrapV_apply bcast_S_S640000 10000#32 dst (ix1 e) h0d, hd]
  rw [mulf_apply, gatV_apply D _ e (s e) ws, gatV_apply D _ e (d e) wd, hD, hD, ← EReal.coe_mul]

include hs hd hD in
/-- The update at a position among the edges lands at (target, source) with the edge's weight. -/
theorem edge_term (i j : Fin 10112) (e : Fin 640000) (n : Fin 650000) (hn : n.val = e.val) :
    (if (colsV (wrapV bcast_S_S650000 10112#32 (catV dst iotaV)) (wrapV bcast_S_S650000 10112#32 (catV src iotaV))
            (ix2 n (0 : Fin 2))).toInt = (i.val : ℤ)
          ∧ (colsV (wrapV bcast_S_S650000 10112#32 (catV dst iotaV)) (wrapV bcast_S_S650000 10112#32 (catV src iotaV))
            (ix2 n (1 : Fin 2))).toInt = (j.val : ℤ)
        then catV (mulf (gatV D (wrapV bcast_S_S640000 10000#32 src)) (gatV D (wrapV bcast_S_S640000 10000#32 dst)))
          (mulf D D) (ix1 n) else 0)
      = if (d e).val = i.val ∧ (s e).val = j.val then ((δ (s e) * δ (d e) : ℝ) : EReal) else 0 := by
  have h0s : 0 ≤ (src (ix1 e)).toInt := by rw [hs]; exact Int.natCast_nonneg _
  have h0d : 0 ≤ (dst (ix1 e)).toInt := by rw [hd]; exact Int.natCast_nonneg _
  rw [colsV_zero, colsV_one, idxRow_edge dst e n hn h0d, idxRow_edge src e n hn h0s, catV_left _ _ e n hn,
    normV_apply src dst D s d δ hs hd hD e, hs, hd]
  exact if_congr (and_congr Nat.cast_inj Nat.cast_inj) rfl rfl

include hD in
/-- The update at a position past the edges lands on the diagonal with the node's self-loop weight. -/
theorem node_term (i j : Fin 10112) (v : Fin 10000) (n : Fin 650000) (hn : n.val = 640000 + v.val) :
    (if (colsV (wrapV bcast_S_S650000 10112#32 (catV dst iotaV)) (wrapV bcast_S_S650000 10112#32 (catV src iotaV))
            (ix2 n (0 : Fin 2))).toInt = (i.val : ℤ)
          ∧ (colsV (wrapV bcast_S_S650000 10112#32 (catV dst iotaV)) (wrapV bcast_S_S650000 10112#32 (catV src iotaV))
            (ix2 n (1 : Fin 2))).toInt = (j.val : ℤ)
        then catV (mulf (gatV D (wrapV bcast_S_S640000 10000#32 src)) (gatV D (wrapV bcast_S_S640000 10000#32 dst)))
          (mulf D D) (ix1 n) else 0)
      = if v.val = i.val ∧ v.val = j.val then ((δ v * δ v : ℝ) : EReal) else 0 := by
  rw [colsV_zero, colsV_one, idxRow_node dst v n hn, idxRow_node src v n hn, catV_right _ _ v n hn,
    mulf_apply, hD, ← EReal.coe_mul]
  exact if_congr (and_congr Nat.cast_inj Nat.cast_inj) rfl rfl

end Terms

/-- The dense matrix read at (i, j): the edges' weights that land there plus the self-loop weight on the diagonal. -/
theorem adjCore_apply (src dst : IVec S640000 32) (D : FVec Ideal S10000 .f32)
    (s d : Fin 640000 → Fin 10000) (δ : Fin 10000 → ℝ)
    (hs : ∀ e, (src (ix1 e)).toInt = ((s e).val : ℤ)) (hd : ∀ e, (dst (ix1 e)).toInt = ((d e).val : ℤ))
    (hD : ∀ v, D (ix1 v) = ((δ v : ℝ) : EReal)) (i j : Fin 10112) :
    adjCore src dst D (ix2 i j) =
      (∑ e : Fin 640000, if (d e).val = i.val ∧ (s e).val = j.val then ((δ (s e) * δ (d e) : ℝ) : EReal) else 0)
      + ∑ v : Fin 10000, if v.val = i.val ∧ v.val = j.val then ((δ v * δ v : ℝ) : EReal) else 0 := by
  unfold adjCore
  rw [truncf_apply, scatter_point, broadcastInDim_scalar_apply, constant_apply, Ideal.ofBits_zero_f32, zero_add, sum_split]
  exact congrArg₂ (· + ·)
    (Finset.sum_congr rfl fun e _ => edge_term src dst D s d δ hs hd hD i j e _ rfl)
    (Finset.sum_congr rfl fun v _ => node_term src dst D δ hD i j v _ rfl)

theorem adjF_eq (ei : Gcn.EdgeWords) (h : Gcn.InRange ei) :
    adjF (F := Ideal) ei = Gcn.arr2 (Gcn.adj (Gcn.node ei 0) (Gcn.node ei 1)) := by
  funext idx
  obtain ⟨i, j, rfl⟩ : ∃ (i : Fin 10112) (j : Fin 10112), idx = ix2 i j := ⟨idx 0, idx 1, eq_ix2 idx⟩
  rw [adjF_core, Gcn.arr2_apply,
    adjCore_apply (srcV ei) (dstV ei) _ (Gcn.node ei 0) (Gcn.node ei 1) (Gcn.dis (Gcn.node ei 1))
      (fun e => by rw [srcV_apply]; exact Gcn.node_val h 0 e) (fun e => by rw [dstV_apply]; exact Gcn.node_val h 1 e)
      (fun v => by rw [disF_eq ei h]) i j]
  unfold Gcn.adj Gcn.nrm
  rw [EReal.coe_add, Gcn.coe_sum, Gcn.coe_sum]
  refine congrArg₂ (· + ·) (Finset.sum_congr rfl fun e _ => ?_) (Finset.sum_congr rfl fun v _ => ?_)
  · rw [apply_ite (fun x : ℝ => (x : EReal)), EReal.coe_zero]
  · rw [apply_ite (fun x : ℝ => (x : EReal)), EReal.coe_zero]

end Gcn.K

end
-- ==== Proof.KPad.lean ====
/-
  The kernel program pads the features with zero rows before its launches and keeps the first 10000 rows after them.
-/
import proofs.«421670_j70325794504771_2_alg».proof.Proof.KDefs
import proofs.«421670_j70325794504771_2_alg».proof.Proof.Spec
import Idealize.ShloMosaic.Lib.KernelVsHost

noncomputable section

namespace Gcn.K

open Idealize.ShloMosaic Idealize.ShloMosaic.ValueIdx

theorem padF_eq (X : Fin 10000 → Fin 128 → ℝ) : padF (F := Ideal) (Gcn.arr2 X) = Gcn.arr2 (Gcn.padRows X) := by
  funext idx
  obtain ⟨r, q, rfl⟩ : ∃ (r : Fin 10112) (q : Fin 128), idx = ix2 r q := ⟨idx 0, idx 1, eq_ix2 idx⟩
  unfold padF
  dsimp only
  rw [Gcn.arr2_apply]
  unfold Gcn.padRows
  by_cases hr : r.val < 10000
  · rw [dif_pos hr]
    refine (pad_apply_of_inside _ _ _ _ _ _ _ (ix2 r q) (ix2 (⟨r.val, hr⟩ : Fin 10000) q) (fun a => ?_)).trans ?_
    · match a with
      | ⟨0, _⟩ => show r.val = 0 + r.val * (0 + 1); omega
      | ⟨1, _⟩ => show q.val = 0 + q.val * (0 + 1); omega
    · rfl
  · rw [dif_neg hr]
    refine (pad_apply_of_not_inside _ _ _ _ _ _ _ (ix2 r q) (0 : Fin 2) (fun hc => hr ?_)).trans ?_
    · have h3 : (r.val - 0) / (0 + 1) < 10000 := hc.2.2
      omega
    · show ((((0#32 : BitVec 32).toInt : ℤ) : ℝ) : EReal) = ((0 : ℝ) : EReal)
      simp

theorem topF_eq (Y : (⟨2, ![10112, 128]⟩ : Shape).Idx → EReal) : topF (F := Ideal) Y = Gcn.topRows Y := by
  funext idx
  obtain ⟨r, q, rfl⟩ : ∃ (r : Fin 10000) (q : Fin 128), idx = ix2 r q := ⟨idx 0, idx 1, eq_ix2 idx⟩
  unfold topF
  dsimp only
  refine (extractStridedSlice_apply _ _ _ (ix2 r q) (ix2 (⟨r.val, by have := r.isLt; omega⟩ : Fin 10112) q) (fun a => ?_)).trans ?_
  · match a with
    | ⟨0, _⟩ => show r.val = 0 + r.val; omega
    | ⟨1, _⟩ => show q.val = 0 + q.val; omega
  · rfl

end Gcn.K

end
-- ==== Proof.RefChunks.lean ====
/-
  The reference's run, read back: its 213 host operations are a prologue (the edge list's rows and deg^(-1/2)), the same
  layer four times, and an epilogue (pooling, classifier, log-softmax); so its two results are the pooling and the
  log-softmax of the four-fold layer of the features.

  The operation list is cut into six consecutive pieces of 14, 44, 44, 44, 44 and 23 operations. For each piece, from ANY
  contents of the buffers, the buffers it produces are the stage functions of the buffers it reads, and the buffers the later
  pieces still read are left as they were. The fold over the whole list is the six folds in a row, and the stage functions
  compose to the statement.
-/
import proofs.«421670_j70325794504771_2_alg».proof.Proof.RefRun
import proofs.«421670_j70325794504771_2_alg».proof.Proof.RefDefs

noncomputable section

namespace Cert.ReferenceIdeal.RunAfter

open Cert.ReferenceIdeal Cert.ReferenceIdeal.Gen Idealize.ShloMosaic Idealize.ShloMosaic.TcCoe Idealize.SL.Sem Idealize.ShloMosaic.StableHlo

variable {F : FTy → Type} [FloatOps F]

/-- The features after the four layers. -/
def feat (ei : (⟨S2x640000, .i32⟩ : BufTy).Contents (Elt F)) (x : (⟨S10000x128, .f32⟩ : BufTy).Contents (Elt F))
    (W1 W2 W3 W4 : (⟨S128x128, .f32⟩ : BufTy).Contents (Elt F)) : (⟨S10000x128, .f32⟩ : BufTy).Contents (Elt F) :=
  Gcn.Ref.layerF (Gcn.Ref.srcF ei) (Gcn.Ref.dstF ei) (Gcn.Ref.disF ei)
    (Gcn.Ref.layerF (Gcn.Ref.srcF ei) (Gcn.Ref.dstF ei) (Gcn.Ref.disF ei)
      (Gcn.Ref.layerF (Gcn.Ref.srcF ei) (Gcn.Ref.dstF ei) (Gcn.Ref.disF ei)
        (Gcn.Ref.layerF (Gcn.Ref.srcF ei) (Gcn.Ref.dstF ei) (Gcn.Ref.disF ei) x W1) W2) W3) W4

/-- The fold over two lines in a row is the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The six pieces of the operation list: 14 + 44 + 44 + 44 + 44 + 23 -/

/-- The prologue: operations 1 to 14. -/
abbrev c0 : List (HloOp τ sig (Elt F)) := (ops (F := F)).take 14
/-- What follows the prologue. -/
abbrev r0 : List (HloOp τ sig (Elt F)) := (ops (F := F)).drop 14
/-- The first layer: operations 15 to 58. -/
abbrev c1 : List (HloOp τ sig (Elt F)) := (r0 (F := F)).take 44
/-- What follows the first layer. -/
abbrev r1 : List (HloOp τ sig (Elt F)) := (r0 (F := F)).drop 44
/-- The second layer: operations 59 to 102. -/
abbrev c2 : List (HloOp τ sig (Elt F)) := (r1 (F := F)).take 44
/-- What follows the second layer. -/
abbrev r2 : List (HloOp τ sig (Elt F)) := (r1 (F := F)).drop 44
/-- The third layer: operations 103 to 146. -/
abbrev c3 : List (HloOp τ sig (Elt F)) := (r2 (F := F)).take 44
/-- What follows the third layer. -/
abbrev r3 : List (HloOp τ sig (Elt F)) := (r2 (F := F)).drop 44
/-- The fourth layer: operations 147 to 190. -/
abbrev c4 : List (HloOp τ sig (Elt F)) := (r3 (F := F)).take 44
/-- The epilogue: operations 191 to 213. -/
abbrev c5 : List (HloOp τ sig (Elt F)) := (r3 (F := F)).drop 44

/-- The list is its six pieces in a row: a list is its first entries, however many, followed by the rest; five times. -/
theorem ops_eq : (ops : List (HloOp τ sig (Elt F))) = c0 ++ (c1 ++ (c2 ++ (c3 ++ (c4 ++ c5)))) :=
  (List.take_append_drop 14 ops).symm.trans (congrArg (c0 ++ ·)
    ((List.take_append_drop 44 r0).symm.trans (congrArg (c1 ++ ·)
      ((List.take_append_drop 44 r1).symm.trans (congrArg (c2 ++ ·)
        ((List.take_append_drop 44 r2).symm.trans (congrArg (c3 ++ ·)
          (List.take_append_drop 44 r3).symm)))))))

/-- The whole fold is the six pieces' folds, one after the other. -/
theorem after_ops (V : Valuation τ sig (Elt F)) :
    after ops V = after c5 (after c4 (after c3 (after c2 (after c1 (after c0 V))))) :=
  (congrArg (fun l => after l V) ops_eq).trans
    ((after_app c0 _ V).trans ((after_app c1 _ _).trans ((after_app c2 _ _).trans ((after_app c3 _ _).trans
      (after_app c4 c5 _)))))

/-- The nine arguments. -/
abbrev argsL : List (Ref sig .tc) :=
  [main_arg0, main_arg1, main_arg2, main_arg3, main_arg4, main_arg5, main_arg6, main_arg7, main_arg8]

/-- What the layers read and never write: the two rows of the edge list, deg^(-1/2), and the arguments. -/
abbrev keptL : List (Ref sig .tc) := main_v1 :: main_v3 :: main_v10 :: argsL

theorem kept_of_args {r : Ref sig .tc} (h : r ∈ argsL) : r ∈ keptL :=
  List.mem_cons_of_mem _ (List.mem_cons_of_mem _ (List.mem_cons_of_mem _ h))

/-! ## Each piece, from any contents -/

set_option maxRecDepth 8192 in
set_option maxHeartbeats 4000000 in
/-- The prologue produces the two rows of the edge list and deg^(-1/2), and leaves the arguments as they were. -/
theorem c0_facts (V : Valuation τ sig (Elt F)) :
    after c0 V (Proc.devRef .tc main_v1) = Gcn.Ref.srcF (V (Proc.devRef .tc main_arg1))
      ∧ after c0 V (Proc.devRef .tc main_v3) = Gcn.Ref.dstF (V (Proc.devRef .tc main_arg1))
      ∧ after c0 V (Proc.devRef .tc main_v10) = Gcn.Ref.disF (V (Proc.devRef .tc main_arg1))
      ∧ ∀ r ∈ argsL, after c0 V (Proc.devRef .tc r) = V (Proc.devRef .tc r) := by
  simp only [c0, ops, List.drop_succ_cons, List.drop_zero, List.take_succ_cons, List.take_zero]
  refine ⟨by after_results_simp; rfl, by after_results_simp; rfl, by after_results_simp; rfl, ?_⟩
  intro r hr
  simp only [argsL, List.mem_cons, List.not_mem_nil, or_false] at hr
  rcases hr with rfl | rfl | rfl | rfl | rfl | rfl | rfl | rfl | rfl <;> after_results_simp

set_option maxRecDepth 8192 in
set_option maxHeartbeats 4000000 in
/-- The first layer's result is the layer function of the rows, deg^(-1/2), the input features and the first weights;
    the rows, deg^(-1/2) and the arguments are left as they were. -/
theorem c1_facts (V : Valuation τ sig (Elt F)) :
    after c1 V (Proc.devRef .tc main_v45)
        = Gcn.Ref.layerF (V (Proc.devRef .tc main_v1)) (V (Proc.devRef .tc main_v3)) (V (Proc.devRef .tc main_v10))
            (V (Proc.devRef .tc main_arg0)) (V (Proc.devRef .tc main_arg3))
      ∧ ∀ r ∈ keptL, after c1 V (Proc.devRef .tc r) = V (Proc.devRef .tc r) := by
  simp only [c1, r0, ops, List.drop_succ_cons, List.drop_zero, List.take_succ_cons, List.take_zero]
  refine ⟨by after_results_simp; simp only [TRef.toBuf, TRef.ofBuf, cast_eq]; rfl, ?_⟩
  intro r hr
  simp only [keptL, argsL, List.mem_cons, List.not_mem_nil, or_false] at hr
  rcases hr with rfl | rfl | rfl | rfl | rfl | rfl | rfl | rfl | rfl | rfl | rfl | rfl <;> after_results_simp

set_option maxRecDepth 8192 in
set_option maxHeartbeats 4000000 in
/-- The second layer's result is the layer function of the rows, deg^(-1/2), the first layer's result and the second
    weights; the rows, deg^(-1/2) and the arguments are left as they were. -/
theorem c2_facts (V : Valuation τ sig (Elt F)) :
    after c2 V (Proc.devRef .tc main_v80)
        = Gcn.Ref.layerF (V (Proc.devRef .tc main_v1)) (V (Proc.devRef .tc main_v3)) (V (Proc.devRef .tc main_v10))
            (V (Proc.devRef .tc main_v45)) (V (Proc.devRef .tc main_arg4))
      ∧ ∀ r ∈ keptL, after c2 V (Proc.devRef .tc r) = V (Proc.devRef .tc r) := by
  simp only [c2, r1, r0, ops, List.drop_succ_cons, List.drop_zero, List.take_succ_cons, List.take_zero]
  refine ⟨by after_results_simp; simp only [TRef.toBuf, TRef.ofBuf, cast_eq]; rfl, ?_⟩
  intro r hr
  simp only [keptL, argsL, List.mem_cons, List.not_mem_nil, or_false] at hr
  rcases hr with rfl | rfl | rfl | rfl | rfl | rfl | rfl | rfl | rfl | rfl | rfl | rfl <;> after_results_simp

set_option maxRecDepth 8192 in
set_option maxHeartbeats 4000000 in
/-- The third layer's result is the layer function of the rows, deg^(-1/2), the second layer's result and the third
    weights; the rows, deg^(-1/2) and the arguments are left as they were. -/
theorem c3_facts (V : Valuation τ sig (Elt F)) :
    after c3 V (Proc.devRef .tc main_v115)
        = Gcn.Ref.layerF (V (Proc.devRef .tc main_v1)) (V (Proc.devRef .tc main_v3)) (V (Proc.devRef .tc main_v10))
            (V (Proc.devRef .tc main_v80)) (V (Proc.devRef .tc main_arg5))
      ∧ ∀ r ∈ keptL, after c3 V (Proc.devRef .tc r) = V (Proc.devRef .tc r) := by
  simp only [c3, r2, r1, r0, ops, List.drop_succ_cons, List.drop_zero, List.take_succ_cons, List.take_zero]
  refine ⟨by after_results_simp; simp only [TRef.toBuf, TRef.ofBuf, cast_eq]; rfl, ?_⟩
  intro r hr
  simp only [keptL, argsL, List.mem_cons, List.not_mem_nil, or_false] at hr
  rcases hr with rfl | rfl | rfl | rfl | rfl | rfl | rfl | rfl | rfl | rfl | rfl | rfl <;> after_results_simp

set_option maxRecDepth 8192 in
set_option maxHeartbeats 4000000 in
/-- The fourth layer's result is the layer function of the rows, deg^(-1/2), the third layer's result and the fourth
    weights; the rows, deg^(-1/2) and the arguments are left as they were. -/
theorem c4_facts (V : Valuation τ sig (Elt F)) :
    after c4 V (Proc.devRef .tc main_v150)
        = Gcn.Ref.layerF (V (Proc.devRef .tc main_v1)) (V (Proc.devRef .tc main_v3)) (V (Proc.devRef .tc main_v10))
            (V (Proc.devRef .tc main_v115)) (V (Proc.devRef .tc main_arg6))
      ∧ ∀ r ∈ keptL, after c4 V (Proc.devRef .tc r) = V (Proc.devRef .tc r) := by
  simp only [c4, r3, r2, r1, r0, ops, List.drop_succ_cons, List.drop_zero, List.take_succ_cons, List.take_zero]
  refine ⟨by after_results_simp; simp only [TRef.toBuf, TRef.ofBuf, cast_eq]; rfl, ?_⟩
  intro r hr
  simp only [keptL, argsL, List.mem_cons, List.not_mem_nil, or_false] at hr
  rcases hr with rfl | rfl | rfl | rfl | rfl | rfl | rfl | rfl | rfl | rfl | rfl | rfl <;> after_results_simp

set_option maxRecDepth 8192 in
set_option maxHeartbeats 4000000 in
/-- The epilogue produces the classifier's log-softmax and the pooling of the fourth layer's result, and leaves the
    arguments as they were. -/
theorem c5_facts (V : Valuation τ sig (Elt F)) :
    after c5 V (Proc.devRef .tc main_v158)
        = Gcn.Ref.logitsF (V (Proc.devRef .tc main_v150)) (V (Proc.devRef .tc main_arg7)) (V (Proc.devRef .tc main_arg8))
      ∧ after c5 V (Proc.devRef .tc main_v153)
        = Gcn.Ref.poolF (V (Proc.devRef .tc main_v150)) (V (Proc.devRef .tc main_arg2))
      ∧ ∀ r ∈ argsL, after c5 V (Proc.devRef .tc r) = V (Proc.devRef .tc r) := by
  simp only [c5, r3, r2, r1, r0, ops, List.drop_succ_cons, List.drop_zero, List.take_succ_cons, List.take_zero]
  refine ⟨by after_results_simp; simp only [TRef.toBuf, TRef.ofBuf, cast_eq]; rfl, by after_results_simp; rfl, ?_⟩
  intro r hr
  simp only [argsL, List.mem_cons, List.not_mem_nil, or_false] at hr
  rcases hr with rfl | rfl | rfl | rfl | rfl | rfl | rfl | rfl | rfl <;> after_results_simp

/-! ## The chain -/

/-- From any contents, after all 213 operations: the two results are the log-softmax and the pooling of the four-fold
    layer of the features, and the arguments are as they were. -/
theorem after_ops_results (V : Valuation τ sig (Elt F)) :
    after ops V (Proc.devRef .tc main_v158)
        = Gcn.Ref.logitsF (feat (V (Proc.devRef .tc main_arg1)) (V (Proc.devRef .tc main_arg0)) (V (Proc.devRef .tc main_arg3))
            (V (Proc.devRef .tc main_arg4)) (V (Proc.devRef .tc main_arg5)) (V (Proc.devRef .tc main_arg6)))
            (V (Proc.devRef .tc main_arg7)) (V (Proc.devRef .tc main_arg8))
      ∧ after ops V (Proc.devRef .tc main_v153)
        = Gcn.Ref.poolF (feat (V (Proc.devRef .tc main_arg1)) (V (Proc.devRef .tc main_arg0)) (V (Proc.devRef .tc main_arg3))
            (V (Proc.devRef .tc main_arg4)) (V (Proc.devRef .tc main_arg5)) (V (Proc.devRef .tc main_arg6)))
            (V (Proc.devRef .tc main_arg2))
      ∧ ∀ r ∈ argsL, after ops V (Proc.devRef .tc r) = V (Proc.devRef .tc r) := by
  rw [after_ops]
  obtain ⟨s1, d1, w1, a1⟩ := c0_facts V
  obtain ⟨y2, k2⟩ := c1_facts (after c0 V)
  obtain ⟨y3, k3⟩ := c2_facts (after c1 (after c0 V))
  obtain ⟨y4, k4⟩ := c3_facts (after c2 (after c1 (after c0 V)))
  obtain ⟨y5, k5⟩ := c4_facts (after c3 (after c2 (after c1 (after c0 V))))
  obtain ⟨z1, z2, a6⟩ := c5_facts (after c4 (after c3 (after c2 (after c1 (after c0 V)))))
  -- the contents after each piece, as unknowns
  generalize after c0 V = V1 at *
  generalize after c1 V1 = V2 at *
  generalize after c2 V2 = V3 at *
  generalize after c3 V3 = V4 at *
  generalize after c4 V4 = V5 at *
  generalize after c5 V5 = V6 at *
  -- the arguments, all the way
  have A2 : ∀ r ∈ argsL, V2 (Proc.devRef .tc r) = V (Proc.devRef .tc r) :=
    fun r hr => (k2 r (kept_of_args hr)).trans (a1 r hr)
  have A3 : ∀ r ∈ argsL, V3 (Proc.devRef .tc r) = V (Proc.devRef .tc r) :=
    fun r hr => (k3 r (kept_of_args hr)).trans (A2 r hr)
  have A4 : ∀ r ∈ argsL, V4 (Proc.devRef .tc r) = V (Proc.devRef .tc r) :=
    fun r hr => (k4 r (kept_of_args hr)).trans (A3 r hr)
  have A5 : ∀ r ∈ argsL, V5 (Proc.devRef .tc r) = V (Proc.devRef .tc r) :=
    fun r hr => (k5 r (kept_of_args hr)).trans (A4 r hr)
  have A6 : ∀ r ∈ argsL, V6 (Proc.devRef .tc r) = V (Proc.devRef .tc r) :=
    fun r hr => (a6 r hr).trans (A5 r hr)
  -- the rows and deg^(-1/2), through the layers
  have m1 : main_v1 ∈ keptL := List.mem_cons_self
  have m3 : main_v3 ∈ keptL := List.mem_cons_of_mem _ List.mem_cons_self
  have m10 : main_v10 ∈ keptL := List.mem_cons_of_mem _ (List.mem_cons_of_mem _ List.mem_cons_self)
  have s2 := (k2 main_v1 m1).trans s1
  have d2 := (k2 main_v3 m3).trans d1
  have w2 := (k2 main_v10 m10).trans w1
  have s3 := (k3 main_v1 m1).trans s2
  have d3 := (k3 main_v3 m3).trans d2
  have w3 := (k3 main_v10 m10).trans w2
  have s4 := (k4 main_v1 m1).trans s3
  have d4 := (k4 main_v3 m3).trans d3
  have w4 := (k4 main_v10 m10).trans w3
  -- the features, layer by layer
  rw [s1, d1, w1, a1 main_arg0 (by decide), a1 main_arg3 (by decide)] at y2
  rw [s2, d2, w2, y2, A2 main_arg4 (by decide)] at y3
  rw [s3, d3, w3, y3, A3 main_arg5 (by decide)] at y4
  rw [s4, d4, w4, y4, A4 main_arg6 (by decide)] at y5
  rw [y5, A5 main_arg7 (by decide), A5 main_arg8 (by decide)] at z1
  rw [y5, A5 main_arg2 (by decide)] at z2
  exact ⟨z1, z2, A6⟩

/-- Every weakly fair execution of the reference terminates with its two results at the log-softmax and the pooling of
    the four-fold layer, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v158)
          = Gcn.Ref.logitsF (feat (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))
      ∧ r.2.mem ((c.tc : Thread nD τ).loc main_v153)
          = Gcn.Ref.poolF (feat (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      obtain ⟨h1, h2, h3⟩ := after_ops_results (F := F) (launchContents m c)
      exact ⟨(h c main_v158).trans h1, (h c main_v153).trans h2,
        (h c main_arg0).trans (h3 main_arg0 (by decide)), (h c main_arg1).trans (h3 main_arg1 (by decide)),
        (h c main_arg2).trans (h3 main_arg2 (by decide)), (h c main_arg3).trans (h3 main_arg3 (by decide)),
        (h c main_arg4).trans (h3 main_arg4 (by decide)), (h c main_arg5).trans (h3 main_arg5 (by decide)),
        (h c main_arg6).trans (h3 main_arg6 (by decide)), (h c main_arg7).trans (h3 main_arg7 (by decide)),
        (h c main_arg8).trans (h3 main_arg8 (by decide))⟩)
    (run_after m ρ)

end Cert.ReferenceIdeal.RunAfter

end
-- ==== Proof.KHostRead.lean ====
/-
  The host stretches of the kernel program, read back: what the buffers hold after each stretch, as the composed functions
  of the inputs.
-/
import proofs.«421670_j70325794504771_2_alg».proof.Proof.Gen.KernelIdeal.Frame
import proofs.«421670_j70325794504771_2_alg».proof.Proof.KDefs

set_option maxRecDepth 16384

noncomputable section

namespace Cert.KernelIdeal.HostRead

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of a literal list writes a given buffer: each operation writes its one result, a different reference. -/
macro "not_written " ops:ident : tactic =>
  `(tactic| (refine List.forall_iff_forall_mem.mp ?_
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- A buffer neither of the first two stretches writes holds at region 0's entry what it held at launch. -/
theorem W2_keep (c : Dev nD) (r : Ref sig .tc)
    (h1 : ∀ op ∈ (hostOps0_1 : List (HloOp τ sig (Elt F))), Proc.devRef .tc r ∉ op.writes)
    (h0 : ∀ op ∈ (hostOps0 : List (HloOp τ sig (Elt F))), Proc.devRef .tc r ∉ op.writes) :
    W2 m ρ c (Proc.devRef .tc r) = m ((c.tc : Thread nD τ).loc r) :=
  calc W2 m ρ c (Proc.devRef .tc r)
    _ = W1 m ρ c (Proc.devRef .tc r) := StableHlo.after_of_forall_not_mem (b := Proc.devRef .tc r) _ _ h1
    _ = W0 m ρ c (Proc.devRef .tc r) := StableHlo.after_of_forall_not_mem (b := Proc.devRef .tc r) _ _ h0
    _ = m ((c.tc : Thread nD τ).loc r) := rfl

/-- Contents moved to a buffer's own type and back are unchanged. -/
theorem ofBuf_toBuf {T : BufTy} (x : StableHlo.TRef sig T) (v : T.Contents (Elt F)) : x.ofBuf (x.toBuf v) = v := by
  obtain ⟨r, rfl, _, _⟩ := x
  rfl

set_option maxHeartbeats 4000000 in
/-- The adjacency buffer at region 0's entry is the dense normalized adjacency of the launched edge list. -/
theorem W2_adj (c : Dev nD) : W2 m ρ c (Proc.devRef .tc main_v46) = Gcn.K.adjF (m ((c.tc : Thread nD τ).loc main_arg1)) := by
  dsimp only [W2, W1]
  after_results_simp
  rfl

set_option maxHeartbeats 4000000 in
/-- The padded-features buffer at region 0's entry is the launched features padded. -/
theorem W2_pad (c : Dev nD) : W2 m ρ c (Proc.devRef .tc main_v47) = Gcn.K.padF (m ((c.tc : Thread nD τ).loc main_arg0)) := by
  dsimp only [W2, W1]
  after_results_simp
  simp only [ofBuf_toBuf]
  rfl

theorem W2_arg2 (c : Dev nD) : W2 m ρ c (Proc.devRef .tc main_arg2) = m ((c.tc : Thread nD τ).loc main_arg2) :=
  W2_keep m ρ c main_arg2 (by not_written hostOps0_1) (by not_written hostOps0)
theorem W2_arg3 (c : Dev nD) : W2 m ρ c (Proc.devRef .tc main_arg3) = m ((c.tc : Thread nD τ).loc main_arg3) :=
  W2_keep m ρ c main_arg3 (by not_written hostOps0_1) (by not_written hostOps0)
theorem W2_arg4 (c : Dev nD) : W2 m ρ c (Proc.devRef .tc main_arg4) = m ((c.tc : Thread nD τ).loc main_arg4) :=
  W2_keep m ρ c main_arg4 (by not_written hostOps0_1) (by not_written hostOps0)
theorem W2_arg5 (c : Dev nD) : W2 m ρ c (Proc.devRef .tc main_arg5) = m ((c.tc : Thread nD τ).loc main_arg5) :=
  W2_keep m ρ c main_arg5 (by not_written hostOps0_1) (by not_written hostOps0)
theorem W2_arg6 (c : Dev nD) : W2 m ρ c (Proc.devRef .tc main_arg6) = m ((c.tc : Thread nD τ).loc main_arg6) :=
  W2_keep m ρ c main_arg6 (by not_written hostOps0_1) (by not_written hostOps0)
theorem W2_arg7 (c : Dev nD) : W2 m ρ c (Proc.devRef .tc main_arg7) = m ((c.tc : Thread nD τ).loc main_arg7) :=
  W2_keep m ρ c main_arg7 (by not_written hostOps0_1) (by not_written hostOps0)
theorem W2_arg8 (c : Dev nD) : W2 m ρ c (Proc.devRef .tc main_arg8) = m ((c.tc : Thread nD τ).loc main_arg8) :=
  W2_keep m ρ c main_arg8 (by not_written hostOps0_1) (by not_written hostOps0)

set_option maxHeartbeats 4000000 in
/-- The first output: the classifier's log-softmax of the first 10000 rows of the last layer's buffer. -/
theorem W8_out0 (c : Dev nD) : W8 m ρ c (Proc.devRef .tc main_v60)
    = Gcn.K.logitsF (Gcn.K.topF (W6 m ρ c (Proc.devRef .tc main_v51))) (W6 m ρ c (Proc.devRef .tc main_arg7)) (W6 m ρ c (Proc.devRef .tc main_arg8)) := by
  dsimp only [W8, W7]
  after_results_simp
  simp only [ofBuf_toBuf]
  rfl

set_option maxHeartbeats 4000000 in
/-- The second output: the per-graph sums of the first 10000 rows of the last layer's buffer. -/
theorem W8_out1 (c : Dev nD) : W8 m ρ c (Proc.devRef .tc main_v55)
    = Gcn.K.poolF (Gcn.K.topF (W6 m ρ c (Proc.devRef .tc main_v51))) (W6 m ρ c (Proc.devRef .tc main_arg2)) := by
  dsimp only [W8, W7]
  after_results_simp
  rfl

end Cert.KernelIdeal.HostRead

end
-- ==== Proof.Region0.lean ====
/-
  One region of the kernel is one dense graph-convolution layer.

  The region walks 16 row blocks of 632 rows of the 10112 x 10112 matrix A. At block t it has the whole feature
  array X (10112 x 128) and the whole weight matrix W (128 x 128), and leaves in rows 632 t .. 632 t + 631 of its
  output the entries max(((A X) W)(r, q), 0). The 16 blocks tile the 10112 rows, so after the region the output array
  is max((A X) W, 0) everywhere.
-/
import proofs.«421670_j70325794504771_2_alg».proof.Proof.Gen.KernelIdeal.Frame
import proofs.«421670_j70325794504771_2_alg».proof.Proof.LibDenseLayer
import proofs.«421670_j70325794504771_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at one entry -/

/-- The product of a 632 x 10112 row block with the 10112 x 128 features, into the zero accumulator, at (p, k). -/
theorem blockTimesFeatures0_apply (a : FVec Ideal S632x10112 .bf16) (x : FVec Ideal S10112x128 .bf16) (p : Fin 632) (k : Fin 128) :
    FloatOps.matmul dot_S632x10112_S10112x128_S632x128_1_0_0_1_n_n none a x (constant S632x128 .f32 0x00000000#32) (ix2 p k)
      = ∑ j : Fin 10112, a (ix2 p j) * x (ix2 j k) :=
  DenseLayer.matmul_rows_apply (m := 632) (k := 10112) (n := 128) dot_S632x10112_S10112x128_S632x128_1_0_0_1_n_n_wf none a x p k

/-- The product of a 632 x 128 block with the 128 x 128 weights, into the zero accumulator, at (p, q). -/
theorem blockTimesWeights0_apply (y : FVec Ideal S632x128 .f32) (w : FVec Ideal S128x128 .f32) (p : Fin 632) (q : Fin 128) :
    FloatOps.matmul dot_S632x128_S128x128_S632x128_1_0_0_1_n_n (some .fp32) y w (constant S632x128 .f32 0x00000000#32) (ix2 p q)
      = ∑ k : Fin 128, y (ix2 p k) * w (ix2 k q) :=
  DenseLayer.matmul_rows_apply (m := 632) (k := 128) (n := 128) dot_S632x128_S128x128_S632x128_1_0_0_1_n_n_wf (some .fp32) y w p q

/-- What the body stores at (p, q) of its block: max(((a x) w)(p, q), 0). -/
theorem pay0_apply (x : Vec Ideal S10112x128 .f32) (a : Vec Ideal S632x10112 .bf16) (w : Vec Ideal S128x128 .f32)
    (p : Fin 632) (q : Fin 128) :
    k0_pay1 x a w (ix2 p q)
      = max (∑ k : Fin 128, (∑ j : Fin 10112, a (ix2 p j) * x (ix2 j k)) * w (ix2 k q)) 0 := by
  unfold k0_pay1
  simp only [shapeCast_self]
  rw [maximumf_apply, broadcast_apply]
  refine congrArg₂ max ?_ Ideal.ofBits_zero_f32
  refine (blockTimesWeights0_apply _ w p q).trans ?_
  refine Finset.sum_congr rfl fun k _ => ?_
  exact congrArg (· * w (ix2 k q)) (blockTimesFeatures0_apply a (truncf .bf16 x bitsLt_bf16_f32) p k)

/-! ## Where each window's block sits at a grid point -/

theorem hz0 : (![0, 0] : Fin 2 → Nat) = fun _ => 0 := funext fun a => by fin_cases a <;> rfl

/-- The block indices at point t: the matrix and the output are at row block t, column block 0; the features and the
    weights are whole. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every row block is some point's. -/
theorem idx_onto0 : ∀ b : Fin 16, ∃ t : Fin cfg0.N, win0_3.index t = ![b.val, 0] :=
  (by decide +kernel : ∀ b : Fin 16, ∃ t : Fin grid0.N, win0_3.index t = ![b.val, 0])

/-- An index of the output array is in point t's block iff each coordinate is in the block's range on its axis. -/
theorem mem_blk0 (t : Fin cfg0.N) (i : S10112x128.Idx) :
    i ∈ ((cfg0.win 3).blk t).view.set ↔ ∀ a : Fin 2, win0_3.index t a * S632x128.size a ≤ (i a).val ∧ (i a).val < win0_3.index t a * S632x128.size a + S632x128.size a := by
  show i ∈ ((View.whole main_v48).slice (win0_3.rect t)).set ↔ _
  rw [View.set_slice_whole, Rect.mem_set_unit]
  exact Iff.rfl

/-- Every row of the output is in some point's block: 16 blocks of 632 rows are the 10112 rows. -/
theorem cover0 (i : S10112x128.Idx) :
    ∃ t : Fin cfg0.N, (cfg0.win 3).flush t = true ∧ i ∈ ((cfg0.win 3).blk t).view.set := by
  have hi0 : (i 0).val < 10112 := (i 0).isLt
  have hi1 : (i 1).val < 128 := (i 1).isLt
  obtain ⟨t, ht⟩ := idx_onto0 ⟨(i 0).val / 632, by omega⟩
  have q0 : win0_3.index t (0 : Fin 2) = (i 0).val / 632 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 632 ≤ (i 0).val ∧ (i 0).val < win0_3.index t (0 : Fin 2) * 632 + 632; omega
  | ⟨1, _⟩ => show win0_3.index t (1 : Fin 2) * 128 ≤ (i 1).val ∧ (i 1).val < win0_3.index t (1 : Fin 2) * 128 + 128; omega

/-! ## What a point writes back -/

/-- Entry (p, q) of the output's block at point t is entry (r, q) of the output array, r = 632 t + p. -/
theorem emb_out0 (t : Fin cfg0.N) (p : Fin 632) (q : Fin 128) (r : Fin 10112)
    (hr : r.val = win0_3.index t (0 : Fin 2) * 632 + p.val) :
    ((cfg0.win 3).blk t).view.emb (ix2 p q) = ix2 r q := by
  obtain ⟨f0, f1, f2, f3, f4, f5, f6, f7⟩ := idx_facts0 t
  funext a; apply Fin.ext
  match a with
  | ⟨0, _⟩ => show win0_3.index t (0 : Fin 2) * 632 + 1 * p.val = r.val; omega
  | ⟨1, _⟩ => show win0_3.index t (1 : Fin 2) * 128 + 1 * q.val = q.val; omega

/-- Entry (p, l) of the matrix's block at point t is entry (r, l) of the matrix, r = 632 t + p. -/
theorem read_matrix0 (c : Dev nD) (t : Fin cfg0.N) (p : Fin 632) (l : Fin 10112) (r : Fin 10112)
    (hr : r.val = win0_3.index t (0 : Fin 2) * 632 + p.val) :
    iblk0 V c 0 t (ix2 p l) = V c (Pipeline.arrRef spec0 0) (ix2 r l) := by
  obtain ⟨f0, f1, f2, f3, f4, f5, f6, f7⟩ := idx_facts0 t
  show V c (Pipeline.arrRef spec0 0) (((cfg0.win 0).blk t).view.emb (ix2 p l)) = _
  refine congrArg (V c (Pipeline.arrRef spec0 0)) ?_
  funext a; apply Fin.ext
  match a with
  | ⟨0, _⟩ => show win0_0.index t (0 : Fin 2) * 632 + 1 * p.val = r.val; omega
  | ⟨1, _⟩ => show win0_0.index t (1 : Fin 2) * 10112 + 1 * l.val = l.val; omega

/-- The features' block is the whole array. -/
theorem read_features0 (c : Dev nD) (t : Fin cfg0.N) (l : Fin 10112) (k : Fin 128) :
    iblk0 V c 1 t (ix2 l k) = V c (Pipeline.arrRef spec0 1) (ix2 l k) := by
  obtain ⟨f0, f1, f2, f3, f4, f5, f6, f7⟩ := idx_facts0 t
  show V c (Pipeline.arrRef spec0 1) (((cfg0.win 1).blk t).view.emb (ix2 l k)) = _
  refine congrArg (V c (Pipeline.arrRef spec0 1)) ?_
  funext a; apply Fin.ext
  match a with
  | ⟨0, _⟩ => show win0_1.index t (0 : Fin 2) * 10112 + 1 * l.val = l.val; omega
  | ⟨1, _⟩ => show win0_1.index t (1 : Fin 2) * 128 + 1 * k.val = k.val; omega

/-- The weights' block is the whole array. -/
theorem read_weights0 (c : Dev nD) (t : Fin cfg0.N) (k : Fin 128) (q : Fin 128) :
    iblk0 V c 2 t (ix2 k q) = V c (Pipeline.arrRef spec0 2) (ix2 k q) := by
  obtain ⟨f0, f1, f2, f3, f4, f5, f6, f7⟩ := idx_facts0 t
  show V c (Pipeline.arrRef spec0 2) (((cfg0.win 2).blk t).view.emb (ix2 k q)) = _
  refine congrArg (V c (Pipeline.arrRef spec0 2)) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- Entry (p, q) of what the body leaves at point t is the dense layer at that entry's place in the array. -/
theorem block_at0 (c : Dev nD) (t : Fin cfg0.N) (p : Fin 632) (q : Fin 128) :
    k0_pay1 (iblk0 V c 1 t) (iblk0 V c 0 t) (iblk0 V c 2 t) (ix2 p q)
      = Gcn.denseLayer (V c (Pipeline.arrRef spec0 0)) (V c (Pipeline.arrRef spec0 1)) (V c (Pipeline.arrRef spec0 2))
          (((cfg0.win 3).blk t).view.emb (ix2 p q)) := by
  obtain ⟨f0, f1, f2, f3, f4, f5, f6, f7⟩ := idx_facts0 t
  have hp : p.val < 632 := p.isLt
  obtain ⟨r, hr⟩ : ∃ r : Fin 10112, r.val = win0_3.index t (0 : Fin 2) * 632 + p.val := ⟨⟨_, by omega⟩, rfl⟩
  rw [emb_out0 t p q r hr, Gcn.denseLayer_apply]
  refine (pay0_apply _ _ _ p q).trans ?_
  refine congrArg (max · 0) ?_
  refine Finset.sum_congr rfl fun k _ => ?_
  rw [read_weights0 V c t k q]
  refine congrArg (· * _) ?_
  refine Finset.sum_congr rfl fun l _ => ?_
  rw [read_matrix0 V c t p l r hr, read_features0 V c t l k]

/-- Point t writes back block t of the dense layer of the three arrays as the region finds them. -/
theorem flushed0_eq (c : Dev nD) (t : Fin cfg0.N) :
    (dat0 (F := Ideal) V c).flushed 3 t = ((cfg0.win 3).blk t).view.read (Elt Ideal)
      (Gcn.denseLayer (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S10112x128) hz0, View.ld_unit_zero (S := S632x10112) hz0, View.ld_unit_zero (S := S128x128) hz0]
  funext j
  show k0_pay1 (iblk0 V c 1 t) (iblk0 V c 0 t) (iblk0 V c 2 t) j
      = Gcn.denseLayer (V c (Pipeline.arrRef spec0 0)) (V c (Pipeline.arrRef spec0 1)) (V c (Pipeline.arrRef spec0 2))
          (((cfg0.win 3).blk t).view.emb j)
  obtain ⟨p, q, rfl⟩ : ∃ (p : Fin 632) (q : Fin 128), j = ix2 p q := ⟨j 0, j 1, eq_ix2 j⟩
  exact block_at0 V c t p q

/-- After the region its output array is the dense layer of its three input arrays as the region finds them. -/
theorem region0 (c : Dev nD) :
    (dat0 (F := Ideal) V c).arrAt 3 cfg0.N
      = Gcn.denseLayer (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.RegionValue

end
-- ==== Proof.KChain.lean ====
/-
  The kernel program's run, read back at the exact-real instance: before its four launches it builds the dense adjacency
  and pads the features; each launch is one dense layer of the previous launch's output; after them it keeps the first
  10000 rows, pools and classifies. So its two results are the log-softmax and the pooling of the first 10000 rows of
  the four-fold dense layer.
-/
import proofs.«421670_j70325794504771_2_alg».proof.Proof.KRun
import proofs.«421670_j70325794504771_2_alg».proof.Proof.KDefs
import proofs.«421670_j70325794504771_2_alg».proof.Proof.KHostRead
import proofs.«421670_j70325794504771_2_alg».proof.Proof.Spec
import proofs.«421670_j70325794504771_2_alg».proof.Proof.Region0
import proofs.«421670_j70325794504771_2_alg».proof.Proof.Region1
import proofs.«421670_j70325794504771_2_alg».proof.Proof.Region2
import proofs.«421670_j70325794504771_2_alg».proof.Proof.Region3

noncomputable section

namespace Cert.KernelIdeal.GenRun

open Cert.KernelIdeal Cert.KernelIdeal.Gen
open Idealize.ShloMosaic Idealize.ShloMosaic.TcCoe Idealize.SL.Sem

/-- The dense layer four times over. -/
def dense4 (A : (⟨2, ![10112, 10112]⟩ : Shape).Idx → EReal) (xp : (⟨2, ![10112, 128]⟩ : Shape).Idx → EReal)
    (W1 W2 W3 W4 : (⟨2, ![128, 128]⟩ : Shape).Idx → EReal) : (⟨2, ![10112, 128]⟩ : Shape).Idx → EReal :=
  Gcn.denseLayer A (Gcn.denseLayer A (Gcn.denseLayer A (Gcn.denseLayer A xp W1) W2) W3) W4

section Chain

variable (m : (ℓ : Loc nD τ sig) → Buf (Elt Ideal) ℓ) (ρ : Dev nD → PrngReg)

/-! ## One launch at a time

Each launch reads the adjacency (window 0), the current features (window 1) and its weights (window 2), and writes one
dense layer of the features into its output array (window 3); every other buffer is as the launch found it. -/

/-- The first launch leaves in its output array one dense layer of the features it was given. -/
theorem W3_v48 (c : Dev nD) :
    W3 m ρ c (Proc.devRef .tc main_v48)
      = Gcn.denseLayer (W2 m ρ c (Proc.devRef .tc main_v46)) (W2 m ρ c (Proc.devRef .tc main_v47)) (W2 m ρ c (Proc.devRef .tc main_arg3)) :=
  (W3_arr m ρ c 3).trans (RegionValue.region0 (V2 m ρ) c)

/-- The adjacency is an input of the first launch: it is not written. -/
theorem W3_v46 (c : Dev nD) : W3 m ρ c (Proc.devRef .tc main_v46) = W2 m ρ c (Proc.devRef .tc main_v46) :=
  (W3_arr m ρ c 0).trans (((dat0 (V2 m ρ) c).arrAt_in 0 rfl _).trans (A_eq0 (V2 m ρ) c 0))
theorem W3_arg4 (c : Dev nD) : W3 m ρ c (Proc.devRef .tc main_arg4) = W2 m ρ c (Proc.devRef .tc main_arg4) :=
  W3_of_ne m ρ c main_arg4 (by decide)
theorem W3_arg5 (c : Dev nD) : W3 m ρ c (Proc.devRef .tc main_arg5) = W2 m ρ c (Proc.devRef .tc main_arg5) :=
  W3_of_ne m ρ c main_arg5 (by decide)
theorem W3_arg6 (c : Dev nD) : W3 m ρ c (Proc.devRef .tc main_arg6) = W2 m ρ c (Proc.devRef .tc main_arg6) :=
  W3_of_ne m ρ c main_arg6 (by decide)
theorem W3_arg2 (c : Dev nD) : W3 m ρ c (Proc.devRef .tc main_arg2) = W2 m ρ c (Proc.devRef .tc main_arg2) :=
  W3_of_ne m ρ c main_arg2 (by decide)
theorem W3_arg7 (c : Dev nD) : W3 m ρ c (Proc.devRef .tc main_arg7) = W2 m ρ c (Proc.devRef .tc main_arg7) :=
  W3_of_ne m ρ c main_arg7 (by decide)
theorem W3_arg8 (c : Dev nD) : W3 m ρ c (Proc.devRef .tc main_arg8) = W2 m ρ c (Proc.devRef .tc main_arg8) :=
  W3_of_ne m ρ c main_arg8 (by decide)

/-- The second launch leaves in its output array one dense layer of the features it was given. -/
theorem W4_v49 (c : Dev nD) :
    W4 m ρ c (Proc.devRef .tc main_v49)
      = Gcn.denseLayer (W3 m ρ c (Proc.devRef .tc main_v46)) (W3 m ρ c (Proc.devRef .tc main_v48)) (W3 m ρ c (Proc.devRef .tc main_arg4)) :=
  (W4_arr m ρ c 3).trans (RegionValue.region1 (V3 m ρ) c)

/-- The adjacency is an input of the second launch: it is not written. -/
theorem W4_v46 (c : Dev nD) : W4 m ρ c (Proc.devRef .tc main_v46) = W3 m ρ c (Proc.devRef .tc main_v46) :=
  (W4_arr m ρ c 0).trans (((dat1 (V3 m ρ) c).arrAt_in 0 rfl _).trans (A_eq1 (V3 m ρ) c 0))
theorem W4_arg5 (c : Dev nD) : W4 m ρ c (Proc.devRef .tc main_arg5) = W3 m ρ c (Proc.devRef .tc main_arg5) :=
  W4_of_ne m ρ c main_arg5 (by decide)
theorem W4_arg6 (c : Dev nD) : W4 m ρ c (Proc.devRef .tc main_arg6) = W3 m ρ c (Proc.devRef .tc main_arg6) :=
  W4_of_ne m ρ c main_arg6 (by decide)
theorem W4_arg2 (c : Dev nD) : W4 m ρ c (Proc.devRef .tc main_arg2) = W3 m ρ c (Proc.devRef .tc main_arg2) :=
  W4_of_ne m ρ c main_arg2 (by decide)
theorem W4_arg7 (c : Dev nD) : W4 m ρ c (Proc.devRef .tc main_arg7) = W3 m ρ c (Proc.devRef .tc main_arg7) :=
  W4_of_ne m ρ c main_arg7 (by decide)
theorem W4_arg8 (c : Dev nD) : W4 m ρ c (Proc.devRef .tc main_arg8) = W3 m ρ c (Proc.devRef .tc main_arg8) :=
  W4_of_ne m ρ c main_arg8 (by decide)

/-- The third launch leaves in its output array one dense layer of the features it was given. -/
theorem W5_v50 (c : Dev nD) :
    W5 m ρ c (Proc.devRef .tc main_v50)
      = Gcn.denseLayer (W4 m ρ c (Proc.devRef .tc main_v46)) (W4 m ρ c (Proc.devRef .tc main_v49)) (W4 m ρ c (Proc.devRef .tc main_arg5)) :=
  (W5_arr m ρ c 3).trans (RegionValue.region2 (V4 m ρ) c)

/-- The adjacency is an input of the third launch: it is not written. -/
theorem W5_v46 (c : Dev nD) : W5 m ρ c (Proc.devRef .tc main_v46) = W4 m ρ c (Proc.devRef .tc main_v46) :=
  (W5_arr m ρ c 0).trans (((dat2 (V4 m ρ) c).arrAt_in 0 rfl _).trans (A_eq2 (V4 m ρ) c 0))
theorem W5_arg6 (c : Dev nD) : W5 m ρ c (Proc.devRef .tc main_arg6) = W4 m ρ c (Proc.devRef .tc main_arg6) :=
  W5_of_ne m ρ c main_arg6 (by decide)
theorem W5_arg2 (c : Dev nD) : W5 m ρ c (Proc.devRef .tc main_arg2) = W4 m ρ c (Proc.devRef .tc main_arg2) :=
  W5_of_ne m ρ c main_arg2 (by decide)
theorem W5_arg7 (c : Dev nD) : W5 m ρ c (Proc.devRef .tc main_arg7) = W4 m ρ c (Proc.devRef .tc main_arg7) :=
  W5_of_ne m ρ c main_arg7 (by decide)
theorem W5_arg8 (c : Dev nD) : W5 m ρ c (Proc.devRef .tc main_arg8) = W4 m ρ c (Proc.devRef .tc main_arg8) :=
  W5_of_ne m ρ c main_arg8 (by decide)

/-- The fourth launch leaves in its output array one dense layer of the features it was given. -/
theorem W6_v51 (c : Dev nD) :
    W6 m ρ c (Proc.devRef .tc main_v51)
      = Gcn.denseLayer (W5 m ρ c (Proc.devRef .tc main_v46)) (W5 m ρ c (Proc.devRef .tc main_v50)) (W5 m ρ c (Proc.devRef .tc main_arg6)) :=
  (W6_arr m ρ c 3).trans (RegionValue.region3 (V5 m ρ) c)
theorem W6_arg2 (c : Dev nD) : W6 m ρ c (Proc.devRef .tc main_arg2) = W5 m ρ c (Proc.devRef .tc main_arg2) :=
  W6_of_ne m ρ c main_arg2 (by decide)
theorem W6_arg7 (c : Dev nD) : W6 m ρ c (Proc.devRef .tc main_arg7) = W5 m ρ c (Proc.devRef .tc main_arg7) :=
  W6_of_ne m ρ c main_arg7 (by decide)
theorem W6_arg8 (c : Dev nD) : W6 m ρ c (Proc.devRef .tc main_arg8) = W5 m ρ c (Proc.devRef .tc main_arg8) :=
  W6_of_ne m ρ c main_arg8 (by decide)

/-! ## The four launches together -/

/-- After the four launches the last output array is the four-fold dense layer of what the first launch was given. -/
theorem W6_v51_dense4 (c : Dev nD) :
    W6 m ρ c (Proc.devRef .tc main_v51)
      = dense4 (W2 m ρ c (Proc.devRef .tc main_v46)) (W2 m ρ c (Proc.devRef .tc main_v47)) (W2 m ρ c (Proc.devRef .tc main_arg3))
          (W2 m ρ c (Proc.devRef .tc main_arg4)) (W2 m ρ c (Proc.devRef .tc main_arg5)) (W2 m ρ c (Proc.devRef .tc main_arg6)) := by
  unfold dense4
  rw [W6_v51, W5_v50, W4_v49, W3_v48,
    W5_v46, W4_v46, W3_v46,
    W5_arg6, W4_arg6, W3_arg6, W4_arg5, W3_arg5, W3_arg4]

/-- The batch vector and the classifier's weights and bias pass through the four launches unchanged. -/
theorem W6_arg2' (c : Dev nD) : W6 m ρ c (Proc.devRef .tc main_arg2) = W2 m ρ c (Proc.devRef .tc main_arg2) := by
  rw [W6_arg2, W5_arg2, W4_arg2, W3_arg2]
theorem W6_arg7' (c : Dev nD) : W6 m ρ c (Proc.devRef .tc main_arg7) = W2 m ρ c (Proc.devRef .tc main_arg7) := by
  rw [W6_arg7, W5_arg7, W4_arg7, W3_arg7]
theorem W6_arg8' (c : Dev nD) : W6 m ρ c (Proc.devRef .tc main_arg8) = W2 m ρ c (Proc.devRef .tc main_arg8) := by
  rw [W6_arg8, W5_arg8, W4_arg8, W3_arg8]

/-! ## The two results as functions of the launch memory -/

/-- The first result: the classifier's log-softmax over the first 10000 rows of the four-fold dense layer of the padded
    features, at the dense adjacency of the edge list. -/
theorem out0 (c : Dev nD) :
    W8 m ρ c (Proc.devRef .tc main_v60)
      = Gcn.K.logitsF (F := Ideal) (Gcn.K.topF (F := Ideal) (dense4 (Gcn.K.adjF (F := Ideal) (m ((c.tc : Thread nD τ).loc main_arg1))) (Gcn.K.padF (F := Ideal) (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6)))) (m ((c.tc : Thread nD τ).loc main_arg7)) (m ((c.tc : Thread nD τ).loc main_arg8)) := by
  rw [HostRead.W8_out0, W6_v51_dense4, W6_arg7', W6_arg8', HostRead.W2_adj, HostRead.W2_pad, HostRead.W2_arg3,
    HostRead.W2_arg4, HostRead.W2_arg5, HostRead.W2_arg6, HostRead.W2_arg7, HostRead.W2_arg8]

/-- The second result: the per-graph pooling of the same rows. -/
theorem out1 (c : Dev nD) :
    W8 m ρ c (Proc.devRef .tc main_v55)
      = Gcn.K.poolF (F := Ideal) (Gcn.K.topF (F := Ideal) (dense4 (Gcn.K.adjF (F := Ideal) (m ((c.tc : Thread nD τ).loc main_arg1))) (Gcn.K.padF (F := Ideal) (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6)))) (m ((c.tc : Thread nD τ).loc main_arg2)) := by
  rw [HostRead.W8_out1, W6_v51_dense4, W6_arg2', HostRead.W2_adj, HostRead.W2_pad, HostRead.W2_arg3,
    HostRead.W2_arg4, HostRead.W2_arg5, HostRead.W2_arg6, HostRead.W2_arg2]

end Chain

/-- Every weakly fair execution of the kernel program, at the exact-real instance, terminates with its two results at the
    log-softmax and the pooling of the first 10000 rows of the four-fold dense layer, the arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60)
          = Gcn.K.logitsF (F := Ideal) (Gcn.K.topF (F := Ideal) (dense4 (Gcn.K.adjF (F := Ideal) (m ((c.tc : Thread nD τ).loc main_arg1))) (Gcn.K.padF (F := Ideal) (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6)))) (m ((c.tc : Thread nD τ).loc main_arg7)) (m ((c.tc : Thread nD τ).loc main_arg8))
      ∧ r.2.mem ((c.tc : Thread nD τ).loc main_v55)
          = Gcn.K.poolF (F := Ideal) (Gcn.K.topF (F := Ideal) (dense4 (Gcn.K.adjF (F := Ideal) (m ((c.tc : Thread nD τ).loc main_arg1))) (Gcn.K.padF (F := Ideal) (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6)))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (out0 m ρ c), (h c).2.1.trans (out1 m ρ c), (h c).2.2⟩)
    (run_results (F := Ideal) m ρ)

end Cert.KernelIdeal.GenRun

end
-- ==== Proof.Bridge.lean ====
/-
  The two programs meet at the specification.  On real features X, real weights W1..W4 and an edge list whose words are
  node numbers, with s and d the edges' sources and targets:
    - the kernel program's features after its four launches, cut to the first 10000 rows, are the four-fold layer of the
      specification: the dense matrix is the normalized adjacency, the padded features are X with zero rows, each
      launch is a dense layer, and a dense layer of the adjacency is the edge-by-edge layer, padded;
    - the reference's features after its four layers are the same four-fold layer, layer by layer.
  The pooling and the classifier that follow are the same host operations in both programs.
-/
import proofs.«421670_j70325794504771_2_alg».proof.Proof.Spec
import proofs.«421670_j70325794504771_2_alg».proof.Proof.Algebra
import proofs.«421670_j70325794504771_2_alg».proof.Proof.HostDis
import proofs.«421670_j70325794504771_2_alg».proof.Proof.RefLayer
import proofs.«421670_j70325794504771_2_alg».proof.Proof.KHost
import proofs.«421670_j70325794504771_2_alg».proof.Proof.KPad
import proofs.«421670_j70325794504771_2_alg».proof.Proof.RefChunks
import proofs.«421670_j70325794504771_2_alg».proof.Proof.KChain

noncomputable section

namespace Gcn.Bridge

open Idealize.ShloMosaic Idealize.ShloMosaic.ValueIdx

/-- The specification's layer four times over. -/
def layer4 (s d : Fin 640000 → Fin 10000) (X : Fin 10000 → Fin 128 → ℝ) (W1 W2 W3 W4 : Fin 128 → Fin 128 → ℝ) :
    Fin 10000 → Fin 128 → ℝ :=
  Gcn.layer s d (Gcn.layer s d (Gcn.layer s d (Gcn.layer s d X W1) W2) W3) W4

/-- Four dense layers of the padded features by the normalized adjacency are the four-fold layer, padded. -/
theorem dense4_eq (s d : Fin 640000 → Fin 10000) (X : Fin 10000 → Fin 128 → ℝ) (W1 W2 W3 W4 : Fin 128 → Fin 128 → ℝ) :
    Cert.KernelIdeal.GenRun.dense4 (Gcn.arr2 (Gcn.adj s d)) (Gcn.arr2 (Gcn.padRows X)) (Gcn.arr2 W1) (Gcn.arr2 W2) (Gcn.arr2 W3) (Gcn.arr2 W4)
      = Gcn.arr2 (Gcn.padRows (layer4 s d X W1 W2 W3 W4)) := by
  unfold Cert.KernelIdeal.GenRun.dense4 layer4
  rw [Gcn.denseLayer_adj, Gcn.denseLayer_adj, Gcn.denseLayer_adj, Gcn.denseLayer_adj]

/-- The kernel program's final features. -/
theorem kernel_features (ei : Gcn.EdgeWords) (h : Gcn.InRange ei) (X : Fin 10000 → Fin 128 → ℝ) (W1 W2 W3 W4 : Fin 128 → Fin 128 → ℝ) :
    Gcn.K.topF (F := Ideal) (Cert.KernelIdeal.GenRun.dense4 (Gcn.K.adjF (F := Ideal) ei) (Gcn.K.padF (F := Ideal) (Gcn.arr2 X))
        (Gcn.arr2 W1) (Gcn.arr2 W2) (Gcn.arr2 W3) (Gcn.arr2 W4))
      = Gcn.arr2 (layer4 (Gcn.node ei 0) (Gcn.node ei 1) X W1 W2 W3 W4) := by
  rw [Gcn.K.adjF_eq ei h, Gcn.K.padF_eq, dense4_eq, Gcn.K.topF_eq, Gcn.topRows_padRows]

/-- The reference's final features. -/
theorem reference_features (ei : Gcn.EdgeWords) (h : Gcn.InRange ei) (X : Fin 10000 → Fin 128 → ℝ) (W1 W2 W3 W4 : Fin 128 → Fin 128 → ℝ) :
    Cert.ReferenceIdeal.RunAfter.feat (F := Ideal) ei (Gcn.arr2 X) (Gcn.arr2 W1) (Gcn.arr2 W2) (Gcn.arr2 W3) (Gcn.arr2 W4)
      = Gcn.arr2 (layer4 (Gcn.node ei 0) (Gcn.node ei 1) X W1 W2 W3 W4) := by
  unfold Cert.ReferenceIdeal.RunAfter.feat layer4
  rw [Gcn.Ref.disF_eq ei h, Gcn.Ref.layerF_eq ei h, Gcn.Ref.layerF_eq ei h, Gcn.Ref.layerF_eq ei h, Gcn.Ref.layerF_eq ei h]

/-- The classifier and its log-softmax are the same operations in both programs. -/
theorem logits_same (Y : (⟨2, ![10000, 128]⟩ : Shape).Idx → EReal) (fcw : (⟨2, ![128, 10]⟩ : Shape).Idx → EReal)
    (fcb : (⟨1, ![10]⟩ : Shape).Idx → EReal) :
    Gcn.K.logitsF (F := Ideal) Y fcw fcb = Gcn.Ref.logitsF (F := Ideal) Y fcw fcb := rfl

/-- The pooling is the same operation in both programs. -/
theorem pool_same (Y : (⟨2, ![10000, 128]⟩ : Shape).Idx → EReal) (batch : (⟨1, ![10000]⟩ : Shape).Idx → BitVec 32) :
    Gcn.K.poolF (F := Ideal) Y batch = Gcn.Ref.poolF (F := Ideal) Y batch := rfl

end Gcn.Bridge

end
-- ==== Proof.PreDecode.lean ====
/-
  The precondition, read back.

  The precondition is one bit: the conjunction of "every entry of |x| is below +infinity" for each floating-point input and of
  "every word of the edge list is at least 0" and "every word of the edge list is below 10000", the words read signed.  When
  that bit is 1 each conjunct is 1; a conjunction over all entries of an array that is 1 had a 1 at every entry; and over the
  extended reals |x| < +infinity leaves only the real numbers.  So the edge list is in range and the features and the four
  128 x 128 weight matrices are arrays of real numbers.
-/
import proofs.«421670_j70325794504771_2_alg».proof.Pre_finite_inputs
import proofs.«421670_j70325794504771_2_alg».proof.Proof.Spec
import proofs.«421670_j70325794504771_2_alg».proof.Proof.LibHostReads
import Idealize.ShloMosaic.Lib.ReduceAll
import Idealize.ShloMosaic.Lib.StableHlo.Predicate

noncomputable section

namespace Gcn.PreDecode

open Idealize.ShloMosaic Idealize.ShloMosaic.ValueIdx Cert.Pre_finite_inputs

/-- The shape of a scalar has exactly one index. -/
instance : Subsingleton S_.Idx := ⟨fun a b => funext fun d => d.elim0⟩

/-- An extended real whose absolute value max(x, -x) compares below +infinity is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  unfold Ideal.cmp at h
  rw [StableHlo.Predicate.ofBool_eq_one_iff] at h
  have h' : max x (-x) < ⊤ := of_decide_eq_true h
  induction x using EReal.rec with
  | bot => exact absurd h' (by simp)
  | coe r => exact ⟨r, rfl⟩
  | top => exact absurd h' (by simp)

/-- "All of |x| < +infinity" being 1 makes every entry of x a real number. -/
theorem finite_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
      (constantI S_ 1 1#1) hr h0 ix0 = 1#1) (i : s.Idx) : ∃ r : ℝ, x i = (r : EReal) :=
  real_of_abs_lt (x i) (Host.reduce_andi_all _ _ hr h0 ix0 e i)

/-- A rank-2 array of extended reals whose entries are all real is the array of those reals. -/
theorem arr2_of_real {a b : ℕ} (x : (⟨2, ![a, b]⟩ : Shape).Idx → EReal) (hx : ∀ i, ∃ r : ℝ, x i = (r : EReal)) :
    ∃ X : Fin a → Fin b → ℝ, x = Gcn.arr2 X := by
  choose f hf using hx
  refine ⟨fun i j => f (ix2 i j), funext fun idx => ?_⟩
  rw [hf idx]
  exact congrArg (fun j => ((f j : ℝ) : EReal)) (eq_ix2 idx)

/-- "All words ≥ 0" and "all words < 10000" being 1 put every word, read signed, in [0, 10000). -/
theorem range_of_all {s : Shape} {axes : List (Fin s.rank)} (x : IVec s 32)
    (hb : S_.BroadcastsInDim s (![] : Fin 0 → Fin s.rank)) (hr : s.ReducesTo axes S_) (h0 : 0 < S_.numel)
    (eg : Host.reduce IntOp.andi (cmpi .sge x (broadcastInDim s ![] hb (constantI S_ 32 0#32))) (constantI S_ 1 1#1) hr h0 ix0 = 1#1)
    (el : Host.reduce IntOp.andi (cmpi .slt x (broadcastInDim s ![] hb (constantI S_ 32 10000#32))) (constantI S_ 1 1#1) hr h0 ix0 = 1#1)
    (i : s.Idx) : 0 ≤ (x i).toInt ∧ (x i).toInt < 10000 := by
  have g : IntOp.cmpi .sge (x i) 0#32 = 1#1 := Host.reduce_andi_all _ _ hr h0 ix0 eg i
  have l : IntOp.cmpi .slt (x i) 10000#32 = 1#1 := Host.reduce_andi_all _ _ hr h0 ix0 el i
  have g' := IntOp.cmpi_sge.1 g
  have l' := IntOp.cmpi_slt.1 l
  have z : (0#32 : BitVec 32).toInt = 0 := by decide
  have t : (10000#32 : BitVec 32).toInt = 10000 := by decide
  rw [z] at g'
  rw [t] at l'
  exact ⟨g', l'⟩

/-- The precondition decoded: the edge list is in range; the features and the four square weight matrices are real. -/
theorem decode [Facts] (a0 : FVec Ideal S10000x128 .f32) (a1 : IVec S2x640000 32) (a2 : IVec S10000 32)
    (a3 a4 a5 a6 : FVec Ideal S128x128 .f32) (a7 : FVec Ideal S128x10 .f32) (a8 : FVec Ideal S10 .f32)
    (h : Cert.Pre_finite_inputs.fn (F := Ideal) a0 a1 a2 a3 a4 a5 a6 a7 a8 = fun _ => 1#1) :
    Gcn.InRange a1 ∧ (∃ X : Fin 10000 → Fin 128 → ℝ, a0 = Gcn.arr2 X) ∧ (∃ W : Fin 128 → Fin 128 → ℝ, a3 = Gcn.arr2 W)
      ∧ (∃ W : Fin 128 → Fin 128 → ℝ, a4 = Gcn.arr2 W) ∧ (∃ W : Fin 128 → Fin 128 → ℝ, a5 = Gcn.arr2 W)
      ∧ (∃ W : Fin 128 → Fin 128 → ℝ, a6 = Gcn.arr2 W) := by
  have e := congrFun h ix0
  dsimp only [fn, fn_part1, fn_part2] at e
  simp only [andi, IntOp.andi_eq_one] at e
  obtain ⟨⟨⟨⟨⟨⟨⟨⟨h0, h3⟩, h4⟩, h5⟩, h6⟩, -⟩, -⟩, hge⟩, hlt⟩ := e
  exact ⟨fun r e => range_of_all a1 _ _ _ hge hlt (ix2 r e),
    arr2_of_real a0 (finite_of_all a0 _ _ _ h0), arr2_of_real a3 (finite_of_all a3 _ _ _ h3),
    arr2_of_real a4 (finite_of_all a4 _ _ _ h4), arr2_of_real a5 (finite_of_all a5 _ _ _ h5),
    arr2_of_real a6 (finite_of_all a6 _ _ _ h6)⟩

end Gcn.PreDecode

end
-- ==== Proof.lean ====
/-
  The certificate of a four-layer graph convolution: a kernel program that multiplies the (zero-padded) features by a
  dense normalized adjacency matrix in four launches, against a reference that gathers the features at the edges'
  sources and sums them into the edges' targets, both followed by the same pooling and classifier.

  Under the precondition (the float inputs finite; every word of the edge list a node number, 0 <= word < 10000):
    - the three frames: the two kernel programs' by their generated frames, the reference's by its run;
    - the idealization changed nothing the ledger records, so its conjunct is trivial;
    - at the exact-real instance both programs end with the log-softmax and the pooling of the same features, the
      specification's four-fold layer (Proof/Bridge.lean): the dense layer of the adjacency is the edge-by-edge layer by
      distributivity over the reals, which is where finiteness is used.
-/
import proofs.«421670_j70325794504771_2_alg».proof.Defs
import proofs.«421670_j70325794504771_2_alg».proof.Proof.Gen.Kernel
import proofs.«421670_j70325794504771_2_alg».proof.Proof.Gen.Kernel.Skeleton
import proofs.«421670_j70325794504771_2_alg».proof.Proof.Gen.Kernel.Launch
import proofs.«421670_j70325794504771_2_alg».proof.Proof.Gen.Kernel.Points
import proofs.«421670_j70325794504771_2_alg».proof.Proof.Gen.Kernel.Frame
import proofs.«421670_j70325794504771_2_alg».proof.Proof.Gen.KernelIdeal
import proofs.«421670_j70325794504771_2_alg».proof.Proof.Gen.KernelIdeal.Skeleton
import proofs.«421670_j70325794504771_2_alg».proof.Proof.Gen.KernelIdeal.Launch
import proofs.«421670_j70325794504771_2_alg».proof.Proof.Gen.KernelIdeal.Points
import proofs.«421670_j70325794504771_2_alg».proof.Proof.Gen.KernelIdeal.Frame
import proofs.«421670_j70325794504771_2_alg».proof.Proof.Gen.ReferenceIdeal
import proofs.«421670_j70325794504771_2_alg».proof.Proof.Gen.Pre_finite_inputs
import proofs.«421670_j70325794504771_2_alg».proof.Proof.Bridge
import proofs.«421670_j70325794504771_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.RunAfter.run (F := Ideal) m ρ)

theorem preserves : Cert.preserves_Kernel_KernelIdeal := trivial

/-- Both programs end at the log-softmax and the pooling of the specification's four-fold layer. -/
theorem algebraic : Cert.algebraic_KernelIdeal_ReferenceIdeal := by
  intro m ρ m' ρ' hpre hagree
  refine ⟨_, _, Cert.KernelIdeal.GenRun.run_values m ρ, ?_⟩
  refine (θ_run Cert.ReferenceIdeal.defs _ _).mono (fun r h c => ?_) (Cert.ReferenceIdeal.RunAfter.run (F := Ideal) m' ρ')
  obtain ⟨h0, h1, hargs⟩ := h c
  obtain ⟨a0, a1, a2, a3, a4, a5, a6, a7, a8⟩ := hagree c
  obtain ⟨hr, ⟨X, hX⟩, ⟨W1, hW1⟩, ⟨W2, hW2⟩, ⟨W3, hW3⟩, ⟨W4, hW4⟩⟩ :=
    Gcn.PreDecode.decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c)
  refine ⟨h0.trans ?_, h1.trans ?_, hargs⟩
  · rw [a0, a1, a3, a4, a5, a6, a7, a8, hX, hW1, hW2, hW3, hW4, Gcn.Bridge.reference_features _ hr, Gcn.Bridge.kernel_features _ hr]
    exact (Gcn.Bridge.logits_same _ _ _).symm
  · rw [a0, a1, a2, a3, a4, a5, a6, hX, hW1, hW2, hW3, hW4, Gcn.Bridge.reference_features _ hr, Gcn.Bridge.kernel_features _ hr]
    exact (Gcn.Bridge.pool_same _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
